-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v337)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v337) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65536x1 : Shape := ⟨2, ![65536, 1]⟩
abbrev S4096 : Shape := ⟨1, ![4096]⟩
abbrev S65536x2 : Shape := ⟨2, ![65536, 2]⟩
abbrev S65536x32 : Shape := ⟨2, ![65536, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S4096 : S_.BroadcastsInDim S4096 (![] : Fin 0 → Fin S4096.rank)
  reducesTo_S4096_S_d0 : S4096.ReducesTo [0] S_
  bcast_S_S65536x2 : S_.BroadcastsInDim S65536x2 (![] : Fin 0 → Fin S65536x2.rank)
  reducesTo_S65536x2_S_d0_1 : S65536x2.ReducesTo [0, 1] S_

variable [Facts]

def fn_part1 {F : FTy → Type} [FloatOps F] (main_arg4 : FVec F S65536x2 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S65536x2 .f32 := Host.absf main_arg4
  let main_cst_6 : FVec F S_ .f32 := constant S_ .f32 0x7F800000#32
  let main_v20 : FVec F S65536x2 .f32 := broadcastInDim S65536x2 ![] bcast_S_S65536x2 main_cst_6
  let main_v21 : IVec S65536x2 1 := cmpf .olt main_v19 main_v20
  let main_c_7 : IVec S_ 1 := constantI S_ 1 1#1
  let main_v22 : IVec S_ 1 := (fun x v => Host.reduce IntOp.andi x v reducesTo_S65536x2_S_d0_1 h_S_) main_v21 main_c_7
  let main_v23 : IVec S_ 1 := andi main_v18 main_v22
  main_v23

def fn {F : FTy → Type} [FloatOps F] (main_arg0 : FVec F S4x2048x4096 .f32) (main_arg1 : FVec F S65536x1 .f32) (main_arg2 : FVec F S4096 .f32) (main_arg3 : FVec F S4096 .f32) (main_arg4 : FVec F S65536x2 .f32) (main_arg5 : IVec S65536x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S65536x1 : Shape := ⟨2, ![65536, 1]⟩
abbrev S4096 : Shape := ⟨1, ![4096]⟩
abbrev S65536x2 : Shape := ⟨2, ![65536, 2]⟩
abbrev S65536x32 : Shape := ⟨2, ![65536, 32]⟩
abbrev S4 : Shape := ⟨1, ![4]⟩
abbrev S_ : Shape := ⟨0, ![]⟩
abbrev S1x1x4096 : Shape := ⟨3, ![1, 1, 4096]⟩
abbrev S65536x32x1 : Shape := ⟨3, ![65536, 32, 1]⟩
abbrev S1x1x4 : Shape := ⟨3, ![1, 1, 4]⟩
abbrev S65536x32x4 : Shape := ⟨3, ![65536, 32, 4]⟩
abbrev S65536x128 : Shape := ⟨2, ![65536, 128]⟩
abbrev S65536x127 : Shape := ⟨2, ![65536, 127]⟩
abbrev S65536x126 : Shape := ⟨2, ![65536, 126]⟩
abbrev S65536x125 : Shape := ⟨2, ![65536, 125]⟩
abbrev S65536x3 : Shape := ⟨2, ![65536, 3]⟩
abbrev S65536x128x1 : Shape := ⟨3, ![65536, 128, 1]⟩
abbrev S65536x128x2 : Shape := ⟨3, ![65536, 128, 2]⟩
abbrev S65536x256 : Shape := ⟨2, ![65536, 256]⟩
abbrev S4096x4096 : Shape := ⟨2, ![4096, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S4096x1 : Shape := ⟨2, ![4096, 1]⟩
abbrev S1x4096 : Shape := ⟨2, ![1, 4096]⟩
abbrev S8192x4096 : Shape := ⟨2, ![8192, 4096]⟩
abbrev S1024x1024 : Shape := ⟨2, ![1024, 1024]⟩

abbrev nBuf : Space → Nat
  | .hbm => 370
  | .vmem => 7
  | .smem => 0
  | _ => 0

abbrev hbmTy0_0 (i : Nat) : BufTy := match i % 128 with
  | 0 => ⟨S4x2048x4096, .f32⟩
  | 1 => ⟨S65536x1, .f32⟩
  | 2 => ⟨S4096, .f32⟩
  | 3 => ⟨S4096, .f32⟩
  | 4 => ⟨S65536x2, .f32⟩
  | 5 => ⟨S65536x32, .i32⟩
  | 6 => ⟨S4, .i32⟩
  | 7 => ⟨S_, .f32⟩
  | 8 => ⟨S4096, .f32⟩
  | 9 => ⟨S_, .f32⟩
  | 10 => ⟨S4096, .f32⟩
  | 11 => ⟨S4096, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S1x1x4096, .f32⟩
  | 19 => ⟨S4x2048x4096, .f32⟩
  | 20 => ⟨S4x2048x4096, .f32⟩
  | 21 => ⟨S1x1x4096, .f32⟩
  | 22 => ⟨S4x2048x4096, .f32⟩
  | 23 => ⟨S4x2048x4096, .f32⟩
  | 24 => ⟨S4x2048x4096, .f32⟩
  | 25 => ⟨S_, .f32⟩
  | 26 => ⟨S_, .f32⟩
  | 27 => ⟨S_, .f32⟩
  | 28 => ⟨S4x2048x4096, .f32⟩
  | 29 => ⟨S4x2048x4096, .f32⟩
  | 30 => ⟨S_, .f32⟩
  | 31 => ⟨S4x2048x4096, .f32⟩
  | 32 => ⟨S4x2048x4096, .f32⟩
  | 33 => ⟨S1x1x4096, .f32⟩
  | 34 => ⟨S4x2048x4096, .f32⟩
  | 35 => ⟨S4x2048x4096, .f32⟩
  | 36 => ⟨S1x1x4096, .f32⟩
  | 37 => ⟨S4x2048x4096, .f32⟩
  | 38 => ⟨S4x2048x4096, .f32⟩
  | 39 => ⟨S4x2048x4096, .f32⟩
  | 40 => ⟨S4x2048x4096, .f32⟩
  | 41 => ⟨S65536x32x1, .i32⟩
  | 42 => ⟨S1x1x4, .i32⟩
  | 43 => ⟨S65536x32x4, .i32⟩
  | 44 => ⟨S65536x32x4, .i32⟩
  | 45 => ⟨S65536x32x4, .i32⟩
  | 46 => ⟨S_, .i32⟩
  | 47 => ⟨S65536x32x4, .i32⟩
  | 48 => ⟨S65536x32x4, .i32⟩
  | 49 => ⟨S65536x128, .i32⟩
  | 50 => ⟨S_, .i32⟩
  | 51 => ⟨S65536x128, .i32⟩
  | 52 => ⟨S65536x128, .i32⟩
  | 53 => ⟨S65536x127, .i32⟩
  | 54 => ⟨S65536x1, .i32⟩
  | 55 => ⟨S65536x128, .i32⟩
  | 56 => ⟨S_, .i32⟩
  | 57 => ⟨S65536x128, .i32⟩
  | 58 => ⟨S65536x128, .i32⟩
  | 59 => ⟨S65536x128, .i32⟩
  | 60 => ⟨S65536x126, .i32⟩
  | 61 => ⟨S65536x2, .i32⟩
  | 62 => ⟨S65536x128, .i32⟩
  | 63 => ⟨S_, .i32⟩
  | 64 => ⟨S65536x128, .i32⟩
  | 65 => ⟨S65536x128, .i32⟩
  | 66 => ⟨S65536x128, .i32⟩
  | 67 => ⟨S65536x125, .i32⟩
  | 68 => ⟨S65536x3, .i32⟩
  | 69 => ⟨S65536x128, .i32⟩
  | 70 => ⟨S65536x128, .i32⟩
  | 71 => ⟨S_, .i32⟩
  | 72 => ⟨S65536x128, .i32⟩
  | 73 => ⟨S65536x128, .i1⟩
  | 74 => ⟨S_, .i32⟩
  | 75 => ⟨S65536x128, .i32⟩
  | 76 => ⟨S65536x128, .i32⟩
  | 77 => ⟨S65536x128, .i32⟩
  | 78 => ⟨S65536x128x1, .i32⟩
  | 79 => ⟨S65536x128x2, .f32⟩
  | 80 => ⟨S65536x256, .f32⟩
  | 81 => ⟨S4096x4096, .f32⟩
  | 82 => ⟨S4096x2048x2x1, .f32⟩
  | 83 => ⟨S4096x2048x1x1, .f32⟩
  | 84 => ⟨S4096x2048x1, .f32⟩
  | 85 => ⟨S4096x2048x1x1, .f32⟩
  | 86 => ⟨S4096x2048x1, .f32⟩
  | 87 => ⟨S4096x2048x1, .f32⟩
  | 88 => ⟨S4096x2048x1, .f32⟩
  | 89 => ⟨S4096x2048x1x1, .f32⟩
  | 90 => ⟨S4096x2048x1x1, .f32⟩
  | 91 => ⟨S4096x2048x2x1, .f32⟩
  | 92 => ⟨S4096x4096, .f32⟩
  | 93 => ⟨S4096x1024x2x2, .f32⟩
  | 94 => ⟨S4096x1024x1x2, .f32⟩
  | 95 => ⟨S4096x1024x2, .f32⟩
  | 96 => ⟨S4096x1024x1x2, .f32⟩
  | 97 => ⟨S4096x1024x2, .f32⟩
  | 98 => ⟨S4096x1024x2, .f32⟩
  | 99 => ⟨S4096x1024x2, .f32⟩
  | 100 => ⟨S4096x1024x1x2, .f32⟩
  | 101 => ⟨S4096x1024x1x2, .f32⟩
  | 102 => ⟨S4096x1024x2x2, .f32⟩
  | 103 => ⟨S4096x4096, .f32⟩
  | 104 => ⟨S4096x512x2x4, .f32⟩
  | 105 => ⟨S4096x512x1x4, .f32⟩
  | 106 => ⟨S4096x512x4, .f32⟩
  | 107 => ⟨S4096x512x1x4, .f32⟩
  | 108 => ⟨S4096x512x4, .f32⟩
  | 109 => ⟨S4096x512x4, .f32⟩
  | 110 => ⟨S4096x512x4, .f32⟩
  | 111 => ⟨S4096x512x1x4, .f32⟩
  | 112 => ⟨S4096x512x1x4, .f32⟩
  | 113 => ⟨S4096x512x2x4, .f32⟩
  | 114 => ⟨S4096x4096, .f32⟩
  | 115 => ⟨S4096x256x2x8, .f32⟩
  | 116 => ⟨S4096x256x1x8, .f32⟩
  | 117 => ⟨S4096x256x8, .f32⟩
  | 118 => ⟨S4096x256x1x8, .f32⟩
  | 119 => ⟨S4096x256x8, .f32⟩
  | 120 => ⟨S4096x256x8, .f32⟩
  | 121 => ⟨S4096x256x8, .f32⟩
  | 122 => ⟨S4096x256x1x8, .f32⟩
  | 123 => ⟨S4096x256x1x8, .f32⟩
  | 124 => ⟨S4096x256x2x8, .f32⟩
  | 125 => ⟨S4096x4096, .f32⟩
  | 126 => ⟨S4096x128x2x16, .f32⟩
  | 127 => ⟨S4096x128x1x16, .f32⟩
  | _ => ⟨S4x2048x4096, .f32⟩

abbrev hbmTy0_1 (i : Nat) : BufTy := match i % 128 with
  | 0 => ⟨S4096x128x16, .f32⟩
  | 1 => ⟨S4096x128x1x16, .f32⟩
  | 2 => ⟨S4096x128x16, .f32⟩
  | 3 => ⟨S4096x128x16, .f32⟩
  | 4 => ⟨S4096x128x16, .f32⟩
  | 5 => ⟨S4096x128x1x16, .f32⟩
  | 6 => ⟨S4096x128x1x16, .f32⟩
  | 7 => ⟨S4096x128x2x16, .f32⟩
  | 8 => ⟨S4096x4096, .f32⟩
  | 9 => ⟨S4096x64x2x32, .f32⟩
  | 10 => ⟨S4096x64x1x32, .f32⟩
  | 11 => ⟨S4096x64x32, .f32⟩
  | 12 => ⟨S4096x64x1x32, .f32⟩
  | 13 => ⟨S4096x64x32, .f32⟩
  | 14 => ⟨S4096x64x32, .f32⟩
  | 15 => ⟨S4096x64x32, .f32⟩
  | 16 => ⟨S4096x64x1x32, .f32⟩
  | 17 => ⟨S4096x64x1x32, .f32⟩
  | 18 => ⟨S4096x64x2x32, .f32⟩
  | 19 => ⟨S4096x4096, .f32⟩
  | 20 => ⟨S4096x32x2x64, .f32⟩
  | 21 => ⟨S4096x32x1x64, .f32⟩
  | 22 => ⟨S4096x32x64, .f32⟩
  | 23 => ⟨S4096x32x1x64, .f32⟩
  | 24 => ⟨S4096x32x64, .f32⟩
  | 25 => ⟨S4096x32x64, .f32⟩
  | 26 => ⟨S4096x32x64, .f32⟩
  | 27 => ⟨S4096x32x1x64, .f32⟩
  | 28 => ⟨S4096x32x1x64, .f32⟩
  | 29 => ⟨S4096x32x2x64, .f32⟩
  | 30 => ⟨S4096x4096, .f32⟩
  | 31 => ⟨S4096x16x2x128, .f32⟩
  | 32 => ⟨S4096x16x1x128, .f32⟩
  | 33 => ⟨S4096x16x128, .f32⟩
  | 34 => ⟨S4096x16x1x128, .f32⟩
  | 35 => ⟨S4096x16x128, .f32⟩
  | 36 => ⟨S4096x16x128, .f32⟩
  | 37 => ⟨S4096x16x128, .f32⟩
  | 38 => ⟨S4096x16x1x128, .f32⟩
  | 39 => ⟨S4096x16x1x128, .f32⟩
  | 40 => ⟨S4096x16x2x128, .f32⟩
  | 41 => ⟨S4096x4096, .f32⟩
  | 42 => ⟨S4096x8x2x256, .f32⟩
  | 43 => ⟨S4096x8x1x256, .f32⟩
  | 44 => ⟨S4096x8x256, .f32⟩
  | 45 => ⟨S4096x8x1x256, .f32⟩
  | 46 => ⟨S4096x8x256, .f32⟩
  | 47 => ⟨S4096x8x256, .f32⟩
  | 48 => ⟨S4096x8x256, .f32⟩
  | 49 => ⟨S4096x8x1x256, .f32⟩
  | 50 => ⟨S4096x8x1x256, .f32⟩
  | 51 => ⟨S4096x8x2x256, .f32⟩
  | 52 => ⟨S4096x4096, .f32⟩
  | 53 => ⟨S4096x4x2x512, .f32⟩
  | 54 => ⟨S4096x4x1x512, .f32⟩
  | 55 => ⟨S4096x4x512, .f32⟩
  | 56 => ⟨S4096x4x1x512, .f32⟩
  | 57 => ⟨S4096x4x512, .f32⟩
  | 58 => ⟨S4096x4x512, .f32⟩
  | 59 => ⟨S4096x4x512, .f32⟩
  | 60 => ⟨S4096x4x1x512, .f32⟩
  | 61 => ⟨S4096x4x1x512, .f32⟩
  | 62 => ⟨S4096x4x2x512, .f32⟩
  | 63 => ⟨S4096x4096, .f32⟩
  | 64 => ⟨S4096x2x2x1024, .f32⟩
  | 65 => ⟨S4096x2x1x1024, .f32⟩
  | 66 => ⟨S4096x2x1024, .f32⟩
  | 67 => ⟨S4096x2x1x1024, .f32⟩
  | 68 => ⟨S4096x2x1024, .f32⟩
  | 69 => ⟨S4096x2x1024, .f32⟩
  | 70 => ⟨S4096x2x1024, .f32⟩
  | 71 => ⟨S4096x2x1x1024, .f32⟩
  | 72 => ⟨S4096x2x1x1024, .f32⟩
  | 73 => ⟨S4096x2x2x1024, .f32⟩
  | 74 => ⟨S4096x4096, .f32⟩
  | 75 => ⟨S4096x1x2x2048, .f32⟩
  | 76 => ⟨S4096x1x1x2048, .f32⟩
  | 77 => ⟨S4096x1x2048, .f32⟩
  | 78 => ⟨S4096x1x1x2048, .f32⟩
  | 79 => ⟨S4096x1x2048, .f32⟩
  | 80 => ⟨S4096x1x2048, .f32⟩
  | 81 => ⟨S4096x1x2048, .f32⟩
  | 82 => ⟨S4096x1x1x2048, .f32⟩
  | 83 => ⟨S4096x1x1x2048, .f32⟩
  | 84 => ⟨S4096x1x2x2048, .f32⟩
  | 85 => ⟨S4096x4096, .f32⟩
  | 86 => ⟨S_, .f32⟩
  | 87 => ⟨S4096x4096, .f32⟩
  | 88 => ⟨S4096x4096, .f32⟩
  | 89 => ⟨S4096x4096, .f32⟩
  | 90 => ⟨S4096x2048x2x1, .f32⟩
  | 91 => ⟨S4096x2048x1x1, .f32⟩
  | 92 => ⟨S4096x2048x1, .f32⟩
  | 93 => ⟨S4096x2048x1x1, .f32⟩
  | 94 => ⟨S4096x2048x1, .f32⟩
  | 95 => ⟨S4096x2048x1, .f32⟩
  | 96 => ⟨S4096x2048x1, .f32⟩
  | 97 => ⟨S4096x2048x1x1, .f32⟩
  | 98 => ⟨S4096x2048x1x1, .f32⟩
  | 99 => ⟨S4096x2048x2x1, .f32⟩
  | 100 => ⟨S4096x4096, .f32⟩
  | 101 => ⟨S4096x1024x2x2, .f32⟩
  | 102 => ⟨S4096x1024x1x2, .f32⟩
  | 103 => ⟨S4096x1024x2, .f32⟩
  | 104 => ⟨S4096x1024x1x2, .f32⟩
  | 105 => ⟨S4096x1024x2, .f32⟩
  | 106 => ⟨S4096x1024x2, .f32⟩
  | 107 => ⟨S4096x1024x2, .f32⟩
  | 108 => ⟨S4096x1024x1x2, .f32⟩
  | 109 => ⟨S4096x1024x1x2, .f32⟩
  | 110 => ⟨S4096x1024x2x2, .f32⟩
  | 111 => ⟨S4096x4096, .f32⟩
  | 112 => ⟨S4096x512x2x4, .f32⟩
  | 113 => ⟨S4096x512x1x4, .f32⟩
  | 114 => ⟨S4096x512x4, .f32⟩
  | 115 => ⟨S4096x512x1x4, .f32⟩
  | 116 => ⟨S4096x512x4, .f32⟩
  | 117 => ⟨S4096x512x4, .f32⟩
  | 118 => ⟨S4096x512x4, .f32⟩
  | 119 => ⟨S4096x512x1x4, .f32⟩
  | 120 => ⟨S4096x512x1x4, .f32⟩
  | 121 => ⟨S4096x512x2x4, .f32⟩
  | 122 => ⟨S4096x4096, .f32⟩
  | 123 => ⟨S4096x256x2x8, .f32⟩
  | 124 => ⟨S4096x256x1x8, .f32⟩
  | 125 => ⟨S4096x256x8, .f32⟩
  | 126 => ⟨S4096x256x1x8, .f32⟩
  | 127 => ⟨S4096x256x8, .f32⟩
  | _ => ⟨S4x2048x4096, .f32⟩

abbrev hbmTy0_2 (i : Nat) : BufTy := match i % 128 with
  | 0 => ⟨S4096x256x8, .f32⟩
  | 1 => ⟨S4096x256x8, .f32⟩
  | 2 => ⟨S4096x256x1x8, .f32⟩
  | 3 => ⟨S4096x256x1x8, .f32⟩
  | 4 => ⟨S4096x256x2x8, .f32⟩
  | 5 => ⟨S4096x4096, .f32⟩
  | 6 => ⟨S4096x128x2x16, .f32⟩
  | 7 => ⟨S4096x128x1x16, .f32⟩
  | 8 => ⟨S4096x128x16, .f32⟩
  | 9 => ⟨S4096x128x1x16, .f32⟩
  | 10 => ⟨S4096x128x16, .f32⟩
  | 11 => ⟨S4096x128x16, .f32⟩
  | 12 => ⟨S4096x128x16, .f32⟩
  | 13 => ⟨S4096x128x1x16, .f32⟩
  | 14 => ⟨S4096x128x1x16, .f32⟩
  | 15 => ⟨S4096x128x2x16, .f32⟩
  | 16 => ⟨S4096x4096, .f32⟩
  | 17 => ⟨S4096x64x2x32, .f32⟩
  | 18 => ⟨S4096x64x1x32, .f32⟩
  | 19 => ⟨S4096x64x32, .f32⟩
  | 20 => ⟨S4096x64x1x32, .f32⟩
  | 21 => ⟨S4096x64x32, .f32⟩
  | 22 => ⟨S4096x64x32, .f32⟩
  | 23 => ⟨S4096x64x32, .f32⟩
  | 24 => ⟨S4096x64x1x32, .f32⟩
  | 25 => ⟨S4096x64x1x32, .f32⟩
  | 26 => ⟨S4096x64x2x32, .f32⟩
  | 27 => ⟨S4096x4096, .f32⟩
  | 28 => ⟨S4096x32x2x64, .f32⟩
  | 29 => ⟨S4096x32x1x64, .f32⟩
  | 30 => ⟨S4096x32x64, .f32⟩
  | 31 => ⟨S4096x32x1x64, .f32⟩
  | 32 => ⟨S4096x32x64, .f32⟩
  | 33 => ⟨S4096x32x64, .f32⟩
  | 34 => ⟨S4096x32x64, .f32⟩
  | 35 => ⟨S4096x32x1x64, .f32⟩
  | 36 => ⟨S4096x32x1x64, .f32⟩
  | 37 => ⟨S4096x32x2x64, .f32⟩
  | 38 => ⟨S4096x4096, .f32⟩
  | 39 => ⟨S4096x16x2x128, .f32⟩
  | 40 => ⟨S4096x16x1x128, .f32⟩
  | 41 => ⟨S4096x16x128, .f32⟩
  | 42 => ⟨S4096x16x1x128, .f32⟩
  | 43 => ⟨S4096x16x128, .f32⟩
  | 44 => ⟨S4096x16x128, .f32⟩
  | 45 => ⟨S4096x16x128, .f32⟩
  | 46 => ⟨S4096x16x1x128, .f32⟩
  | 47 => ⟨S4096x16x1x128, .f32⟩
  | 48 => ⟨S4096x16x2x128, .f32⟩
  | 49 => ⟨S4096x4096, .f32⟩
  | 50 => ⟨S4096x8x2x256, .f32⟩
  | 51 => ⟨S4096x8x1x256, .f32⟩
  | 52 => ⟨S4096x8x256, .f32⟩
  | 53 => ⟨S4096x8x1x256, .f32⟩
  | 54 => ⟨S4096x8x256, .f32⟩
  | 55 => ⟨S4096x8x256, .f32⟩
  | 56 => ⟨S4096x8x256, .f32⟩
  | 57 => ⟨S4096x8x1x256, .f32⟩
  | 58 => ⟨S4096x8x1x256, .f32⟩
  | 59 => ⟨S4096x8x2x256, .f32⟩
  | 60 => ⟨S4096x4096, .f32⟩
  | 61 => ⟨S4096x4x2x512, .f32⟩
  | 62 => ⟨S4096x4x1x512, .f32⟩
  | 63 => ⟨S4096x4x512, .f32⟩
  | 64 => ⟨S4096x4x1x512, .f32⟩
  | 65 => ⟨S4096x4x512, .f32⟩
  | 66 => ⟨S4096x4x512, .f32⟩
  | 67 => ⟨S4096x4x512, .f32⟩
  | 68 => ⟨S4096x4x1x512, .f32⟩
  | 69 => ⟨S4096x4x1x512, .f32⟩
  | 70 => ⟨S4096x4x2x512, .f32⟩
  | 71 => ⟨S4096x4096, .f32⟩
  | 72 => ⟨S4096x2x2x1024, .f32⟩
  | 73 => ⟨S4096x2x1x1024, .f32⟩
  | 74 => ⟨S4096x2x1024, .f32⟩
  | 75 => ⟨S4096x2x1x1024, .f32⟩
  | 76 => ⟨S4096x2x1024, .f32⟩
  | 77 => ⟨S4096x2x1024, .f32⟩
  | 78 => ⟨S4096x2x1024, .f32⟩
  | 79 => ⟨S4096x2x1x1024, .f32⟩
  | 80 => ⟨S4096x2x1x1024, .f32⟩
  | 81 => ⟨S4096x2x2x1024, .f32⟩
  | 82 => ⟨S4096x4096, .f32⟩
  | 83 => ⟨S4096x1x2x2048, .f32⟩
  | 84 => ⟨S4096x1x1x2048, .f32⟩
  | 85 => ⟨S4096x1x2048, .f32⟩
  | 86 => ⟨S4096x1x1x2048, .f32⟩
  | 87 => ⟨S4096x1x2048, .f32⟩
  | 88 => ⟨S4096x1x2048, .f32⟩
  | 89 => ⟨S4096x1x2048, .f32⟩
  | 90 => ⟨S4096x1x1x2048, .f32⟩
  | 91 => ⟨S4096x1x1x2048, .f32⟩
  | 92 => ⟨S4096x1x2x2048, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x1, .f32⟩
  | 99 => ⟨S4096x4096, .f32⟩
  | 100 => ⟨S4096x4096, .f32⟩
  | 101 => ⟨S1x4096, .f32⟩
  | 102 => ⟨S4096x4096, .f32⟩
  | 103 => ⟨S4096x4096, .f32⟩
  | 104 => ⟨S65536x256, .f32⟩
  | 105 => ⟨S65536x256, .f32⟩
  | 106 => ⟨S65536x256, .f32⟩
  | 107 => ⟨S4096x4096, .f32⟩
  | 108 => ⟨S4096x4096, .f32⟩
  | 109 => ⟨S8192x4096, .f32⟩
  | 110 => ⟨S8192x4096, .bf16⟩
  | 111 => ⟨S4096x4096, .bf16⟩
  | 112 => ⟨S8192x4096, .f32⟩
  | 113 => ⟨S4x2048x4096, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_call2_v1 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call4_v0 : Ref sig .tc := ⟨.hbm, 67, rfl⟩
abbrev main_call4_v1 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_cst_11 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_cst_12 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩
abbrev main_v333 : Ref sig .tc := ⟨.hbm, 365, rfl⟩
abbrev main_v334 : Ref sig .tc := ⟨.hbm, 366, rfl⟩
abbrev main_v335 : Ref sig .tc := ⟨.hbm, 367, rfl⟩
abbrev main_v336 : Ref sig .tc := ⟨.hbm, 368, rfl⟩
abbrev main_v337 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4x2048x4096_S4096_d0_1 : S4x2048x4096.ReducesTo [0, 1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S65536x32_S65536x32x1_0_1 : S65536x32.BroadcastsInDim S65536x32x1 (![0, 1] : Fin 2 → Fin S65536x32x1.rank)
  bcast_S4_S1x1x4_2 : S4.BroadcastsInDim S1x1x4 (![2] : Fin 1 → Fin S1x1x4.rank)
  bcast_S65536x32x1_S65536x32x4_0_1_2 : S65536x32x1.BroadcastsInDim S65536x32x4 (![0, 1, 2] : Fin 3 → Fin S65536x32x4.rank)
  bcast_S1x1x4_S65536x32x4_0_1_2 : S1x1x4.BroadcastsInDim S65536x32x4 (![0, 1, 2] : Fin 3 → Fin S65536x32x4.rank)
  bcast_S_S65536x32x4 : S_.BroadcastsInDim S65536x32x4 (![] : Fin 0 → Fin S65536x32x4.rank)
  shapeCasts_S65536x32x4_S65536x128 : S65536x32x4.ShapeCasts S65536x128
  bcast_S_S65536x128 : S_.BroadcastsInDim S65536x128 (![] : Fin 0 → Fin S65536x128.rank)
  slices_S65536x128_S65536x127_0_1 : S65536x128.Slices ![0, 1] S65536x127
  slices_S65536x128_S65536x1_0_0 : S65536x128.Slices ![0, 0] S65536x1
  concatenates_S65536x127_S65536x1_S65536x128_d1 : Shape.Concatenates [S65536x127, S65536x1] S65536x128 1
  slices_S65536x128_S65536x126_0_2 : S65536x128.Slices ![0, 2] S65536x126
  slices_S65536x128_S65536x2_0_0 : S65536x128.Slices ![0, 0] S65536x2
  concatenates_S65536x126_S65536x2_S65536x128_d1 : Shape.Concatenates [S65536x126, S65536x2] S65536x128 1
  slices_S65536x128_S65536x125_0_3 : S65536x128.Slices ![0, 3] S65536x125
  slices_S65536x128_S65536x3_0_0 : S65536x128.Slices ![0, 0] S65536x3
  concatenates_S65536x125_S65536x3_S65536x128_d1 : Shape.Concatenates [S65536x125, S65536x3] S65536x128 1
  bcast_S65536x128_S65536x128x1_0_1 : S65536x128.BroadcastsInDim S65536x128x1 (![0, 1] : Fin 2 → Fin S65536x128x1.rank)
  shapeCasts_S65536x128x2_S65536x256 : S65536x128x2.ShapeCasts S65536x256
  shapeCasts_S65536x256_S4096x4096 : S65536x256.ShapeCasts S4096x4096
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S65536x256 : S4096x4096.ShapeCasts S65536x256
  bcast_S65536x1_S65536x256_0_1 : S65536x1.BroadcastsInDim S65536x256 (![0, 1] : Fin 2 → Fin S65536x256.rank)
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  gather_S65536x2_S65536x128x1_S65536x128x2_2_0_n_n_0_2_12_wf : GatherDims.WF S65536x2 S65536x128x1 S65536x128x2 [2] [0] [] [0] [] 2 ![1, 2]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S65536x2_S65536x128x1_S65536x128x2_2_0_n_n_0_2_12 : GatherDims S65536x2 S65536x128x1 S65536x128x2 where
  offsetDims := [2]
  collapsedSliceDims := [0]
  operandBatchingDims := []
  startIndicesBatchingDims := []
  startIndexMap := [0]
  indexVectorDim := 2
  sliceSizes := ![1, 2]
  wf := gather_S65536x2_S65536x128x1_S65536x128x2_2_0_n_n_0_2_12_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v334) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v335) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v336) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65536x1 : Shape := ⟨2, ![65536, 1]⟩
abbrev S4096 : Shape := ⟨1, ![4096]⟩
abbrev S65536x2 : Shape := ⟨2, ![65536, 2]⟩
abbrev S65536x32 : Shape := ⟨2, ![65536, 32]⟩
abbrev S4 : Shape := ⟨1, ![4]⟩
abbrev S_ : Shape := ⟨0, ![]⟩
abbrev S1x1x4096 : Shape := ⟨3, ![1, 1, 4096]⟩
abbrev S65536x32x1 : Shape := ⟨3, ![65536, 32, 1]⟩
abbrev S1x1x4 : Shape := ⟨3, ![1, 1, 4]⟩
abbrev S65536x32x4 : Shape := ⟨3, ![65536, 32, 4]⟩
abbrev S65536x128 : Shape := ⟨2, ![65536, 128]⟩
abbrev S65536x127 : Shape := ⟨2, ![65536, 127]⟩
abbrev S65536x126 : Shape := ⟨2, ![65536, 126]⟩
abbrev S65536x125 : Shape := ⟨2, ![65536, 125]⟩
abbrev S65536x3 : Shape := ⟨2, ![65536, 3]⟩
abbrev S65536x128x1 : Shape := ⟨3, ![65536, 128, 1]⟩
abbrev S65536x128x2 : Shape := ⟨3, ![65536, 128, 2]⟩
abbrev S65536x256 : Shape := ⟨2, ![65536, 256]⟩
abbrev S4096x4096 : Shape := ⟨2, ![4096, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S4096x1 : Shape := ⟨2, ![4096, 1]⟩
abbrev S1x4096 : Shape := ⟨2, ![1, 4096]⟩

abbrev nBuf : Space → Nat
  | .hbm => 365
  | .vmem => 0
  | .smem => 0
  | _ => 0

abbrev hbmTy0_0 (i : Nat) : BufTy := match i % 128 with
  | 0 => ⟨S4x2048x4096, .f32⟩
  | 1 => ⟨S65536x1, .f32⟩
  | 2 => ⟨S4096, .f32⟩
  | 3 => ⟨S4096, .f32⟩
  | 4 => ⟨S65536x2, .f32⟩
  | 5 => ⟨S65536x32, .i32⟩
  | 6 => ⟨S4, .i32⟩
  | 7 => ⟨S_, .f32⟩
  | 8 => ⟨S4096, .f32⟩
  | 9 => ⟨S_, .f32⟩
  | 10 => ⟨S4096, .f32⟩
  | 11 => ⟨S4096, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S1x1x4096, .f32⟩
  | 19 => ⟨S4x2048x4096, .f32⟩
  | 20 => ⟨S4x2048x4096, .f32⟩
  | 21 => ⟨S1x1x4096, .f32⟩
  | 22 => ⟨S4x2048x4096, .f32⟩
  | 23 => ⟨S4x2048x4096, .f32⟩
  | 24 => ⟨S4x2048x4096, .f32⟩
  | 25 => ⟨S_, .f32⟩
  | 26 => ⟨S_, .f32⟩
  | 27 => ⟨S_, .f32⟩
  | 28 => ⟨S4x2048x4096, .f32⟩
  | 29 => ⟨S4x2048x4096, .f32⟩
  | 30 => ⟨S_, .f32⟩
  | 31 => ⟨S4x2048x4096, .f32⟩
  | 32 => ⟨S4x2048x4096, .f32⟩
  | 33 => ⟨S1x1x4096, .f32⟩
  | 34 => ⟨S4x2048x4096, .f32⟩
  | 35 => ⟨S4x2048x4096, .f32⟩
  | 36 => ⟨S1x1x4096, .f32⟩
  | 37 => ⟨S4x2048x4096, .f32⟩
  | 38 => ⟨S4x2048x4096, .f32⟩
  | 39 => ⟨S4x2048x4096, .f32⟩
  | 40 => ⟨S4x2048x4096, .f32⟩
  | 41 => ⟨S65536x32x1, .i32⟩
  | 42 => ⟨S1x1x4, .i32⟩
  | 43 => ⟨S65536x32x4, .i32⟩
  | 44 => ⟨S65536x32x4, .i32⟩
  | 45 => ⟨S65536x32x4, .i32⟩
  | 46 => ⟨S_, .i32⟩
  | 47 => ⟨S65536x32x4, .i32⟩
  | 48 => ⟨S65536x32x4, .i32⟩
  | 49 => ⟨S65536x128, .i32⟩
  | 50 => ⟨S_, .i32⟩
  | 51 => ⟨S65536x128, .i32⟩
  | 52 => ⟨S65536x128, .i32⟩
  | 53 => ⟨S65536x127, .i32⟩
  | 54 => ⟨S65536x1, .i32⟩
  | 55 => ⟨S65536x128, .i32⟩
  | 56 => ⟨S_, .i32⟩
  | 57 => ⟨S65536x128, .i32⟩
  | 58 => ⟨S65536x128, .i32⟩
  | 59 => ⟨S65536x128, .i32⟩
  | 60 => ⟨S65536x126, .i32⟩
  | 61 => ⟨S65536x2, .i32⟩
  | 62 => ⟨S65536x128, .i32⟩
  | 63 => ⟨S_, .i32⟩
  | 64 => ⟨S65536x128, .i32⟩
  | 65 => ⟨S65536x128, .i32⟩
  | 66 => ⟨S65536x128, .i32⟩
  | 67 => ⟨S65536x125, .i32⟩
  | 68 => ⟨S65536x3, .i32⟩
  | 69 => ⟨S65536x128, .i32⟩
  | 70 => ⟨S65536x128, .i32⟩
  | 71 => ⟨S_, .i32⟩
  | 72 => ⟨S65536x128, .i32⟩
  | 73 => ⟨S65536x128, .i1⟩
  | 74 => ⟨S_, .i32⟩
  | 75 => ⟨S65536x128, .i32⟩
  | 76 => ⟨S65536x128, .i32⟩
  | 77 => ⟨S65536x128, .i32⟩
  | 78 => ⟨S65536x128x1, .i32⟩
  | 79 => ⟨S65536x128x2, .f32⟩
  | 80 => ⟨S65536x256, .f32⟩
  | 81 => ⟨S4096x4096, .f32⟩
  | 82 => ⟨S4096x2048x2x1, .f32⟩
  | 83 => ⟨S4096x2048x1x1, .f32⟩
  | 84 => ⟨S4096x2048x1, .f32⟩
  | 85 => ⟨S4096x2048x1x1, .f32⟩
  | 86 => ⟨S4096x2048x1, .f32⟩
  | 87 => ⟨S4096x2048x1, .f32⟩
  | 88 => ⟨S4096x2048x1, .f32⟩
  | 89 => ⟨S4096x2048x1x1, .f32⟩
  | 90 => ⟨S4096x2048x1x1, .f32⟩
  | 91 => ⟨S4096x2048x2x1, .f32⟩
  | 92 => ⟨S4096x4096, .f32⟩
  | 93 => ⟨S4096x1024x2x2, .f32⟩
  | 94 => ⟨S4096x1024x1x2, .f32⟩
  | 95 => ⟨S4096x1024x2, .f32⟩
  | 96 => ⟨S4096x1024x1x2, .f32⟩
  | 97 => ⟨S4096x1024x2, .f32⟩
  | 98 => ⟨S4096x1024x2, .f32⟩
  | 99 => ⟨S4096x1024x2, .f32⟩
  | 100 => ⟨S4096x1024x1x2, .f32⟩
  | 101 => ⟨S4096x1024x1x2, .f32⟩
  | 102 => ⟨S4096x1024x2x2, .f32⟩
  | 103 => ⟨S4096x4096, .f32⟩
  | 104 => ⟨S4096x512x2x4, .f32⟩
  | 105 => ⟨S4096x512x1x4, .f32⟩
  | 106 => ⟨S4096x512x4, .f32⟩
  | 107 => ⟨S4096x512x1x4, .f32⟩
  | 108 => ⟨S4096x512x4, .f32⟩
  | 109 => ⟨S4096x512x4, .f32⟩
  | 110 => ⟨S4096x512x4, .f32⟩
  | 111 => ⟨S4096x512x1x4, .f32⟩
  | 112 => ⟨S4096x512x1x4, .f32⟩
  | 113 => ⟨S4096x512x2x4, .f32⟩
  | 114 => ⟨S4096x4096, .f32⟩
  | 115 => ⟨S4096x256x2x8, .f32⟩
  | 116 => ⟨S4096x256x1x8, .f32⟩
  | 117 => ⟨S4096x256x8, .f32⟩
  | 118 => ⟨S4096x256x1x8, .f32⟩
  | 119 => ⟨S4096x256x8, .f32⟩
  | 120 => ⟨S4096x256x8, .f32⟩
  | 121 => ⟨S4096x256x8, .f32⟩
  | 122 => ⟨S4096x256x1x8, .f32⟩
  | 123 => ⟨S4096x256x1x8, .f32⟩
  | 124 => ⟨S4096x256x2x8, .f32⟩
  | 125 => ⟨S4096x4096, .f32⟩
  | 126 => ⟨S4096x128x2x16, .f32⟩
  | 127 => ⟨S4096x128x1x16, .f32⟩
  | _ => ⟨S4x2048x4096, .f32⟩

abbrev hbmTy0_1 (i : Nat) : BufTy := match i % 128 with
  | 0 => ⟨S4096x128x16, .f32⟩
  | 1 => ⟨S4096x128x1x16, .f32⟩
  | 2 => ⟨S4096x128x16, .f32⟩
  | 3 => ⟨S4096x128x16, .f32⟩
  | 4 => ⟨S4096x128x16, .f32⟩
  | 5 => ⟨S4096x128x1x16, .f32⟩
  | 6 => ⟨S4096x128x1x16, .f32⟩
  | 7 => ⟨S4096x128x2x16, .f32⟩
  | 8 => ⟨S4096x4096, .f32⟩
  | 9 => ⟨S4096x64x2x32, .f32⟩
  | 10 => ⟨S4096x64x1x32, .f32⟩
  | 11 => ⟨S4096x64x32, .f32⟩
  | 12 => ⟨S4096x64x1x32, .f32⟩
  | 13 => ⟨S4096x64x32, .f32⟩
  | 14 => ⟨S4096x64x32, .f32⟩
  | 15 => ⟨S4096x64x32, .f32⟩
  | 16 => ⟨S4096x64x1x32, .f32⟩
  | 17 => ⟨S4096x64x1x32, .f32⟩
  | 18 => ⟨S4096x64x2x32, .f32⟩
  | 19 => ⟨S4096x4096, .f32⟩
  | 20 => ⟨S4096x32x2x64, .f32⟩
  | 21 => ⟨S4096x32x1x64, .f32⟩
  | 22 => ⟨S4096x32x64, .f32⟩
  | 23 => ⟨S4096x32x1x64, .f32⟩
  | 24 => ⟨S4096x32x64, .f32⟩
  | 25 => ⟨S4096x32x64, .f32⟩
  | 26 => ⟨S4096x32x64, .f32⟩
  | 27 => ⟨S4096x32x1x64, .f32⟩
  | 28 => ⟨S4096x32x1x64, .f32⟩
  | 29 => ⟨S4096x32x2x64, .f32⟩
  | 30 => ⟨S4096x4096, .f32⟩
  | 31 => ⟨S4096x16x2x128, .f32⟩
  | 32 => ⟨S4096x16x1x128, .f32⟩
  | 33 => ⟨S4096x16x128, .f32⟩
  | 34 => ⟨S4096x16x1x128, .f32⟩
  | 35 => ⟨S4096x16x128, .f32⟩
  | 36 => ⟨S4096x16x128, .f32⟩
  | 37 => ⟨S4096x16x128, .f32⟩
  | 38 => ⟨S4096x16x1x128, .f32⟩
  | 39 => ⟨S4096x16x1x128, .f32⟩
  | 40 => ⟨S4096x16x2x128, .f32⟩
  | 41 => ⟨S4096x4096, .f32⟩
  | 42 => ⟨S4096x8x2x256, .f32⟩
  | 43 => ⟨S4096x8x1x256, .f32⟩
  | 44 => ⟨S4096x8x256, .f32⟩
  | 45 => ⟨S4096x8x1x256, .f32⟩
  | 46 => ⟨S4096x8x256, .f32⟩
  | 47 => ⟨S4096x8x256, .f32⟩
  | 48 => ⟨S4096x8x256, .f32⟩
  | 49 => ⟨S4096x8x1x256, .f32⟩
  | 50 => ⟨S4096x8x1x256, .f32⟩
  | 51 => ⟨S4096x8x2x256, .f32⟩
  | 52 => ⟨S4096x4096, .f32⟩
  | 53 => ⟨S4096x4x2x512, .f32⟩
  | 54 => ⟨S4096x4x1x512, .f32⟩
  | 55 => ⟨S4096x4x512, .f32⟩
  | 56 => ⟨S4096x4x1x512, .f32⟩
  | 57 => ⟨S4096x4x512, .f32⟩
  | 58 => ⟨S4096x4x512, .f32⟩
  | 59 => ⟨S4096x4x512, .f32⟩
  | 60 => ⟨S4096x4x1x512, .f32⟩
  | 61 => ⟨S4096x4x1x512, .f32⟩
  | 62 => ⟨S4096x4x2x512, .f32⟩
  | 63 => ⟨S4096x4096, .f32⟩
  | 64 => ⟨S4096x2x2x1024, .f32⟩
  | 65 => ⟨S4096x2x1x1024, .f32⟩
  | 66 => ⟨S4096x2x1024, .f32⟩
  | 67 => ⟨S4096x2x1x1024, .f32⟩
  | 68 => ⟨S4096x2x1024, .f32⟩
  | 69 => ⟨S4096x2x1024, .f32⟩
  | 70 => ⟨S4096x2x1024, .f32⟩
  | 71 => ⟨S4096x2x1x1024, .f32⟩
  | 72 => ⟨S4096x2x1x1024, .f32⟩
  | 73 => ⟨S4096x2x2x1024, .f32⟩
  | 74 => ⟨S4096x4096, .f32⟩
  | 75 => ⟨S4096x1x2x2048, .f32⟩
  | 76 => ⟨S4096x1x1x2048, .f32⟩
  | 77 => ⟨S4096x1x2048, .f32⟩
  | 78 => ⟨S4096x1x1x2048, .f32⟩
  | 79 => ⟨S4096x1x2048, .f32⟩
  | 80 => ⟨S4096x1x2048, .f32⟩
  | 81 => ⟨S4096x1x2048, .f32⟩
  | 82 => ⟨S4096x1x1x2048, .f32⟩
  | 83 => ⟨S4096x1x1x2048, .f32⟩
  | 84 => ⟨S4096x1x2x2048, .f32⟩
  | 85 => ⟨S4096x4096, .f32⟩
  | 86 => ⟨S_, .f32⟩
  | 87 => ⟨S4096x4096, .f32⟩
  | 88 => ⟨S4096x4096, .f32⟩
  | 89 => ⟨S4096x4096, .f32⟩
  | 90 => ⟨S4096x2048x2x1, .f32⟩
  | 91 => ⟨S4096x2048x1x1, .f32⟩
  | 92 => ⟨S4096x2048x1, .f32⟩
  | 93 => ⟨S4096x2048x1x1, .f32⟩
  | 94 => ⟨S4096x2048x1, .f32⟩
  | 95 => ⟨S4096x2048x1, .f32⟩
  | 96 => ⟨S4096x2048x1, .f32⟩
  | 97 => ⟨S4096x2048x1x1, .f32⟩
  | 98 => ⟨S4096x2048x1x1, .f32⟩
  | 99 => ⟨S4096x2048x2x1, .f32⟩
  | 100 => ⟨S4096x4096, .f32⟩
  | 101 => ⟨S4096x1024x2x2, .f32⟩
  | 102 => ⟨S4096x1024x1x2, .f32⟩
  | 103 => ⟨S4096x1024x2, .f32⟩
  | 104 => ⟨S4096x1024x1x2, .f32⟩
  | 105 => ⟨S4096x1024x2, .f32⟩
  | 106 => ⟨S4096x1024x2, .f32⟩
  | 107 => ⟨S4096x1024x2, .f32⟩
  | 108 => ⟨S4096x1024x1x2, .f32⟩
  | 109 => ⟨S4096x1024x1x2, .f32⟩
  | 110 => ⟨S4096x1024x2x2, .f32⟩
  | 111 => ⟨S4096x4096, .f32⟩
  | 112 => ⟨S4096x512x2x4, .f32⟩
  | 113 => ⟨S4096x512x1x4, .f32⟩
  | 114 => ⟨S4096x512x4, .f32⟩
  | 115 => ⟨S4096x512x1x4, .f32⟩
  | 116 => ⟨S4096x512x4, .f32⟩
  | 117 => ⟨S4096x512x4, .f32⟩
  | 118 => ⟨S4096x512x4, .f32⟩
  | 119 => ⟨S4096x512x1x4, .f32⟩
  | 120 => ⟨S4096x512x1x4, .f32⟩
  | 121 => ⟨S4096x512x2x4, .f32⟩
  | 122 => ⟨S4096x4096, .f32⟩
  | 123 => ⟨S4096x256x2x8, .f32⟩
  | 124 => ⟨S4096x256x1x8, .f32⟩
  | 125 => ⟨S4096x256x8, .f32⟩
  | 126 => ⟨S4096x256x1x8, .f32⟩
  | 127 => ⟨S4096x256x8, .f32⟩
  | _ => ⟨S4x2048x4096, .f32⟩

abbrev hbmTy0_2 (i : Nat) : BufTy := match i % 128 with
  | 0 => ⟨S4096x256x8, .f32⟩
  | 1 => ⟨S4096x256x8, .f32⟩
  | 2 => ⟨S4096x256x1x8, .f32⟩
  | 3 => ⟨S4096x256x1x8, .f32⟩
  | 4 => ⟨S4096x256x2x8, .f32⟩
  | 5 => ⟨S4096x4096, .f32⟩
  | 6 => ⟨S4096x128x2x16, .f32⟩
  | 7 => ⟨S4096x128x1x16, .f32⟩
  | 8 => ⟨S4096x128x16, .f32⟩
  | 9 => ⟨S4096x128x1x16, .f32⟩
  | 10 => ⟨S4096x128x16, .f32⟩
  | 11 => ⟨S4096x128x16, .f32⟩
  | 12 => ⟨S4096x128x16, .f32⟩
  | 13 => ⟨S4096x128x1x16, .f32⟩
  | 14 => ⟨S4096x128x1x16, .f32⟩
  | 15 => ⟨S4096x128x2x16, .f32⟩
  | 16 => ⟨S4096x4096, .f32⟩
  | 17 => ⟨S4096x64x2x32, .f32⟩
  | 18 => ⟨S4096x64x1x32, .f32⟩
  | 19 => ⟨S4096x64x32, .f32⟩
  | 20 => ⟨S4096x64x1x32, .f32⟩
  | 21 => ⟨S4096x64x32, .f32⟩
  | 22 => ⟨S4096x64x32, .f32⟩
  | 23 => ⟨S4096x64x32, .f32⟩
  | 24 => ⟨S4096x64x1x32, .f32⟩
  | 25 => ⟨S4096x64x1x32, .f32⟩
  | 26 => ⟨S4096x64x2x32, .f32⟩
  | 27 => ⟨S4096x4096, .f32⟩
  | 28 => ⟨S4096x32x2x64, .f32⟩
  | 29 => ⟨S4096x32x1x64, .f32⟩
  | 30 => ⟨S4096x32x64, .f32⟩
  | 31 => ⟨S4096x32x1x64, .f32⟩
  | 32 => ⟨S4096x32x64, .f32⟩
  | 33 => ⟨S4096x32x64, .f32⟩
  | 34 => ⟨S4096x32x64, .f32⟩
  | 35 => ⟨S4096x32x1x64, .f32⟩
  | 36 => ⟨S4096x32x1x64, .f32⟩
  | 37 => ⟨S4096x32x2x64, .f32⟩
  | 38 => ⟨S4096x4096, .f32⟩
  | 39 => ⟨S4096x16x2x128, .f32⟩
  | 40 => ⟨S4096x16x1x128, .f32⟩
  | 41 => ⟨S4096x16x128, .f32⟩
  | 42 => ⟨S4096x16x1x128, .f32⟩
  | 43 => ⟨S4096x16x128, .f32⟩
  | 44 => ⟨S4096x16x128, .f32⟩
  | 45 => ⟨S4096x16x128, .f32⟩
  | 46 => ⟨S4096x16x1x128, .f32⟩
  | 47 => ⟨S4096x16x1x128, .f32⟩
  | 48 => ⟨S4096x16x2x128, .f32⟩
  | 49 => ⟨S4096x4096, .f32⟩
  | 50 => ⟨S4096x8x2x256, .f32⟩
  | 51 => ⟨S4096x8x1x256, .f32⟩
  | 52 => ⟨S4096x8x256, .f32⟩
  | 53 => ⟨S4096x8x1x256, .f32⟩
  | 54 => ⟨S4096x8x256, .f32⟩
  | 55 => ⟨S4096x8x256, .f32⟩
  | 56 => ⟨S4096x8x256, .f32⟩
  | 57 => ⟨S4096x8x1x256, .f32⟩
  | 58 => ⟨S4096x8x1x256, .f32⟩
  | 59 => ⟨S4096x8x2x256, .f32⟩
  | 60 => ⟨S4096x4096, .f32⟩
  | 61 => ⟨S4096x4x2x512, .f32⟩
  | 62 => ⟨S4096x4x1x512, .f32⟩
  | 63 => ⟨S4096x4x512, .f32⟩
  | 64 => ⟨S4096x4x1x512, .f32⟩
  | 65 => ⟨S4096x4x512, .f32⟩
  | 66 => ⟨S4096x4x512, .f32⟩
  | 67 => ⟨S4096x4x512, .f32⟩
  | 68 => ⟨S4096x4x1x512, .f32⟩
  | 69 => ⟨S4096x4x1x512, .f32⟩
  | 70 => ⟨S4096x4x2x512, .f32⟩
  | 71 => ⟨S4096x4096, .f32⟩
  | 72 => ⟨S4096x2x2x1024, .f32⟩
  | 73 => ⟨S4096x2x1x1024, .f32⟩
  | 74 => ⟨S4096x2x1024, .f32⟩
  | 75 => ⟨S4096x2x1x1024, .f32⟩
  | 76 => ⟨S4096x2x1024, .f32⟩
  | 77 => ⟨S4096x2x1024, .f32⟩
  | 78 => ⟨S4096x2x1024, .f32⟩
  | 79 => ⟨S4096x2x1x1024, .f32⟩
  | 80 => ⟨S4096x2x1x1024, .f32⟩
  | 81 => ⟨S4096x2x2x1024, .f32⟩
  | 82 => ⟨S4096x4096, .f32⟩
  | 83 => ⟨S4096x1x2x2048, .f32⟩
  | 84 => ⟨S4096x1x1x2048, .f32⟩
  | 85 => ⟨S4096x1x2048, .f32⟩
  | 86 => ⟨S4096x1x1x2048, .f32⟩
  | 87 => ⟨S4096x1x2048, .f32⟩
  | 88 => ⟨S4096x1x2048, .f32⟩
  | 89 => ⟨S4096x1x2048, .f32⟩
  | 90 => ⟨S4096x1x1x2048, .f32⟩
  | 91 => ⟨S4096x1x1x2048, .f32⟩
  | 92 => ⟨S4096x1x2x2048, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x1, .f32⟩
  | 99 => ⟨S4096x4096, .f32⟩
  | 100 => ⟨S4096x4096, .f32⟩
  | 101 => ⟨S1x4096, .f32⟩
  | 102 => ⟨S4096x4096, .f32⟩
  | 103 => ⟨S4096x4096, .f32⟩
  | 104 => ⟨S65536x256, .f32⟩
  | 105 => ⟨S65536x256, .f32⟩
  | 106 => ⟨S65536x256, .f32⟩
  | 107 => ⟨S4096x4096, .f32⟩
  | 108 => ⟨S4x2048x4096, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_call2_v1 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call4_v0 : Ref sig .tc := ⟨.hbm, 67, rfl⟩
abbrev main_call4_v1 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_cst_11 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_cst_12 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩

abbrev nD : Nat := 1
abbrev τ : Topo := Topo.v7x

variable {F : FTy → Type} [FloatOps F]

class Facts₀ : Prop where
  reducesTo_S4x2048x4096_S4096_d0_1 : S4x2048x4096.ReducesTo [0, 1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S65536x32_S65536x32x1_0_1 : S65536x32.BroadcastsInDim S65536x32x1 (![0, 1] : Fin 2 → Fin S65536x32x1.rank)
  bcast_S4_S1x1x4_2 : S4.BroadcastsInDim S1x1x4 (![2] : Fin 1 → Fin S1x1x4.rank)
  bcast_S65536x32x1_S65536x32x4_0_1_2 : S65536x32x1.BroadcastsInDim S65536x32x4 (![0, 1, 2] : Fin 3 → Fin S65536x32x4.rank)
  bcast_S1x1x4_S65536x32x4_0_1_2 : S1x1x4.BroadcastsInDim S65536x32x4 (![0, 1, 2] : Fin 3 → Fin S65536x32x4.rank)
  bcast_S_S65536x32x4 : S_.BroadcastsInDim S65536x32x4 (![] : Fin 0 → Fin S65536x32x4.rank)
  shapeCasts_S65536x32x4_S65536x128 : S65536x32x4.ShapeCasts S65536x128
  bcast_S_S65536x128 : S_.BroadcastsInDim S65536x128 (![] : Fin 0 → Fin S65536x128.rank)
  slices_S65536x128_S65536x127_0_1 : S65536x128.Slices ![0, 1] S65536x127
  slices_S65536x128_S65536x1_0_0 : S65536x128.Slices ![0, 0] S65536x1
  concatenates_S65536x127_S65536x1_S65536x128_d1 : Shape.Concatenates [S65536x127, S65536x1] S65536x128 1
  slices_S65536x128_S65536x126_0_2 : S65536x128.Slices ![0, 2] S65536x126
  slices_S65536x128_S65536x2_0_0 : S65536x128.Slices ![0, 0] S65536x2
  concatenates_S65536x126_S65536x2_S65536x128_d1 : Shape.Concatenates [S65536x126, S65536x2] S65536x128 1
  slices_S65536x128_S65536x125_0_3 : S65536x128.Slices ![0, 3] S65536x125
  slices_S65536x128_S65536x3_0_0 : S65536x128.Slices ![0, 0] S65536x3
  concatenates_S65536x125_S65536x3_S65536x128_d1 : Shape.Concatenates [S65536x125, S65536x3] S65536x128 1
  bcast_S65536x128_S65536x128x1_0_1 : S65536x128.BroadcastsInDim S65536x128x1 (![0, 1] : Fin 2 → Fin S65536x128x1.rank)
  shapeCasts_S65536x128x2_S65536x256 : S65536x128x2.ShapeCasts S65536x256
  shapeCasts_S65536x256_S4096x4096 : S65536x256.ShapeCasts S4096x4096
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S65536x256 : S4096x4096.ShapeCasts S65536x256
  bcast_S65536x1_S65536x256_0_1 : S65536x1.BroadcastsInDim S65536x256 (![0, 1] : Fin 2 → Fin S65536x256.rank)
  gather_S65536x2_S65536x128x1_S65536x128x2_2_0_n_n_0_2_12_wf : GatherDims.WF S65536x2 S65536x128x1 S65536x128x2 [2] [0] [] [0] [] 2 ![1, 2]
  dot_S4x2048x4096_S4096x4096_S4x2048x4096_2_1_01_0_n_n_wf : DotDims.WF S4x2048x4096 S4096x4096 S4x2048x4096 [2] [1] [0, 1] [0] [] []

variable [Facts₀]

def gather_S65536x2_S65536x128x1_S65536x128x2_2_0_n_n_0_2_12 : GatherDims S65536x2 S65536x128x1 S65536x128x2 where
  offsetDims := [2]
  collapsedSliceDims := [0]
  operandBatchingDims := []
  startIndicesBatchingDims := []
  startIndexMap := [0]
  indexVectorDim := 2
  sliceSizes := ![1, 2]
  wf := gather_S65536x2_S65536x128x1_S65536x128x2_2_0_n_n_0_2_12_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KerAcc.lean ====
import proofs.«404041_j68642167324808_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KerAcc

open Cert.KernelIdeal Cert.KernelIdeal.Gen

variable {F : FTy → Type} [FloatOps F]
variable (m : (ℓ : Loc nD τ sig) → Buf (Elt F) ℓ)

/-- The offset of every access in the body is the origin. -/
private theorem hz : (![0, 0] : Fin 2 → Nat) = fun _ => 0 := funext fun a => by fin_cases a <;> rfl

/-- The accumulator after grid point `n`: at the first of each run of four points the zero block plus the product of that
    point's two input blocks, afterwards what the point before left plus the product of this point's blocks. -/
def acc (c : Dev nD) : (n : ℕ) → n < cfg0.N → Vec F S1024x1024 .f32
  | 0, h => k0_pay2 (k0_pay1 (F := F)) (iblk m c 0 ⟨0, h⟩) (iblk m c 1 ⟨0, h⟩)
  | n + 1, h =>
    if (n + 1) % 4 = 0 then k0_pay2 (k0_pay1 (F := F)) (iblk m c 0 ⟨n + 1, h⟩) (iblk m c 1 ⟨n + 1, h⟩)
    else k0_pay2 (acc c n (Nat.lt_of_succ_lt h)) (iblk m c 0 ⟨n + 1, h⟩) (iblk m c 1 ⟨n + 1, h⟩)

/-- An accumulating point (not the first of its run of four): the output block is stored from a read-back of the scratch
    after its one covering store, whose payload is the carried contents plus the product of the two input blocks, each
    read whole. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 : Vec F S1024x1024 .bf16) (xs0 : Vec F S1024x1024 .f32) :
    out0_B_2 c i a3 h3 a4 h4 a5 h5 a6 h6 hc x0 x1 xs0 = k0_pay2 xs0 x0 x1 := by
  unfold out0_B_2
  rw [View.read_writes_eq_canon _ _ _ (cover0_B_2 c i a3 h3 a4 h4 a5 h5 a6 h6 hc x0 x1 xs0)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

/-- At an accumulating point the scratch ends at the same sum: its one covering store's payload. -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 : Vec F S1024x1024 .bf16) (xs0 : Vec F S1024x1024 .f32) :
    sout0_B_0 c i a3 h3 a4 h4 a5 h5 a6 h6 hc x0 x1 xs0 = k0_pay2 xs0 x0 x1 := by
  unfold sout0_B_0
  rw [View.read_writes_eq_canon _ _ _ (scover0_B_0 c i a3 h3 a4 h4 a5 h5 a6 h6 hc x0 x1 xs0)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

/-- A resetting point (the first of its run of four): the scratch is stored the zero block, read back, stored the zero
    block plus the product, and read back again for the output's store; each read-back through the last store's own
    whole rectangle is that store's payload. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .bf16) :
    out0_A_2 c i a3 h3 a4 h4 a5 h5 a6 h6 hc x0 x1 = k0_pay2 (k0_pay1 (F := F)) x0 x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

/-- At a resetting point the scratch ends at the later of its two covering stores: the zero block plus the product. -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .bf16) :
    sout0_A_0 c i a3 h3 a4 h4 a5 h5 a6 h6 hc x0 x1 = k0_pay2 (k0_pay1 (F := F)) x0 x1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- After every point the output's staging buffer and the carried scratch both hold the accumulator. -/
theorem outsAt_eq (c : Dev nD) (n : ℕ) (h : n < cfg0.N) : outsAt0 m c n h = (acc m c n h, acc m c n h) := by
  induction n with
  | zero =>
    rw [show outsAt0 m c 0 h = outsAt0 m c (⟨0, h⟩ : Fin cfg0.N).val (⟨0, h⟩ : Fin cfg0.N).isLt from rfl,
      outsAt0_A m c ⟨0, h⟩ (Nat.zero_mod 4)]
    rw [out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) ((hcond0_0 ⟨0, h⟩).mpr (Nat.zero_mod 4)) (iblk m c 0 ⟨0, h⟩) (iblk m c 1 ⟨0, h⟩),
      sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) ((hcond0_0 ⟨0, h⟩).mpr (Nat.zero_mod 4)) (iblk m c 0 ⟨0, h⟩) (iblk m c 1 ⟨0, h⟩)]
    rfl
  | succ n ih =>
    have ih' := ih (Nat.lt_of_succ_lt h)
    by_cases hA : (n + 1) % 4 = 0
    · rw [show outsAt0 m c (n + 1) h = outsAt0 m c (⟨n + 1, h⟩ : Fin cfg0.N).val (⟨n + 1, h⟩ : Fin cfg0.N).isLt from rfl,
        outsAt0_A m c ⟨n + 1, h⟩ hA]
      rw [out_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) ((hcond0_0 ⟨n + 1, h⟩).mpr hA)
          (iblk m c 0 ⟨n + 1, h⟩) (iblk m c 1 ⟨n + 1, h⟩),
        sout_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) ((hcond0_0 ⟨n + 1, h⟩).mpr hA)
          (iblk m c 0 ⟨n + 1, h⟩) (iblk m c 1 ⟨n + 1, h⟩)]
      simp only [acc, if_pos hA]
    · rw [show outsAt0 m c (n + 1) h = outsAt0 m c (⟨n + 1, h⟩ : Fin cfg0.N).val (⟨n + 1, h⟩ : Fin cfg0.N).isLt from rfl,
        outsAt0_B m c ⟨n + 1, h⟩ hA]
      dsimp only
      rw [out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => hA ((hcond0_0 ⟨n + 1, h⟩).mp hh))
          (iblk m c 0 ⟨n + 1, h⟩) (iblk m c 1 ⟨n + 1, h⟩),
        sout_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => hA ((hcond0_0 ⟨n + 1, h⟩).mp hh))
          (iblk m c 0 ⟨n + 1, h⟩) (iblk m c 1 ⟨n + 1, h⟩)]
      show (k0_pay2 (outsAt0 m c n _).2 _ _, k0_pay2 (outsAt0 m c n _).2 _ _) = _
      rw [ih']
      simp only [acc, if_neg hA]

end Cert.KernelIdeal.KerAcc

end
-- ==== Proof.KerSum.lean ====
import proofs.«404041_j68642167324808_1_alg».proof.Proof.KerAcc
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.KerSum

open Cert.KernelIdeal Cert.KernelIdeal.Gen Cert.KernelIdeal.KerAcc

variable (m : (ℓ : Loc nD τ sig) → Buf (Elt Ideal) ℓ)

/-- The two arrays the kernel is launched on, as the region finds them: the flattened activations and the transposed weight. -/
abbrev lhsArr (m : (ℓ : Loc nD τ sig) → Buf (Elt Ideal) ℓ) (c : Dev nD) : FVec Ideal S8192x4096 .bf16 := V m c main_v334
abbrev rhsArr (m : (ℓ : Loc nD τ sig) → Buf (Elt Ideal) ℓ) (c : Dev nD) : FVec Ideal S4096x4096 .bf16 := V m c main_v335

/-! ## One block product read at an entry -/

/-- The left operand's index at output entry (p, q): its row is the output's row. -/
theorem dot_lhs_0 (p q : Fin 1024) (k : dot_S1024x1024_S1024x1024_S1024x1024_1_0_0_1_n_n.contr.Idx) :
    (dot_S1024x1024_S1024x1024_S1024x1024_1_0_0_1_n_n.lhsIdx (ix2 p q) k 0).val = p.val := by
  simp [DotDims.lhsIdx, dot_S1024x1024_S1024x1024_S1024x1024_1_0_0_1_n_n]; rfl
/-- Its column is the contraction position. -/
theorem dot_lhs_1 (p q : Fin 1024) (k : dot_S1024x1024_S1024x1024_S1024x1024_1_0_0_1_n_n.contr.Idx) :
    (dot_S1024x1024_S1024x1024_S1024x1024_1_0_0_1_n_n.lhsIdx (ix2 p q) k 1).val = (k ⟨0, by decide⟩).val :=
  DotDims.lhsIdx_val_of_single (d := dot_S1024x1024_S1024x1024_S1024x1024_1_0_0_1_n_n) (cl := 1) rfl (ix2 p q) k
/-- The right operand's index at output entry (p, q): its row is the contraction position. -/
theorem dot_rhs_0 (p q : Fin 1024) (k : dot_S1024x1024_S1024x1024_S1024x1024_1_0_0_1_n_n.contr.Idx) :
    (dot_S1024x1024_S1024x1024_S1024x1024_1_0_0_1_n_n.rhsIdx (ix2 p q) k 0).val = (k ⟨0, by decide⟩).val :=
  DotDims.rhsIdx_val_of_single (d := dot_S1024x1024_S1024x1024_S1024x1024_1_0_0_1_n_n) (cr := 0) rfl (ix2 p q) k
/-- Its column is the output's column. -/
theorem dot_rhs_1 (p q : Fin 1024) (k : dot_S1024x1024_S1024x1024_S1024x1024_1_0_0_1_n_n.contr.Idx) :
    (dot_S1024x1024_S1024x1024_S1024x1024_1_0_0_1_n_n.rhsIdx (ix2 p q) k 1).val = q.val := by
  simp [DotDims.rhsIdx, dot_S1024x1024_S1024x1024_S1024x1024_1_0_0_1_n_n]; rfl

/-- One step of the accumulation, read at entry (p, q) over the extended reals: what was there plus the inner product of
    row p of the left block with column q of the right block. -/
theorem pay2_apply (v3 : FVec Ideal S1024x1024 .f32) (v4 v6 : FVec Ideal S1024x1024 .bf16) (p q : Fin 1024) :
    (k0_pay2 (F := Ideal) v3 v4 v6 : FVec Ideal S1024x1024 .f32) (ix2 p q)
      = v3 (ix2 p q) + ∑ r : Fin 1024, v4 (ix2 p r) * v6 (ix2 r q) := by
  unfold k0_pay2
  simp only [shapeCast_self, matmul]
  refine (addf_apply _ _ _).trans ?_
  refine congrArg (v3 (ix2 p q) + ·) ?_
  rw [Ideal.matmul_constant_zero_apply, ← Equiv.sum_comp (contrEquiv1 dot_S1024x1024_S1024x1024_S1024x1024_1_0_0_1_n_n 1024 rfl rfl).symm]
  refine Finset.sum_congr rfl fun r _ => ?_
  have cr := contrEquiv1_symm_val dot_S1024x1024_S1024x1024_S1024x1024_1_0_0_1_n_n 1024 rfl rfl r
  have hl : dot_S1024x1024_S1024x1024_S1024x1024_1_0_0_1_n_n.lhsIdx (ix2 p q) ((contrEquiv1 dot_S1024x1024_S1024x1024_S1024x1024_1_0_0_1_n_n 1024 rfl rfl).symm r) = ix2 p r := by
    funext a; apply Fin.ext
    match a with
    | ⟨0, _⟩ => exact dot_lhs_0 _ _ _
    | ⟨1, _⟩ => exact (dot_lhs_1 _ _ _).trans cr
  have hr : dot_S1024x1024_S1024x1024_S1024x1024_1_0_0_1_n_n.rhsIdx (ix2 p q) ((contrEquiv1 dot_S1024x1024_S1024x1024_S1024x1024_1_0_0_1_n_n 1024 rfl rfl).symm r) = ix2 r q := by
    funext a; apply Fin.ext
    match a with
    | ⟨0, _⟩ => exact (dot_rhs_0 _ _ _).trans cr
    | ⟨1, _⟩ => exact dot_rhs_1 _ _ _
  rw [hl, hr]

/-- The block the accumulation starts from is zero at every entry. -/
theorem pay1_apply (p q : Fin 1024) : (k0_pay1 (F := Ideal) : FVec Ideal S1024x1024 .f32) (ix2 p q) = 0 := by
  unfold k0_pay1
  simp only [shapeCast_self]
  exact Ideal.ofBits_zero_f32

/-! ## The blocks the windows read -/

/-- The left window's block index at point t = 16 i + 4 j + k is (i, k). -/
theorem lhs_block_index : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
/-- The right window's block index at point t = 16 i + 4 j + k is (k, j). -/
theorem rhs_block_index : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

/-- The left block at point t, entry (p, r), is the left array at row 1024 (t / 16) + p, column 1024 (t % 4) + r. -/
theorem lhs_block_apply (c : Dev nD) (t : ℕ) (ht : t < cfg0.N) (p r : Fin 1024) :
    (iblk m c 0 ⟨t, ht⟩ : FVec Ideal S1024x1024 .bf16) (ix2 p r)
      = lhsArr m c (ix2 ⟨1024 * (t / 16) + p.val, by have : cfg0.N = 128 := N_0; omega⟩
          ⟨1024 * (t % 4) + r.val, by omega⟩) := by
  have hi : win0_0.index ⟨t, ht⟩ 0 = t / 16 ∧ win0_0.index ⟨t, ht⟩ 1 = t % 4 := lhs_block_index ⟨t, ht⟩
  unfold iblk
  rw [View.read_apply]
  show V m c main_v334 _ = V m c main_v334 _
  congr 1
  funext a
  apply Fin.ext
  match a with
  | ⟨0, _⟩ => show win0_0.index ⟨t, ht⟩ 0 * 1024 + 1 * p.val = 1024 * (t / 16) + p.val; rw [hi.1]; omega
  | ⟨1, _⟩ => show win0_0.index ⟨t, ht⟩ 1 * 1024 + 1 * r.val = 1024 * (t % 4) + r.val; rw [hi.2]; omega

/-- The right block at point t, entry (r, q), is the right array at row 1024 (t % 4) + r, column 1024 (t / 4 % 4) + q. -/
theorem rhs_block_apply (c : Dev nD) (t : ℕ) (ht : t < cfg0.N) (r q : Fin 1024) :
    (iblk m c 1 ⟨t, ht⟩ : FVec Ideal S1024x1024 .bf16) (ix2 r q)
      = rhsArr m c (ix2 ⟨1024 * (t % 4) + r.val, by omega⟩ ⟨1024 * (t / 4 % 4) + q.val, by omega⟩) := by
  have hi : win0_1.index ⟨t, ht⟩ 0 = t % 4 ∧ win0_1.index ⟨t, ht⟩ 1 = t / 4 % 4 := rhs_block_index ⟨t, ht⟩
  unfold iblk
  rw [View.read_apply]
  show V m c main_v335 _ = V m c main_v335 _
  congr 1
  funext a
  apply Fin.ext
  match a with
  | ⟨0, _⟩ => show win0_1.index ⟨t, ht⟩ 0 * 1024 + 1 * r.val = 1024 * (t % 4) + r.val; rw [hi.1]; omega
  | ⟨1, _⟩ => show win0_1.index ⟨t, ht⟩ 1 * 1024 + 1 * q.val = 1024 * (t / 4 % 4) + q.val; rw [hi.2]; omega

/-! ## Four sums of 1024 terms are one sum of 4096 -/

/-- A sum over 4096 positions, split into four consecutive runs of 1024. -/
theorem sum_4096 {M : Type*} [AddCommMonoid M] (f : Fin 4096 → M) :
    ∑ k : Fin 4096, f k
      = (∑ r : Fin 1024, f ⟨1024 * 0 + r.val, by omega⟩) + (∑ r : Fin 1024, f ⟨1024 * 1 + r.val, by omega⟩)
        + (∑ r : Fin 1024, f ⟨1024 * 2 + r.val, by omega⟩) + (∑ r : Fin 1024, f ⟨1024 * 3 + r.val, by omega⟩) := by
  have key : ∀ a : Fin 4, ∀ b : ℕ, a.val = b → ∀ hb : ∀ r : Fin 1024, 1024 * b + r.val < 4096,
      ∑ r : Fin 1024, f (finProdFinEquiv (m := 4) (n := 1024) (a, r)) = ∑ r : Fin 1024, f ⟨1024 * b + r.val, hb r⟩ := by
    intro a b hab hb
    subst hab
    refine Finset.sum_congr rfl fun r _ => congrArg f (Fin.ext ?_)
    show r.val + 1024 * a.val = 1024 * a.val + r.val
    omega
  rw [← Equiv.sum_comp (finProdFinEquiv (m := 4) (n := 1024)) f, Fintype.sum_prod_type, Fin.sum_univ_four,
    key 0 0 rfl, key 1 1 rfl, key 2 2 rfl, key 3 3 rfl]

/-- Four-term sums agree when the terms agree one by one. -/
theorem add4_congr {M : Type*} [Add M] {a b c d a' b' c' d' : M} (ha : a = a') (hb : b = b') (hc : c = c') (hd : d = d') :
    a + b + c + d = a' + b' + c' + d' := by
  subst ha hb hc hd; rfl

/-- Two entries' product is the same product when the coordinates are the same numbers. -/
theorem entry_congr (A : FVec Ideal S8192x4096 .bf16) (B : FVec Ideal S4096x4096 .bf16) {i i' k k' l l' j j' : ℕ}
    (hi : i < 8192) (hk : k < 4096) (hl : l < 4096) (hj : j < 4096)
    (hi' : i' < 8192) (hk' : k' < 4096) (hl' : l' < 4096) (hj' : j' < 4096)
    (ei : i = i') (ek : k = k') (el : l = l') (ej : j = j') :
    A (ix2 ⟨i, hi⟩ ⟨k, hk⟩) * B (ix2 ⟨l, hl⟩ ⟨j, hj⟩) = A (ix2 ⟨i', hi'⟩ ⟨k', hk'⟩) * B (ix2 ⟨l', hl'⟩ ⟨j', hj'⟩) := by
  subst ei ek el ej; rfl

/-! ## The accumulator after a run of four points -/

/-- At the first point of a run the accumulation starts from the zero block. -/
theorem acc_first (c : Dev nD) (n : ℕ) (h : n < cfg0.N) (hn : n % 4 = 0) :
    acc m c n h = k0_pay2 (k0_pay1 (F := Ideal)) (iblk m c 0 ⟨n, h⟩) (iblk m c 1 ⟨n, h⟩) := by
  cases n with
  | zero => rfl
  | succ n => rw [acc, if_pos hn]

/-- At any other point it goes on from what the point before left. -/
theorem acc_next (c : Dev nD) (n : ℕ) (h : n + 1 < cfg0.N) (hn : (n + 1) % 4 ≠ 0) :
    acc m c (n + 1) h = k0_pay2 (acc m c n (Nat.lt_of_succ_lt h)) (iblk m c 0 ⟨n + 1, h⟩) (iblk m c 1 ⟨n + 1, h⟩) := by
  rw [acc, if_neg hn]

/-- The statement at a point given as a number: after the last point t = n + 3 of the run that starts at n ≡ 0 (mod 4), entry (p, q)
    is zero plus the four partial inner products in order, each block entry an array entry, and the four runs of 1024 make up the 4096. -/
theorem acc_apply_nat (c : Dev nD) (t : ℕ) (ht : t < cfg0.N) (h3 : t % 4 = 3) (p q : Fin 1024) :
    (acc m c t ht : FVec Ideal S1024x1024 .f32) (ix2 p q)
      = ∑ k : Fin 4096, lhsArr m c (ix2 ⟨1024 * (t / 16) + p.val, by have : cfg0.N = 128 := N_0; omega⟩ k)
          * rhsArr m c (ix2 k ⟨1024 * (t / 4 % 4) + q.val, by omega⟩) := by
  obtain ⟨n, rfl⟩ : ∃ n, t = n + 3 := ⟨t - 3, by omega⟩
  have hn : n % 4 = 0 := by omega
  rw [acc_next m c (n + 2) ht (by omega), pay2_apply,
    acc_next m c (n + 1) (by omega) (by omega), pay2_apply,
    acc_next m c n (by omega) (by omega), pay2_apply,
    acc_first m c n (by omega) hn, pay2_apply, pay1_apply, zero_add]
  simp only [lhs_block_apply, rhs_block_apply]
  rw [sum_4096]
  refine add4_congr ?_ ?_ ?_ ?_
  · exact Finset.sum_congr rfl fun r _ => entry_congr (lhsArr m c) (rhsArr m c) _ _ _ _ _ _ _ _
      (by omega) (by omega) (by omega) (by omega)
  · exact Finset.sum_congr rfl fun r _ => entry_congr (lhsArr m c) (rhsArr m c) _ _ _ _ _ _ _ _
      (by omega) (by omega) (by omega) (by omega)
  · exact Finset.sum_congr rfl fun r _ => entry_congr (lhsArr m c) (rhsArr m c) _ _ _ _ _ _ _ _
      (by omega) (by omega) (by omega) (by omega)
  · exact Finset.sum_congr rfl fun r _ => entry_congr (lhsArr m c) (rhsArr m c) _ _ _ _ _ _ _ _
      (by omega) (by omega) (by omega) (by omega)

/-- Over the extended reals, after the last of a run of four points (point `t = 16·i + 4·j + 3`) the accumulator's entry (p, q) is the
    whole inner product of row 1024·i + p of the left array with column 1024·j + q of the right one: the four partial sums of 1024 terms, added
    in order onto zero, are the sum of all 4096. -/
theorem acc_apply (c : Dev nD) (t : Fin cfg0.N) (h3 : t.val % 4 = 3) (p q : Fin 1024) :
    (acc m c t.val t.isLt : FVec Ideal S1024x1024 .f32) (ix2 p q)
      = ∑ k : Fin 4096, lhsArr m c (ix2 ⟨1024 * (t.val / 16) + p.val, by have := t.isLt; have : cfg0.N = 128 := N_0; omega⟩ k)
          * rhsArr m c (ix2 k ⟨1024 * (t.val / 4 % 4) + q.val, by omega⟩) :=
  acc_apply_nat m c t.val t.isLt h3 p q

end Cert.KernelIdeal.KerSum

end
-- ==== Proof.KerVal.lean ====
import proofs.«404041_j68642167324808_1_alg».proof.Proof.KerSum
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerVal

open Cert.KernelIdeal Cert.KernelIdeal.Gen Cert.KernelIdeal.KerAcc Cert.KernelIdeal.KerSum

variable (m : (ℓ : Loc nD τ sig) → Buf (Elt Ideal) ℓ) (ρ : Dev nD → PrngReg)

/-- The product array: entry (r, o) is the inner product of row r of the left array with column o of the right one. -/
def G (m : (ℓ : Loc nD τ sig) → Buf (Elt Ideal) ℓ) (c : Dev nD) : FVec Ideal S8192x4096 .f32 :=
  fun i => ∑ k : Fin 4096, lhsArr m c (ix2 (n0 := 8192) (n1 := 4096) (i 0) k) * rhsArr m c (ix2 (n0 := 4096) (n1 := 4096) k (i 1))

theorem G_apply (c : Dev nD) (r : Fin 8192) (o : Fin 4096) :
    G m c (ix2 r o) = ∑ k : Fin 4096, lhsArr m c (ix2 r k) * rhsArr m c (ix2 k o) := rfl

/-- The output window's block at point t = 16·i + 4·j + k is block (i, j) = (t / 16, t / 4 % 4), a full 1024 × 1024 block — decided over the grid. -/
theorem idx_facts : ∀ t : Fin cfg0.N, win0_2.index t (0 : Fin 2) = t.val / 16 ∧ win0_2.index t (1 : Fin 2) = t.val / 4 % 4
    ∧ win0_2.xsize (grid0.coords t) (0 : Fin 2) = 1024 ∧ win0_2.xsize (grid0.coords t) (1 : Fin 2) = 1024 :=
  (by decide +kernel : ∀ t : Fin grid0.N, _)

/-- What a point with t % 4 = 3 writes back is its block of the product array. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have hN : t.val < 128 := lt_of_lt_of_eq t.isLt (show cfg0.N = 128 from N_0)
  obtain ⟨e0, e1, -, -⟩ := idx_facts t
  show (cfg0.win 2).cut (grid0.coords t) ((dats m 0 c).after 2 t) = _
  rw [after0_2, KerAcc.outsAt_eq]
  funext j
  rw [View.read_apply]
  show (acc m c t.val t.isLt : FVec Ideal S1024x1024 .f32) j = G m c (((cfg0.win 2).blk t).view.emb j)
  obtain ⟨p, q, rfl⟩ : ∃ (p q : Fin 1024), j = ix2 p q := ⟨j 0, j 1, eq_ix2 j⟩
  have hemb : ((cfg0.win 2).blk t).view.emb (ix2 p q)
      = ix2 (n0 := 8192) (n1 := 4096) ⟨1024 * (t.val / 16) + p.val, by omega⟩ ⟨1024 * (t.val / 4 % 4) + q.val, by omega⟩ := by
    funext a; apply Fin.ext
    match a with
    | ⟨0, _⟩ => show win0_2.index t (0 : Fin 2) * 1024 + 1 * p.val = 1024 * (t.val / 16) + p.val; rw [e0]; omega
    | ⟨1, _⟩ => show win0_2.index t (1 : Fin 2) * 1024 + 1 * q.val = 1024 * (t.val / 4 % 4) + q.val; rw [e1]; omega
  rw [hemb]
  exact acc_apply m c t h3 p q

/-- Every index of the array lies in the block written back at the point 16·(r / 1024) + 4·(o / 1024) + 3. -/
theorem cover (i : S8192x4096.Idx) :
    ∃ t : Fin cfg0.N, (cfg0.win 2).flush t = true ∧ i ∈ ((cfg0.win 2).blk t).view.set := by
  have h0 : (i 0).val < 8192 := idx2_lt0 i
  have h1 : (i 1).val < 4096 := idx2_lt1 i
  have hN : cfg0.N = 128 := N_0
  refine ⟨⟨16 * ((i 0).val / 1024) + 4 * ((i 1).val / 1024) + 3, by omega⟩, (flush0_2 _).mpr (by show (16 * ((i 0).val / 1024) + 4 * ((i 1).val / 1024) + 3) % 4 = 3; omega), ?_⟩
  generalize ht : (⟨16 * ((i 0).val / 1024) + 4 * ((i 1).val / 1024) + 3, by omega⟩ : Fin cfg0.N) = t
  have hv : t.val = 16 * ((i 0).val / 1024) + 4 * ((i 1).val / 1024) + 3 := by rw [← ht]
  obtain ⟨e0, e1, x0, x1⟩ := idx_facts t
  show i ∈ ((View.whole main_v336).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [e0, x0, show win0_2.size 0 = 1024 from rfl]; omega
  | ⟨1, _⟩ =>
    show win0_2.index t 1 * win0_2.size 1 ≤ (i 1 : Nat) ∧ (i 1 : Nat) < win0_2.index t 1 * win0_2.size 1 + win0_2.xsize (grid0.coords t) 1
    rw [e1, x1, show win0_2.size 1 = 1024 from rfl]; omega

/-- So after the region the output array is the product array. -/
theorem final (c : Dev nD) : (dats m 0 c).arrAt 2 cfg0.N = G m c :=
  (dats m 0 c).arrAt_eq_of_cover 2 (G m c) (fun t hf => flushed_eq m c t hf) (fun i => cover i)

/-- The reshape after the region reads the output array, which holds the product array. -/
theorem tail_eq (c : Dev nD) :
    Pipeline.afterTail₀ cfgs (dats m) 0 (V0 m) [hostOps1] c main_v337
      = shapeCast S4x2048x4096 (G m c) shapeCasts_S8192x4096_S4x2048x4096 := by
  have hw : Pipeline.withArrays (cfgs 0).spec c (V0 m c) (fun w => (dats m 0 c).arrAt w (cfgs 0).N) (Proc.devRef .tc main_v336) = G m c :=
    (Pipeline.withArrays_arr spec0 launch0.win.arr_inj c _ _ 2).trans (final m c)
  unfold Pipeline.afterTail₀
  show StableHlo.after hostOps1 _ (Proc.devRef .tc main_v337) = _
  after_results
  exact congrArg (fun x : FVec Ideal S8192x4096 .f32 => shapeCast S4x2048x4096 x shapeCasts_S8192x4096_S4x2048x4096) hw

/-- What the program's result array holds after the run. -/
def result (m : (ℓ : Loc nD τ sig) → Buf (Elt Ideal) ℓ) (c : Dev nD) : FVec Ideal S4x2048x4096 .f32 :=
  shapeCast S4x2048x4096 (G m c) shapeCasts_S8192x4096_S4x2048x4096

/-- The run read back: the result array at `result`, the arguments unchanged. -/
theorem run : θ_run defs (onTc (τ := τ) (main (F := Ideal))) ⟨m, fun _ => 0, ρ⟩ fun r => ∀ c : Dev nD,
      r.2.mem ((c.tc : Thread nD τ).loc main_v337) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v337 (Pipeline.mem_restRefs_of main_v337 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- Entry (b, s, o) of the result is row 2048·b + s of the staged left operand against column o of the staged right operand. -/
theorem result_apply (c : Dev nD) (b : Fin 4) (s : Fin 2048) (o : Fin 4096) :
    result m c (ix3 b s o) = ∑ k : Fin 4096,
      lhsArr m c (ix2 ⟨2048 * b.val + s.val, by omega⟩ k) * rhsArr m c (ix2 k o) := by
  have hb : b.val < 4 := b.isLt
  have hs : s.val < 2048 := s.isLt
  unfold result
  refine (shapeCast_apply (G m c) shapeCasts_S8192x4096_S4x2048x4096 (ix3 b s o)
    (ix2 (n0 := 8192) (n1 := 4096) ⟨2048 * b.val + s.val, by omega⟩ o) ?_).trans (G_apply m c _ o)
  rw [Shape.rowMajor_val_two, Shape.rowMajor_val_three]
  show (2048 * b.val + s.val) * 4096 + o.val = (b.val * 2048 + s.val) * 4096 + o.val
  omega

end Cert.KernelIdeal.KerVal

end
-- ==== Proof.PfxK.lean ====
import proofs.«404041_j68642167324808_1_alg».proof.KernelIdeal
import proofs.«404041_j68642167324808_1_alg».proof.Proof.Gen.KernelIdeal
import Idealize.ShloMosaic.Lib.StableHlo.Run

set_option maxRecDepth 4404

noncomputable section

namespace Cert.KernelIdeal.Pfx

open Cert.KernelIdeal Cert.KernelIdeal.Gen Idealize.ShloMosaic Idealize.ShloMosaic.TcCoe Idealize.SL.Sem

variable {F : FTy → Type} [FloatOps F]

/-- Operations 1 … 12 of the host prefix. -/
abbrev w0 : List (HloOp τ sig (Elt F)) :=
  [ StableHlo.nullary main_c (fun i => lit0 (S4.rowMajor i)),
    StableHlo.nullary main_cst (constant S_ .f32 0x7F800000#32),
    StableHlo.binary main_arg0 main_cst main_v0 ((fun x v => Host.reduce FloatOps.minimumf x v reducesTo_S4x2048x4096_S4096_d0_1 h_S_) : (⟨S4x2048x4096, .f32⟩ : BufTy).Contents (Elt F) → (⟨S_, .f32⟩ : BufTy).Contents (Elt F) → (⟨S4096, .f32⟩ : BufTy).Contents (Elt F)),
    StableHlo.nullary main_cst_0 (constant S_ .f32 0xFF800000#32),
    StableHlo.binary main_arg0 main_cst_0 main_v1 ((fun x v => Host.reduce FloatOps.maximumf x v reducesTo_S4x2048x4096_S4096_d0_1 h_S_) : (⟨S4x2048x4096, .f32⟩ : BufTy).Contents (Elt F) → (⟨S_, .f32⟩ : BufTy).Contents (Elt F) → (⟨S4096, .f32⟩ : BufTy).Contents (Elt F)),
    StableHlo.binary main_v1 main_v0 main_v2 (subf : (⟨S4096, .f32⟩ : BufTy).Contents (Elt F) → (⟨S4096, .f32⟩ : BufTy).Contents (Elt F) → (⟨S4096, .f32⟩ : BufTy).Contents (Elt F)),
    StableHlo.nullary main_cst_1 (constant S_ .f32 0x437F0000#32),
    StableHlo.unary main_cst_1 main_v3 (broadcastInDim S4096 ![] bcast_S_S4096 : (⟨S_, .f32⟩ : BufTy).Contents (Elt F) → (⟨S4096, .f32⟩ : BufTy).Contents (Elt F)),
    StableHlo.binary main_v2 main_v3 main_v4 (Host.divf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x322BCC77#32),
    StableHlo.unary main_cst_2 main_v5 (broadcastInDim S4096 ![] bcast_S_S4096 : (⟨S_, .f32⟩ : BufTy).Contents (Elt F) → (⟨S4096, .f32⟩ : BufTy).Contents (Elt F)),
    StableHlo.binary main_v4 main_v5 main_v6 (maximumf : (⟨S4096, .f32⟩ : BufTy).Contents (Elt F) → (⟨S4096, .f32⟩ : BufTy).Contents (Elt F) → (⟨S4096, .f32⟩ : BufTy).Contents (Elt F)) ]

/-- Operations 13 … 24 of the host prefix. -/
abbrev w1 : List (HloOp τ sig (Elt F)) :=
  [ StableHlo.unary main_v0 main_v7 (broadcastInDim S1x1x4096 ![2] bcast_S4096_S1x1x4096_2 : (⟨S4096, .f32⟩ : BufTy).Contents (Elt F) → (⟨S1x1x4096, .f32⟩ : BufTy).Contents (Elt F)),
    StableHlo.unary main_v7 main_v8 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_arg0 main_v8 main_v9 (subf : (⟨S4x2048x4096, .f32⟩ : BufTy).Contents (Elt F) → (⟨S4x2048x4096, .f32⟩ : BufTy).Contents (Elt F) → (⟨S4x2048x4096, .f32⟩ : BufTy).Contents (Elt F)),
    StableHlo.unary main_v6 main_v10 (broadcastInDim S1x1x4096 ![2] bcast_S4096_S1x1x4096_2 : (⟨S4096, .f32⟩ : BufTy).Contents (Elt F) → (⟨S1x1x4096, .f32⟩ : BufTy).Contents (Elt F)),
    StableHlo.unary main_v10 main_v11 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v9 main_v11 main_v12 (Host.divf : (⟨S4x2048x4096, .f32⟩ : BufTy).Contents (Elt F) → (⟨S4x2048x4096, .f32⟩ : BufTy).Contents (Elt F) → (⟨S4x2048x4096, .f32⟩ : BufTy).Contents (Elt F)),
    StableHlo.TRef.unary (.of main_v12 : StableHlo.TRef sig ⟨S4x2048x4096, .f32⟩) (.of main_v13 : StableHlo.TRef sig ⟨S4x2048x4096, .f32⟩) Host.roundeven,
    StableHlo.nullary main_cst_3 (constant S_ .f32 0x00000000#32),
    StableHlo.nullary main_cst_4 (constant S_ .f32 0x437F0000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x2048x4096, .f32⟩) (broadcastInDim S4x2048x4096 ![] bcast_S_S4x2048x4096),
    StableHlo.TRef.binary (.of main_call1_v1 : StableHlo.TRef sig ⟨S4x2048x4096, .f32⟩) (.of main_v13 : StableHlo.TRef sig ⟨S4x2048x4096, .f32⟩) (.of main_call1_v2 : StableHlo.TRef sig ⟨S4x2048x4096, .f32⟩) maximumf ]

/-- Operations 25 … 36 of the host prefix. -/
abbrev w2 : List (HloOp τ sig (Elt F)) :=
  [ StableHlo.TRef.unary (.of main_cst_4 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S4x2048x4096, .f32⟩) (broadcastInDim S4x2048x4096 ![] bcast_S_S4x2048x4096),
    StableHlo.TRef.binary (.of main_call1_v4 : StableHlo.TRef sig ⟨S4x2048x4096, .f32⟩) (.of main_call1_v2 : StableHlo.TRef sig ⟨S4x2048x4096, .f32⟩) (.of main_v14 : StableHlo.TRef sig ⟨S4x2048x4096, .f32⟩) minimumf,
    StableHlo.unary main_v6 main_v15 (broadcastInDim S1x1x4096 ![2] bcast_S4096_S1x1x4096_2 : (⟨S4096, .f32⟩ : BufTy).Contents (Elt F) → (⟨S1x1x4096, .f32⟩ : BufTy).Contents (Elt F)),
    StableHlo.unary main_v15 main_v16 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v14 main_v16 main_v17 (mulf : (⟨S4x2048x4096, .f32⟩ : BufTy).Contents (Elt F) → (⟨S4x2048x4096, .f32⟩ : BufTy).Contents (Elt F) → (⟨S4x2048x4096, .f32⟩ : BufTy).Contents (Elt F)),
    StableHlo.unary main_v0 main_v18 (broadcastInDim S1x1x4096 ![2] bcast_S4096_S1x1x4096_2 : (⟨S4096, .f32⟩ : BufTy).Contents (Elt F) → (⟨S1x1x4096, .f32⟩ : BufTy).Contents (Elt F)),
    StableHlo.unary main_v18 main_v19 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v17 main_v19 main_v20 (addf : (⟨S4x2048x4096, .f32⟩ : BufTy).Contents (Elt F) → (⟨S4x2048x4096, .f32⟩ : BufTy).Contents (Elt F) → (⟨S4x2048x4096, .f32⟩ : BufTy).Contents (Elt F)),
    StableHlo.binary main_v20 main_arg0 main_v21 (subf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_v21 main_v22 (addf : (⟨S4x2048x4096, .f32⟩ : BufTy).Contents (Elt F) → (⟨S4x2048x4096, .f32⟩ : BufTy).Contents (Elt F) → (⟨S4x2048x4096, .f32⟩ : BufTy).Contents (Elt F)),
    StableHlo.unary main_arg5 main_v23 (broadcastInDim S65536x32x1 ![0, 1] bcast_S65536x32_S65536x32x1_0_1 : (⟨S65536x32, .i32⟩ : BufTy).Contents (Elt F) → (⟨S65536x32x1, .i32⟩ : BufTy).Contents (Elt F)) ]

/-- Operations 37 … 48 of the host prefix. -/
abbrev w3 : List (HloOp τ sig (Elt F)) :=
  [ StableHlo.unary main_c main_v24 (broadcastInDim S1x1x4 ![2] bcast_S4_S1x1x4_2 : (⟨S4, .i32⟩ : BufTy).Contents (Elt F) → (⟨S1x1x4, .i32⟩ : BufTy).Contents (Elt F)),
    StableHlo.unary main_v23 main_v25 (broadcastInDim S65536x32x4 ![0, 1, 2] bcast_S65536x32x1_S65536x32x4_0_1_2 : (⟨S65536x32x1, .i32⟩ : BufTy).Contents (Elt F) → (⟨S65536x32x4, .i32⟩ : BufTy).Contents (Elt F)),
    StableHlo.unary main_v24 main_v26 (broadcastInDim S65536x32x4 ![0, 1, 2] bcast_S1x1x4_S65536x32x4_0_1_2 : (⟨S1x1x4, .i32⟩ : BufTy).Contents (Elt F) → (⟨S65536x32x4, .i32⟩ : BufTy).Contents (Elt F)),
    StableHlo.binary main_v25 main_v26 main_v27 (Host.shrsi : (⟨S65536x32x4, .i32⟩ : BufTy).Contents (Elt F) → (⟨S65536x32x4, .i32⟩ : BufTy).Contents (Elt F) → (⟨S65536x32x4, .i32⟩ : BufTy).Contents (Elt F)),
    StableHlo.nullary main_c_5 (constantI S_ 32 15#32),
    StableHlo.unary main_c_5 main_v28 (broadcastInDim S65536x32x4 ![] bcast_S_S65536x32x4 : (⟨S_, .i32⟩ : BufTy).Contents (Elt F) → (⟨S65536x32x4, .i32⟩ : BufTy).Contents (Elt F)),
    StableHlo.binary main_v27 main_v28 main_v29 (andi : (⟨S65536x32x4, .i32⟩ : BufTy).Contents (Elt F) → (⟨S65536x32x4, .i32⟩ : BufTy).Contents (Elt F) → (⟨S65536x32x4, .i32⟩ : BufTy).Contents (Elt F)),
    StableHlo.reshape main_v29 main_v30 rfl shapeCasts_S65536x32x4_S65536x128,
    StableHlo.nullary main_c_6 (constantI S_ 32 12#32),
    StableHlo.unary main_c_6 main_v31 (broadcastInDim S65536x128 ![] bcast_S_S65536x128 : (⟨S_, .i32⟩ : BufTy).Contents (Elt F) → (⟨S65536x128, .i32⟩ : BufTy).Contents (Elt F)),
    StableHlo.binary main_v30 main_v31 main_v32 (Host.shli : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call2_v0 : StableHlo.TRef sig ⟨S65536x127, .i32⟩) (extractStridedSlice S65536x127 ![0, 1] · slices_S65536x128_S65536x127_0_1) ]

/-- Operations 49 … 60 of the host prefix. -/
abbrev w4 : List (HloOp τ sig (Elt F)) :=
  [ StableHlo.TRef.unary (.of main_v30 : StableHlo.TRef sig ⟨S65536x128, .i32⟩) (.of main_call2_v1 : StableHlo.TRef sig ⟨S65536x1, .i32⟩) (extractStridedSlice S65536x1 ![0, 0] · slices_S65536x128_S65536x1_0_0),
    StableHlo.TRef.binary (.of main_call2_v0 : StableHlo.TRef sig ⟨S65536x127, .i32⟩) (.of main_call2_v1 : StableHlo.TRef sig ⟨S65536x1, .i32⟩) (.of main_v33 : StableHlo.TRef sig ⟨S65536x128, .i32⟩) (fun a b => concatenate S65536x128 1 [⟨S65536x127, a⟩, ⟨S65536x1, b⟩] concatenates_S65536x127_S65536x1_S65536x128_d1),
    StableHlo.nullary main_c_7 (constantI S_ 32 8#32),
    StableHlo.unary main_c_7 main_v34 (broadcastInDim S65536x128 ![] bcast_S_S65536x128 : (⟨S_, .i32⟩ : BufTy).Contents (Elt F) → (⟨S65536x128, .i32⟩ : BufTy).Contents (Elt F)),
    StableHlo.binary main_v33 main_v34 main_v35 (Host.shli : (⟨S65536x128, .i32⟩ : BufTy).Contents (Elt F) → (⟨S65536x128, .i32⟩ : BufTy).Contents (Elt F) → (⟨S65536x128, .i32⟩ : BufTy).Contents (Elt F)),
    StableHlo.binary main_v32 main_v35 main_v36 (addi : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call3_v0 : StableHlo.TRef sig ⟨S65536x126, .i32⟩) (extractStridedSlice S65536x126 ![0, 2] · slices_S65536x128_S65536x126_0_2),
    StableHlo.TRef.unary (.of main_v30 : StableHlo.TRef sig ⟨S65536x128, .i32⟩) (.of main_call3_v1 : StableHlo.TRef sig ⟨S65536x2, .i32⟩) (extractStridedSlice S65536x2 ![0, 0] · slices_S65536x128_S65536x2_0_0),
    StableHlo.TRef.binary (.of main_call3_v0 : StableHlo.TRef sig ⟨S65536x126, .i32⟩) (.of main_call3_v1 : StableHlo.TRef sig ⟨S65536x2, .i32⟩) (.of main_v37 : StableHlo.TRef sig ⟨S65536x128, .i32⟩) (fun a b => concatenate S65536x128 1 [⟨S65536x126, a⟩, ⟨S65536x2, b⟩] concatenates_S65536x126_S65536x2_S65536x128_d1),
    StableHlo.nullary main_c_8 (constantI S_ 32 4#32),
    StableHlo.unary main_c_8 main_v38 (broadcastInDim S65536x128 ![] bcast_S_S65536x128 : (⟨S_, .i32⟩ : BufTy).Contents (Elt F) → (⟨S65536x128, .i32⟩ : BufTy).Contents (Elt F)),
    StableHlo.binary main_v37 main_v38 main_v39 (Host.shli : (⟨S65536x128, .i32⟩ : BufTy).Contents (Elt F) → (⟨S65536x128, .i32⟩ : BufTy).Contents (Elt F) → (⟨S65536x128, .i32⟩ : BufTy).Contents (Elt F)) ]

/-- Operations 61 … 72 of the host prefix. -/
abbrev w5 : List (HloOp τ sig (Elt F)) :=
  [ StableHlo.binary main_v36 main_v39 main_v40 (addi : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call4_v0 : StableHlo.TRef sig ⟨S65536x125, .i32⟩) (extractStridedSlice S65536x125 ![0, 3] · slices_S65536x128_S65536x125_0_3),
    StableHlo.TRef.unary (.of main_v30 : StableHlo.TRef sig ⟨S65536x128, .i32⟩) (.of main_call4_v1 : StableHlo.TRef sig ⟨S65536x3, .i32⟩) (extractStridedSlice S65536x3 ![0, 0] · slices_S65536x128_S65536x3_0_0),
    StableHlo.TRef.binary (.of main_call4_v0 : StableHlo.TRef sig ⟨S65536x125, .i32⟩) (.of main_call4_v1 : StableHlo.TRef sig ⟨S65536x3, .i32⟩) (.of main_v41 : StableHlo.TRef sig ⟨S65536x128, .i32⟩) (fun a b => concatenate S65536x128 1 [⟨S65536x125, a⟩, ⟨S65536x3, b⟩] concatenates_S65536x125_S65536x3_S65536x128_d1),
    StableHlo.binary main_v40 main_v41 main_v42 (addi : (⟨S65536x128, .i32⟩ : BufTy).Contents (Elt F) → (⟨S65536x128, .i32⟩ : BufTy).Contents (Elt F) → (⟨S65536x128, .i32⟩ : BufTy).Contents (Elt F)),
    StableHlo.nullary main_c_9 (constantI S_ 32 0#32),
    StableHlo.unary main_c_9 main_v43 (broadcastInDim S65536x128 ![] bcast_S_S65536x128 : (⟨S_, .i32⟩ : BufTy).Contents (Elt F) → (⟨S65536x128, .i32⟩ : BufTy).Contents (Elt F)),
    StableHlo.binary main_v42 main_v43 main_v44 (cmpi .slt : (⟨S65536x128, .i32⟩ : BufTy).Contents (Elt F) → (⟨S65536x128, .i32⟩ : BufTy).Contents (Elt F) → (⟨S65536x128, .i1⟩ : BufTy).Contents (Elt F)),
    StableHlo.nullary main_c_10 (constantI S_ 32 65536#32),
    StableHlo.unary main_c_10 main_v45 (broadcastInDim S65536x128 ![] bcast_S_S65536x128 : (⟨S_, .i32⟩ : BufTy).Contents (Elt F) → (⟨S65536x128, .i32⟩ : BufTy).Contents (Elt F)),
    StableHlo.binary main_v42 main_v45 main_v46 (addi : (⟨S65536x128, .i32⟩ : BufTy).Contents (Elt F) → (⟨S65536x128, .i32⟩ : BufTy).Contents (Elt F) → (⟨S65536x128, .i32⟩ : BufTy).Contents (Elt F)),
    StableHlo.ternary main_v44 main_v46 main_v42 main_v47 (select : (⟨S65536x128, .i1⟩ : BufTy).Contents (Elt F) → (⟨S65536x128, .i32⟩ : BufTy).Contents (Elt F) → (⟨S65536x128, .i32⟩ : BufTy).Contents (Elt F) → (⟨S65536x128, .i32⟩ : BufTy).Contents (Elt F)) ]

/-- Operations 73 … 84 of the host prefix. -/
abbrev w6 : List (HloOp τ sig (Elt F)) :=
  [ StableHlo.unary main_v47 main_v48 (broadcastInDim S65536x128x1 ![0, 1] bcast_S65536x128_S65536x128x1_0_1 : (⟨S65536x128, .i32⟩ : BufTy).Contents (Elt F) → (⟨S65536x128x1, .i32⟩ : BufTy).Contents (Elt F)),
    StableHlo.binary main_arg4 main_v48 main_v49 ((fun x i => Host.gather gather_S65536x2_S65536x128x1_S65536x128x2_2_0_n_n_0_2_12 x i) : (⟨S65536x2, .f32⟩ : BufTy).Contents (Elt F) → (⟨S65536x128x1, .i32⟩ : BufTy).Contents (Elt F) → (⟨S65536x128x2, .f32⟩ : BufTy).Contents (Elt F)),
    StableHlo.reshape main_v49 main_v50 rfl shapeCasts_S65536x128x2_S65536x256,
    StableHlo.reshape main_v50 main_v51 rfl shapeCasts_S65536x256_S4096x4096,
    StableHlo.reshape main_v51 main_v52 rfl shapeCasts_S4096x4096_S4096x2048x2x1,
    StableHlo.unary main_v52 main_v53 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F)),
    StableHlo.reshape main_v53 main_v54 rfl shapeCasts_S4096x2048x1x1_S4096x2048x1,
    StableHlo.unary main_v52 main_v55 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F)),
    StableHlo.reshape main_v55 main_v56 rfl shapeCasts_S4096x2048x1x1_S4096x2048x1,
    StableHlo.binary main_v54 main_v56 main_v57 (addf : (⟨S4096x2048x1, .f32⟩ : BufTy).Contents (Elt F) → (⟨S4096x2048x1, .f32⟩ : BufTy).Contents (Elt F) → (⟨S4096x2048x1, .f32⟩ : BufTy).Contents (Elt F)),
    StableHlo.binary main_v54 main_v56 main_v58 (subf : (⟨S4096x2048x1, .f32⟩ : BufTy).Contents (Elt F) → (⟨S4096x2048x1, .f32⟩ : BufTy).Contents (Elt F) → (⟨S4096x2048x1, .f32⟩ : BufTy).Contents (Elt F)),
    StableHlo.unary main_v57 main_v59 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)) ]

/-- Operations 85 … 96 of the host prefix. -/
abbrev w7 : List (HloOp τ sig (Elt F)) :=
  [ StableHlo.unary main_v58 main_v60 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.binary main_v59 main_v60 main_v61 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F)),
    StableHlo.reshape main_v61 main_v62 rfl shapeCasts_S4096x2048x2x1_S4096x4096,
    StableHlo.reshape main_v62 main_v63 rfl shapeCasts_S4096x4096_S4096x1024x2x2,
    StableHlo.unary main_v63 main_v64 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F)),
    StableHlo.reshape main_v64 main_v65 rfl shapeCasts_S4096x1024x1x2_S4096x1024x2,
    StableHlo.unary main_v63 main_v66 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F)),
    StableHlo.reshape main_v66 main_v67 rfl shapeCasts_S4096x1024x1x2_S4096x1024x2,
    StableHlo.binary main_v65 main_v67 main_v68 (addf : (⟨S4096x1024x2, .f32⟩ : BufTy).Contents (Elt F) → (⟨S4096x1024x2, .f32⟩ : BufTy).Contents (Elt F) → (⟨S4096x1024x2, .f32⟩ : BufTy).Contents (Elt F)),
    StableHlo.binary main_v65 main_v67 main_v69 (subf : (⟨S4096x1024x2, .f32⟩ : BufTy).Contents (Elt F) → (⟨S4096x1024x2, .f32⟩ : BufTy).Contents (Elt F) → (⟨S4096x1024x2, .f32⟩ : BufTy).Contents (Elt F)),
    StableHlo.unary main_v68 main_v70 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.unary main_v69 main_v71 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)) ]

/-- Operations 97 … 108 of the host prefix. -/
abbrev w8 : List (HloOp τ sig (Elt F)) :=
  [ StableHlo.binary main_v70 main_v71 main_v72 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F)),
    StableHlo.reshape main_v72 main_v73 rfl shapeCasts_S4096x1024x2x2_S4096x4096,
    StableHlo.reshape main_v73 main_v74 rfl shapeCasts_S4096x4096_S4096x512x2x4,
    StableHlo.unary main_v74 main_v75 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F)),
    StableHlo.reshape main_v75 main_v76 rfl shapeCasts_S4096x512x1x4_S4096x512x4,
    StableHlo.unary main_v74 main_v77 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F)),
    StableHlo.reshape main_v77 main_v78 rfl shapeCasts_S4096x512x1x4_S4096x512x4,
    StableHlo.binary main_v76 main_v78 main_v79 (addf : (⟨S4096x512x4, .f32⟩ : BufTy).Contents (Elt F) → (⟨S4096x512x4, .f32⟩ : BufTy).Contents (Elt F) → (⟨S4096x512x4, .f32⟩ : BufTy).Contents (Elt F)),
    StableHlo.binary main_v76 main_v78 main_v80 (subf : (⟨S4096x512x4, .f32⟩ : BufTy).Contents (Elt F) → (⟨S4096x512x4, .f32⟩ : BufTy).Contents (Elt F) → (⟨S4096x512x4, .f32⟩ : BufTy).Contents (Elt F)),
    StableHlo.unary main_v79 main_v81 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.unary main_v80 main_v82 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.binary main_v81 main_v82 main_v83 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F)) ]

/-- Operations 109 … 120 of the host prefix. -/
abbrev w9 : List (HloOp τ sig (Elt F)) :=
  [ StableHlo.reshape main_v83 main_v84 rfl shapeCasts_S4096x512x2x4_S4096x4096,
    StableHlo.reshape main_v84 main_v85 rfl shapeCasts_S4096x4096_S4096x256x2x8,
    StableHlo.unary main_v85 main_v86 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F)),
    StableHlo.reshape main_v86 main_v87 rfl shapeCasts_S4096x256x1x8_S4096x256x8,
    StableHlo.unary main_v85 main_v88 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F)),
    StableHlo.reshape main_v88 main_v89 rfl shapeCasts_S4096x256x1x8_S4096x256x8,
    StableHlo.binary main_v87 main_v89 main_v90 (addf : (⟨S4096x256x8, .f32⟩ : BufTy).Contents (Elt F) → (⟨S4096x256x8, .f32⟩ : BufTy).Contents (Elt F) → (⟨S4096x256x8, .f32⟩ : BufTy).Contents (Elt F)),
    StableHlo.binary main_v87 main_v89 main_v91 (subf : (⟨S4096x256x8, .f32⟩ : BufTy).Contents (Elt F) → (⟨S4096x256x8, .f32⟩ : BufTy).Contents (Elt F) → (⟨S4096x256x8, .f32⟩ : BufTy).Contents (Elt F)),
    StableHlo.unary main_v90 main_v92 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.unary main_v91 main_v93 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.binary main_v92 main_v93 main_v94 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F)),
    StableHlo.reshape main_v94 main_v95 rfl shapeCasts_S4096x256x2x8_S4096x4096 ]

/-- Operations 121 … 132 of the host prefix. -/
abbrev w10 : List (HloOp τ sig (Elt F)) :=
  [ StableHlo.reshape main_v95 main_v96 rfl shapeCasts_S4096x4096_S4096x128x2x16,
    StableHlo.unary main_v96 main_v97 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F)),
    StableHlo.reshape main_v97 main_v98 rfl shapeCasts_S4096x128x1x16_S4096x128x16,
    StableHlo.unary main_v96 main_v99 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F)),
    StableHlo.reshape main_v99 main_v100 rfl shapeCasts_S4096x128x1x16_S4096x128x16,
    StableHlo.binary main_v98 main_v100 main_v101 (addf : (⟨S4096x128x16, .f32⟩ : BufTy).Contents (Elt F) → (⟨S4096x128x16, .f32⟩ : BufTy).Contents (Elt F) → (⟨S4096x128x16, .f32⟩ : BufTy).Contents (Elt F)),
    StableHlo.binary main_v98 main_v100 main_v102 (subf : (⟨S4096x128x16, .f32⟩ : BufTy).Contents (Elt F) → (⟨S4096x128x16, .f32⟩ : BufTy).Contents (Elt F) → (⟨S4096x128x16, .f32⟩ : BufTy).Contents (Elt F)),
    StableHlo.unary main_v101 main_v103 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.unary main_v102 main_v104 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.binary main_v103 main_v104 main_v105 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F)),
    StableHlo.reshape main_v105 main_v106 rfl shapeCasts_S4096x128x2x16_S4096x4096,
    StableHlo.reshape main_v106 main_v107 rfl shapeCasts_S4096x4096_S4096x64x2x32 ]

/-- Operations 133 … 144 of the host prefix. -/
abbrev w11 : List (HloOp τ sig (Elt F)) :=
  [ StableHlo.unary main_v107 main_v108 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F)),
    StableHlo.reshape main_v108 main_v109 rfl shapeCasts_S4096x64x1x32_S4096x64x32,
    StableHlo.unary main_v107 main_v110 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F)),
    StableHlo.reshape main_v110 main_v111 rfl shapeCasts_S4096x64x1x32_S4096x64x32,
    StableHlo.binary main_v109 main_v111 main_v112 (addf : (⟨S4096x64x32, .f32⟩ : BufTy).Contents (Elt F) → (⟨S4096x64x32, .f32⟩ : BufTy).Contents (Elt F) → (⟨S4096x64x32, .f32⟩ : BufTy).Contents (Elt F)),
    StableHlo.binary main_v109 main_v111 main_v113 (subf : (⟨S4096x64x32, .f32⟩ : BufTy).Contents (Elt F) → (⟨S4096x64x32, .f32⟩ : BufTy).Contents (Elt F) → (⟨S4096x64x32, .f32⟩ : BufTy).Contents (Elt F)),
    StableHlo.unary main_v112 main_v114 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.unary main_v113 main_v115 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.binary main_v114 main_v115 main_v116 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F)),
    StableHlo.reshape main_v116 main_v117 rfl shapeCasts_S4096x64x2x32_S4096x4096,
    StableHlo.reshape main_v117 main_v118 rfl shapeCasts_S4096x4096_S4096x32x2x64,
    StableHlo.unary main_v118 main_v119 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F)) ]

/-- Operations 145 … 156 of the host prefix. -/
abbrev w12 : List (HloOp τ sig (Elt F)) :=
  [ StableHlo.reshape main_v119 main_v120 rfl shapeCasts_S4096x32x1x64_S4096x32x64,
    StableHlo.unary main_v118 main_v121 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F)),
    StableHlo.reshape main_v121 main_v122 rfl shapeCasts_S4096x32x1x64_S4096x32x64,
    StableHlo.binary main_v120 main_v122 main_v123 (addf : (⟨S4096x32x64, .f32⟩ : BufTy).Contents (Elt F) → (⟨S4096x32x64, .f32⟩ : BufTy).Contents (Elt F) → (⟨S4096x32x64, .f32⟩ : BufTy).Contents (Elt F)),
    StableHlo.binary main_v120 main_v122 main_v124 (subf : (⟨S4096x32x64, .f32⟩ : BufTy).Contents (Elt F) → (⟨S4096x32x64, .f32⟩ : BufTy).Contents (Elt F) → (⟨S4096x32x64, .f32⟩ : BufTy).Contents (Elt F)),
    StableHlo.unary main_v123 main_v125 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.unary main_v124 main_v126 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.binary main_v125 main_v126 main_v127 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F)),
    StableHlo.reshape main_v127 main_v128 rfl shapeCasts_S4096x32x2x64_S4096x4096,
    StableHlo.reshape main_v128 main_v129 rfl shapeCasts_S4096x4096_S4096x16x2x128,
    StableHlo.unary main_v129 main_v130 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F)),
    StableHlo.reshape main_v130 main_v131 rfl shapeCasts_S4096x16x1x128_S4096x16x128 ]

/-- Operations 157 … 168 of the host prefix. -/
abbrev w13 : List (HloOp τ sig (Elt F)) :=
  [ StableHlo.unary main_v129 main_v132 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F)),
    StableHlo.reshape main_v132 main_v133 rfl shapeCasts_S4096x16x1x128_S4096x16x128,
    StableHlo.binary main_v131 main_v133 main_v134 (addf : (⟨S4096x16x128, .f32⟩ : BufTy).Contents (Elt F) → (⟨S4096x16x128, .f32⟩ : BufTy).Contents (Elt F) → (⟨S4096x16x128, .f32⟩ : BufTy).Contents (Elt F)),
    StableHlo.binary main_v131 main_v133 main_v135 (subf : (⟨S4096x16x128, .f32⟩ : BufTy).Contents (Elt F) → (⟨S4096x16x128, .f32⟩ : BufTy).Contents (Elt F) → (⟨S4096x16x128, .f32⟩ : BufTy).Contents (Elt F)),
    StableHlo.unary main_v134 main_v136 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.unary main_v135 main_v137 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.binary main_v136 main_v137 main_v138 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F)),
    StableHlo.reshape main_v138 main_v139 rfl shapeCasts_S4096x16x2x128_S4096x4096,
    StableHlo.reshape main_v139 main_v140 rfl shapeCasts_S4096x4096_S4096x8x2x256,
    StableHlo.unary main_v140 main_v141 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F)),
    StableHlo.reshape main_v141 main_v142 rfl shapeCasts_S4096x8x1x256_S4096x8x256,
    StableHlo.unary main_v140 main_v143 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F)) ]

/-- Operations 169 … 180 of the host prefix. -/
abbrev w14 : List (HloOp τ sig (Elt F)) :=
  [ StableHlo.reshape main_v143 main_v144 rfl shapeCasts_S4096x8x1x256_S4096x8x256,
    StableHlo.binary main_v142 main_v144 main_v145 (addf : (⟨S4096x8x256, .f32⟩ : BufTy).Contents (Elt F) → (⟨S4096x8x256, .f32⟩ : BufTy).Contents (Elt F) → (⟨S4096x8x256, .f32⟩ : BufTy).Contents (Elt F)),
    StableHlo.binary main_v142 main_v144 main_v146 (subf : (⟨S4096x8x256, .f32⟩ : BufTy).Contents (Elt F) → (⟨S4096x8x256, .f32⟩ : BufTy).Contents (Elt F) → (⟨S4096x8x256, .f32⟩ : BufTy).Contents (Elt F)),
    StableHlo.unary main_v145 main_v147 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.unary main_v146 main_v148 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.binary main_v147 main_v148 main_v149 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F)),
    StableHlo.reshape main_v149 main_v150 rfl shapeCasts_S4096x8x2x256_S4096x4096,
    StableHlo.reshape main_v150 main_v151 rfl shapeCasts_S4096x4096_S4096x4x2x512,
    StableHlo.unary main_v151 main_v152 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F)),
    StableHlo.reshape main_v152 main_v153 rfl shapeCasts_S4096x4x1x512_S4096x4x512,
    StableHlo.unary main_v151 main_v154 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F)),
    StableHlo.reshape main_v154 main_v155 rfl shapeCasts_S4096x4x1x512_S4096x4x512 ]

/-- Operations 181 … 192 of the host prefix. -/
abbrev w15 : List (HloOp τ sig (Elt F)) :=
  [ StableHlo.binary main_v153 main_v155 main_v156 (addf : (⟨S4096x4x512, .f32⟩ : BufTy).Contents (Elt F) → (⟨S4096x4x512, .f32⟩ : BufTy).Contents (Elt F) → (⟨S4096x4x512, .f32⟩ : BufTy).Contents (Elt F)),
    StableHlo.binary main_v153 main_v155 main_v157 (subf : (⟨S4096x4x512, .f32⟩ : BufTy).Contents (Elt F) → (⟨S4096x4x512, .f32⟩ : BufTy).Contents (Elt F) → (⟨S4096x4x512, .f32⟩ : BufTy).Contents (Elt F)),
    StableHlo.unary main_v156 main_v158 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.unary main_v157 main_v159 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.binary main_v158 main_v159 main_v160 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F)),
    StableHlo.reshape main_v160 main_v161 rfl shapeCasts_S4096x4x2x512_S4096x4096,
    StableHlo.reshape main_v161 main_v162 rfl shapeCasts_S4096x4096_S4096x2x2x1024,
    StableHlo.unary main_v162 main_v163 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F)),
    StableHlo.reshape main_v163 main_v164 rfl shapeCasts_S4096x2x1x1024_S4096x2x1024,
    StableHlo.unary main_v162 main_v165 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F)),
    StableHlo.reshape main_v165 main_v166 rfl shapeCasts_S4096x2x1x1024_S4096x2x1024,
    StableHlo.binary main_v164 main_v166 main_v167 (addf : (⟨S4096x2x1024, .f32⟩ : BufTy).Contents (Elt F) → (⟨S4096x2x1024, .f32⟩ : BufTy).Contents (Elt F) → (⟨S4096x2x1024, .f32⟩ : BufTy).Contents (Elt F)) ]

/-- Operations 193 … 204 of the host prefix. -/
abbrev w16 : List (HloOp τ sig (Elt F)) :=
  [ StableHlo.binary main_v164 main_v166 main_v168 (subf : (⟨S4096x2x1024, .f32⟩ : BufTy).Contents (Elt F) → (⟨S4096x2x1024, .f32⟩ : BufTy).Contents (Elt F) → (⟨S4096x2x1024, .f32⟩ : BufTy).Contents (Elt F)),
    StableHlo.unary main_v167 main_v169 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.unary main_v168 main_v170 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.binary main_v169 main_v170 main_v171 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F)),
    StableHlo.reshape main_v171 main_v172 rfl shapeCasts_S4096x2x2x1024_S4096x4096,
    StableHlo.reshape main_v172 main_v173 rfl shapeCasts_S4096x4096_S4096x1x2x2048,
    StableHlo.unary main_v173 main_v174 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F)),
    StableHlo.reshape main_v174 main_v175 rfl shapeCasts_S4096x1x1x2048_S4096x1x2048,
    StableHlo.unary main_v173 main_v176 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F)),
    StableHlo.reshape main_v176 main_v177 rfl shapeCasts_S4096x1x1x2048_S4096x1x2048,
    StableHlo.binary main_v175 main_v177 main_v178 (addf : (⟨S4096x1x2048, .f32⟩ : BufTy).Contents (Elt F) → (⟨S4096x1x2048, .f32⟩ : BufTy).Contents (Elt F) → (⟨S4096x1x2048, .f32⟩ : BufTy).Contents (Elt F)),
    StableHlo.binary main_v175 main_v177 main_v179 (subf : (⟨S4096x1x2048, .f32⟩ : BufTy).Contents (Elt F) → (⟨S4096x1x2048, .f32⟩ : BufTy).Contents (Elt F) → (⟨S4096x1x2048, .f32⟩ : BufTy).Contents (Elt F)) ]

/-- Operations 205 … 216 of the host prefix. -/
abbrev w17 : List (HloOp τ sig (Elt F)) :=
  [ StableHlo.unary main_v178 main_v180 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.unary main_v179 main_v181 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.binary main_v180 main_v181 main_v182 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F)),
    StableHlo.reshape main_v182 main_v183 rfl shapeCasts_S4096x1x2x2048_S4096x4096,
    StableHlo.nullary main_cst_11 (constant S_ .f32 0x3C800000#32),
    StableHlo.unary main_cst_11 main_v184 (broadcastInDim S4096x4096 ![] bcast_S_S4096x4096 : (⟨S_, .f32⟩ : BufTy).Contents (Elt F) → (⟨S4096x4096, .f32⟩ : BufTy).Contents (Elt F)),
    StableHlo.binary main_v183 main_v184 main_v185 (mulf : (⟨S4096x4096, .f32⟩ : BufTy).Contents (Elt F) → (⟨S4096x4096, .f32⟩ : BufTy).Contents (Elt F) → (⟨S4096x4096, .f32⟩ : BufTy).Contents (Elt F)),
    StableHlo.unary main_v185 main_v186 ((transpose S4096x4096 [1, 0] · transposes_S4096x4096_S4096x4096_1_0) : (⟨S4096x4096, .f32⟩ : BufTy).Contents (Elt F) → (⟨S4096x4096, .f32⟩ : BufTy).Contents (Elt F)),
    StableHlo.reshape main_v186 main_v187 rfl shapeCasts_S4096x4096_S4096x2048x2x1,
    StableHlo.unary main_v187 main_v188 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F)),
    StableHlo.reshape main_v188 main_v189 rfl shapeCasts_S4096x2048x1x1_S4096x2048x1,
    StableHlo.unary main_v187 main_v190 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F)) ]

/-- Operations 217 … 228 of the host prefix. -/
abbrev w18 : List (HloOp τ sig (Elt F)) :=
  [ StableHlo.reshape main_v190 main_v191 rfl shapeCasts_S4096x2048x1x1_S4096x2048x1,
    StableHlo.binary main_v189 main_v191 main_v192 (addf : (⟨S4096x2048x1, .f32⟩ : BufTy).Contents (Elt F) → (⟨S4096x2048x1, .f32⟩ : BufTy).Contents (Elt F) → (⟨S4096x2048x1, .f32⟩ : BufTy).Contents (Elt F)),
    StableHlo.binary main_v189 main_v191 main_v193 (subf : (⟨S4096x2048x1, .f32⟩ : BufTy).Contents (Elt F) → (⟨S4096x2048x1, .f32⟩ : BufTy).Contents (Elt F) → (⟨S4096x2048x1, .f32⟩ : BufTy).Contents (Elt F)),
    StableHlo.unary main_v192 main_v194 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.unary main_v193 main_v195 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.binary main_v194 main_v195 main_v196 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F)),
    StableHlo.reshape main_v196 main_v197 rfl shapeCasts_S4096x2048x2x1_S4096x4096,
    StableHlo.reshape main_v197 main_v198 rfl shapeCasts_S4096x4096_S4096x1024x2x2,
    StableHlo.unary main_v198 main_v199 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F)),
    StableHlo.reshape main_v199 main_v200 rfl shapeCasts_S4096x1024x1x2_S4096x1024x2,
    StableHlo.unary main_v198 main_v201 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F)),
    StableHlo.reshape main_v201 main_v202 rfl shapeCasts_S4096x1024x1x2_S4096x1024x2 ]

/-- Operations 229 … 240 of the host prefix. -/
abbrev w19 : List (HloOp τ sig (Elt F)) :=
  [ StableHlo.binary main_v200 main_v202 main_v203 (addf : (⟨S4096x1024x2, .f32⟩ : BufTy).Contents (Elt F) → (⟨S4096x1024x2, .f32⟩ : BufTy).Contents (Elt F) → (⟨S4096x1024x2, .f32⟩ : BufTy).Contents (Elt F)),
    StableHlo.binary main_v200 main_v202 main_v204 (subf : (⟨S4096x1024x2, .f32⟩ : BufTy).Contents (Elt F) → (⟨S4096x1024x2, .f32⟩ : BufTy).Contents (Elt F) → (⟨S4096x1024x2, .f32⟩ : BufTy).Contents (Elt F)),
    StableHlo.unary main_v203 main_v205 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.unary main_v204 main_v206 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.binary main_v205 main_v206 main_v207 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F)),
    StableHlo.reshape main_v207 main_v208 rfl shapeCasts_S4096x1024x2x2_S4096x4096,
    StableHlo.reshape main_v208 main_v209 rfl shapeCasts_S4096x4096_S4096x512x2x4,
    StableHlo.unary main_v209 main_v210 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F)),
    StableHlo.reshape main_v210 main_v211 rfl shapeCasts_S4096x512x1x4_S4096x512x4,
    StableHlo.unary main_v209 main_v212 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F)),
    StableHlo.reshape main_v212 main_v213 rfl shapeCasts_S4096x512x1x4_S4096x512x4,
    StableHlo.binary main_v211 main_v213 main_v214 (addf : (⟨S4096x512x4, .f32⟩ : BufTy).Contents (Elt F) → (⟨S4096x512x4, .f32⟩ : BufTy).Contents (Elt F) → (⟨S4096x512x4, .f32⟩ : BufTy).Contents (Elt F)) ]

/-- Operations 241 … 252 of the host prefix. -/
abbrev w20 : List (HloOp τ sig (Elt F)) :=
  [ StableHlo.binary main_v211 main_v213 main_v215 (subf : (⟨S4096x512x4, .f32⟩ : BufTy).Contents (Elt F) → (⟨S4096x512x4, .f32⟩ : BufTy).Contents (Elt F) → (⟨S4096x512x4, .f32⟩ : BufTy).Contents (Elt F)),
    StableHlo.unary main_v214 main_v216 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.unary main_v215 main_v217 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.binary main_v216 main_v217 main_v218 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F)),
    StableHlo.reshape main_v218 main_v219 rfl shapeCasts_S4096x512x2x4_S4096x4096,
    StableHlo.reshape main_v219 main_v220 rfl shapeCasts_S4096x4096_S4096x256x2x8,
    StableHlo.unary main_v220 main_v221 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F)),
    StableHlo.reshape main_v221 main_v222 rfl shapeCasts_S4096x256x1x8_S4096x256x8,
    StableHlo.unary main_v220 main_v223 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F)),
    StableHlo.reshape main_v223 main_v224 rfl shapeCasts_S4096x256x1x8_S4096x256x8,
    StableHlo.binary main_v222 main_v224 main_v225 (addf : (⟨S4096x256x8, .f32⟩ : BufTy).Contents (Elt F) → (⟨S4096x256x8, .f32⟩ : BufTy).Contents (Elt F) → (⟨S4096x256x8, .f32⟩ : BufTy).Contents (Elt F)),
    StableHlo.binary main_v222 main_v224 main_v226 (subf : (⟨S4096x256x8, .f32⟩ : BufTy).Contents (Elt F) → (⟨S4096x256x8, .f32⟩ : BufTy).Contents (Elt F) → (⟨S4096x256x8, .f32⟩ : BufTy).Contents (Elt F)) ]

/-- Operations 253 … 264 of the host prefix. -/
abbrev w21 : List (HloOp τ sig (Elt F)) :=
  [ StableHlo.unary main_v225 main_v227 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.unary main_v226 main_v228 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.binary main_v227 main_v228 main_v229 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F)),
    StableHlo.reshape main_v229 main_v230 rfl shapeCasts_S4096x256x2x8_S4096x4096,
    StableHlo.reshape main_v230 main_v231 rfl shapeCasts_S4096x4096_S4096x128x2x16,
    StableHlo.unary main_v231 main_v232 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F)),
    StableHlo.reshape main_v232 main_v233 rfl shapeCasts_S4096x128x1x16_S4096x128x16,
    StableHlo.unary main_v231 main_v234 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F)),
    StableHlo.reshape main_v234 main_v235 rfl shapeCasts_S4096x128x1x16_S4096x128x16,
    StableHlo.binary main_v233 main_v235 main_v236 (addf : (⟨S4096x128x16, .f32⟩ : BufTy).Contents (Elt F) → (⟨S4096x128x16, .f32⟩ : BufTy).Contents (Elt F) → (⟨S4096x128x16, .f32⟩ : BufTy).Contents (Elt F)),
    StableHlo.binary main_v233 main_v235 main_v237 (subf : (⟨S4096x128x16, .f32⟩ : BufTy).Contents (Elt F) → (⟨S4096x128x16, .f32⟩ : BufTy).Contents (Elt F) → (⟨S4096x128x16, .f32⟩ : BufTy).Contents (Elt F)),
    StableHlo.unary main_v236 main_v238 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)) ]

/-- Operations 265 … 276 of the host prefix. -/
abbrev w22 : List (HloOp τ sig (Elt F)) :=
  [ StableHlo.unary main_v237 main_v239 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.binary main_v238 main_v239 main_v240 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F)),
    StableHlo.reshape main_v240 main_v241 rfl shapeCasts_S4096x128x2x16_S4096x4096,
    StableHlo.reshape main_v241 main_v242 rfl shapeCasts_S4096x4096_S4096x64x2x32,
    StableHlo.unary main_v242 main_v243 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F)),
    StableHlo.reshape main_v243 main_v244 rfl shapeCasts_S4096x64x1x32_S4096x64x32,
    StableHlo.unary main_v242 main_v245 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F)),
    StableHlo.reshape main_v245 main_v246 rfl shapeCasts_S4096x64x1x32_S4096x64x32,
    StableHlo.binary main_v244 main_v246 main_v247 (addf : (⟨S4096x64x32, .f32⟩ : BufTy).Contents (Elt F) → (⟨S4096x64x32, .f32⟩ : BufTy).Contents (Elt F) → (⟨S4096x64x32, .f32⟩ : BufTy).Contents (Elt F)),
    StableHlo.binary main_v244 main_v246 main_v248 (subf : (⟨S4096x64x32, .f32⟩ : BufTy).Contents (Elt F) → (⟨S4096x64x32, .f32⟩ : BufTy).Contents (Elt F) → (⟨S4096x64x32, .f32⟩ : BufTy).Contents (Elt F)),
    StableHlo.unary main_v247 main_v249 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.unary main_v248 main_v250 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)) ]

/-- Operations 277 … 288 of the host prefix. -/
abbrev w23 : List (HloOp τ sig (Elt F)) :=
  [ StableHlo.binary main_v249 main_v250 main_v251 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F)),
    StableHlo.reshape main_v251 main_v252 rfl shapeCasts_S4096x64x2x32_S4096x4096,
    StableHlo.reshape main_v252 main_v253 rfl shapeCasts_S4096x4096_S4096x32x2x64,
    StableHlo.unary main_v253 main_v254 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F)),
    StableHlo.reshape main_v254 main_v255 rfl shapeCasts_S4096x32x1x64_S4096x32x64,
    StableHlo.unary main_v253 main_v256 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F)),
    StableHlo.reshape main_v256 main_v257 rfl shapeCasts_S4096x32x1x64_S4096x32x64,
    StableHlo.binary main_v255 main_v257 main_v258 (addf : (⟨S4096x32x64, .f32⟩ : BufTy).Contents (Elt F) → (⟨S4096x32x64, .f32⟩ : BufTy).Contents (Elt F) → (⟨S4096x32x64, .f32⟩ : BufTy).Contents (Elt F)),
    StableHlo.binary main_v255 main_v257 main_v259 (subf : (⟨S4096x32x64, .f32⟩ : BufTy).Contents (Elt F) → (⟨S4096x32x64, .f32⟩ : BufTy).Contents (Elt F) → (⟨S4096x32x64, .f32⟩ : BufTy).Contents (Elt F)),
    StableHlo.unary main_v258 main_v260 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.unary main_v259 main_v261 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.binary main_v260 main_v261 main_v262 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F)) ]

/-- Operations 289 … 300 of the host prefix. -/
abbrev w24 : List (HloOp τ sig (Elt F)) :=
  [ StableHlo.reshape main_v262 main_v263 rfl shapeCasts_S4096x32x2x64_S4096x4096,
    StableHlo.reshape main_v263 main_v264 rfl shapeCasts_S4096x4096_S4096x16x2x128,
    StableHlo.unary main_v264 main_v265 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F)),
    StableHlo.reshape main_v265 main_v266 rfl shapeCasts_S4096x16x1x128_S4096x16x128,
    StableHlo.unary main_v264 main_v267 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F)),
    StableHlo.reshape main_v267 main_v268 rfl shapeCasts_S4096x16x1x128_S4096x16x128,
    StableHlo.binary main_v266 main_v268 main_v269 (addf : (⟨S4096x16x128, .f32⟩ : BufTy).Contents (Elt F) → (⟨S4096x16x128, .f32⟩ : BufTy).Contents (Elt F) → (⟨S4096x16x128, .f32⟩ : BufTy).Contents (Elt F)),
    StableHlo.binary main_v266 main_v268 main_v270 (subf : (⟨S4096x16x128, .f32⟩ : BufTy).Contents (Elt F) → (⟨S4096x16x128, .f32⟩ : BufTy).Contents (Elt F) → (⟨S4096x16x128, .f32⟩ : BufTy).Contents (Elt F)),
    StableHlo.unary main_v269 main_v271 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.unary main_v270 main_v272 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.binary main_v271 main_v272 main_v273 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F)),
    StableHlo.reshape main_v273 main_v274 rfl shapeCasts_S4096x16x2x128_S4096x4096 ]

/-- Operations 301 … 312 of the host prefix. -/
abbrev w25 : List (HloOp τ sig (Elt F)) :=
  [ StableHlo.reshape main_v274 main_v275 rfl shapeCasts_S4096x4096_S4096x8x2x256,
    StableHlo.unary main_v275 main_v276 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F)),
    StableHlo.reshape main_v276 main_v277 rfl shapeCasts_S4096x8x1x256_S4096x8x256,
    StableHlo.unary main_v275 main_v278 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F)),
    StableHlo.reshape main_v278 main_v279 rfl shapeCasts_S4096x8x1x256_S4096x8x256,
    StableHlo.binary main_v277 main_v279 main_v280 (addf : (⟨S4096x8x256, .f32⟩ : BufTy).Contents (Elt F) → (⟨S4096x8x256, .f32⟩ : BufTy).Contents (Elt F) → (⟨S4096x8x256, .f32⟩ : BufTy).Contents (Elt F)),
    StableHlo.binary main_v277 main_v279 main_v281 (subf : (⟨S4096x8x256, .f32⟩ : BufTy).Contents (Elt F) → (⟨S4096x8x256, .f32⟩ : BufTy).Contents (Elt F) → (⟨S4096x8x256, .f32⟩ : BufTy).Contents (Elt F)),
    StableHlo.unary main_v280 main_v282 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.unary main_v281 main_v283 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.binary main_v282 main_v283 main_v284 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F)),
    StableHlo.reshape main_v284 main_v285 rfl shapeCasts_S4096x8x2x256_S4096x4096,
    StableHlo.reshape main_v285 main_v286 rfl shapeCasts_S4096x4096_S4096x4x2x512 ]

/-- Operations 313 … 324 of the host prefix. -/
abbrev w26 : List (HloOp τ sig (Elt F)) :=
  [ StableHlo.unary main_v286 main_v287 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F)),
    StableHlo.reshape main_v287 main_v288 rfl shapeCasts_S4096x4x1x512_S4096x4x512,
    StableHlo.unary main_v286 main_v289 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F)),
    StableHlo.reshape main_v289 main_v290 rfl shapeCasts_S4096x4x1x512_S4096x4x512,
    StableHlo.binary main_v288 main_v290 main_v291 (addf : (⟨S4096x4x512, .f32⟩ : BufTy).Contents (Elt F) → (⟨S4096x4x512, .f32⟩ : BufTy).Contents (Elt F) → (⟨S4096x4x512, .f32⟩ : BufTy).Contents (Elt F)),
    StableHlo.binary main_v288 main_v290 main_v292 (subf : (⟨S4096x4x512, .f32⟩ : BufTy).Contents (Elt F) → (⟨S4096x4x512, .f32⟩ : BufTy).Contents (Elt F) → (⟨S4096x4x512, .f32⟩ : BufTy).Contents (Elt F)),
    StableHlo.unary main_v291 main_v293 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.unary main_v292 main_v294 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.binary main_v293 main_v294 main_v295 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F)),
    StableHlo.reshape main_v295 main_v296 rfl shapeCasts_S4096x4x2x512_S4096x4096,
    StableHlo.reshape main_v296 main_v297 rfl shapeCasts_S4096x4096_S4096x2x2x1024,
    StableHlo.unary main_v297 main_v298 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F)) ]

/-- Operations 325 … 336 of the host prefix. -/
abbrev w27 : List (HloOp τ sig (Elt F)) :=
  [ StableHlo.reshape main_v298 main_v299 rfl shapeCasts_S4096x2x1x1024_S4096x2x1024,
    StableHlo.unary main_v297 main_v300 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F)),
    StableHlo.reshape main_v300 main_v301 rfl shapeCasts_S4096x2x1x1024_S4096x2x1024,
    StableHlo.binary main_v299 main_v301 main_v302 (addf : (⟨S4096x2x1024, .f32⟩ : BufTy).Contents (Elt F) → (⟨S4096x2x1024, .f32⟩ : BufTy).Contents (Elt F) → (⟨S4096x2x1024, .f32⟩ : BufTy).Contents (Elt F)),
    StableHlo.binary main_v299 main_v301 main_v303 (subf : (⟨S4096x2x1024, .f32⟩ : BufTy).Contents (Elt F) → (⟨S4096x2x1024, .f32⟩ : BufTy).Contents (Elt F) → (⟨S4096x2x1024, .f32⟩ : BufTy).Contents (Elt F)),
    StableHlo.unary main_v302 main_v304 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.unary main_v303 main_v305 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.binary main_v304 main_v305 main_v306 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F)),
    StableHlo.reshape main_v306 main_v307 rfl shapeCasts_S4096x2x2x1024_S4096x4096,
    StableHlo.reshape main_v307 main_v308 rfl shapeCasts_S4096x4096_S4096x1x2x2048,
    StableHlo.unary main_v308 main_v309 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F)),
    StableHlo.reshape main_v309 main_v310 rfl shapeCasts_S4096x1x1x2048_S4096x1x2048 ]

/-- Operations 337 … 348 of the host prefix. -/
abbrev w28 : List (HloOp τ sig (Elt F)) :=
  [ StableHlo.unary main_v308 main_v311 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F)),
    StableHlo.reshape main_v311 main_v312 rfl shapeCasts_S4096x1x1x2048_S4096x1x2048,
    StableHlo.binary main_v310 main_v312 main_v313 (addf : (⟨S4096x1x2048, .f32⟩ : BufTy).Contents (Elt F) → (⟨S4096x1x2048, .f32⟩ : BufTy).Contents (Elt F) → (⟨S4096x1x2048, .f32⟩ : BufTy).Contents (Elt F)),
    StableHlo.binary main_v310 main_v312 main_v314 (subf : (⟨S4096x1x2048, .f32⟩ : BufTy).Contents (Elt F) → (⟨S4096x1x2048, .f32⟩ : BufTy).Contents (Elt F) → (⟨S4096x1x2048, .f32⟩ : BufTy).Contents (Elt F)),
    StableHlo.unary main_v313 main_v315 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.unary main_v314 main_v316 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.binary main_v315 main_v316 main_v317 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F)),
    StableHlo.reshape main_v317 main_v318 rfl shapeCasts_S4096x1x2x2048_S4096x4096,
    StableHlo.nullary main_cst_12 (constant S_ .f32 0x3C800000#32),
    StableHlo.unary main_cst_12 main_v319 (broadcastInDim S4096x4096 ![] bcast_S_S4096x4096 : (⟨S_, .f32⟩ : BufTy).Contents (Elt F) → (⟨S4096x4096, .f32⟩ : BufTy).Contents (Elt F)),
    StableHlo.binary main_v318 main_v319 main_v320 (mulf : (⟨S4096x4096, .f32⟩ : BufTy).Contents (Elt F) → (⟨S4096x4096, .f32⟩ : BufTy).Contents (Elt F) → (⟨S4096x4096, .f32⟩ : BufTy).Contents (Elt F)),
    StableHlo.unary main_v320 main_v321 ((transpose S4096x4096 [1, 0] · transposes_S4096x4096_S4096x4096_1_0) : (⟨S4096x4096, .f32⟩ : BufTy).Contents (Elt F) → (⟨S4096x4096, .f32⟩ : BufTy).Contents (Elt F)) ]

/-- Operations 349 … 358 of the host prefix. -/
abbrev w29 : List (HloOp τ sig (Elt F)) :=
  [ StableHlo.unary main_arg3 main_v322 (broadcastInDim S4096x1 ![0] bcast_S4096_S4096x1_0 : (⟨S4096, .f32⟩ : BufTy).Contents (Elt F) → (⟨S4096x1, .f32⟩ : BufTy).Contents (Elt F)),
    StableHlo.unary main_v322 main_v323 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v323 main_v321 main_v324 (mulf : (⟨S4096x4096, .f32⟩ : BufTy).Contents (Elt F) → (⟨S4096x4096, .f32⟩ : BufTy).Contents (Elt F) → (⟨S4096x4096, .f32⟩ : BufTy).Contents (Elt F)),
    StableHlo.unary main_arg2 main_v325 (broadcastInDim S1x4096 ![1] bcast_S4096_S1x4096_1 : (⟨S4096, .f32⟩ : BufTy).Contents (Elt F) → (⟨S1x4096, .f32⟩ : BufTy).Contents (Elt F)),
    StableHlo.unary main_v325 main_v326 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v324 main_v326 main_v327 (mulf : (⟨S4096x4096, .f32⟩ : BufTy).Contents (Elt F) → (⟨S4096x4096, .f32⟩ : BufTy).Contents (Elt F) → (⟨S4096x4096, .f32⟩ : BufTy).Contents (Elt F)),
    StableHlo.reshape main_v327 main_v328 rfl shapeCasts_S4096x4096_S65536x256,
    StableHlo.unary main_arg1 main_v329 (broadcastInDim S65536x256 ![0, 1] bcast_S65536x1_S65536x256_0_1 : (⟨S65536x1, .f32⟩ : BufTy).Contents (Elt F) → (⟨S65536x256, .f32⟩ : BufTy).Contents (Elt F)),
    StableHlo.binary main_v328 main_v329 main_v330 (mulf : (⟨S65536x256, .f32⟩ : BufTy).Contents (Elt F) → (⟨S65536x256, .f32⟩ : BufTy).Contents (Elt F) → (⟨S65536x256, .f32⟩ : BufTy).Contents (Elt F)),
    StableHlo.reshape main_v330 main_v331 rfl shapeCasts_S65536x256_S4096x4096 ]

/-- The host prefix: every operation up to the one that writes the scaled weight matrix. -/
abbrev pre : List (HloOp τ sig (Elt F)) :=
  w0 ++ w1 ++ w2 ++ w3 ++ w4 ++ w5 ++ w6 ++ w7 ++ w8 ++ w9 ++ w10 ++ w11 ++ w12 ++ w13 ++ w14 ++ w15 ++ w16 ++ w17 ++ w18 ++ w19 ++ w20 ++ w21 ++ w22 ++ w23 ++ w24 ++ w25 ++ w26 ++ w27 ++ w28 ++ w29

/-- What follows the prefix in this program's host operations before the result is returned or the kernel is launched. -/
abbrev post : List (HloOp τ sig (Elt F)) :=
  [ StableHlo.unary main_v331 main_v332 ((transpose S4096x4096 [1, 0] · transposes_S4096x4096_S4096x4096_1_0) : (⟨S4096x4096, .f32⟩ : BufTy).Contents (Elt F) → (⟨S4096x4096, .f32⟩ : BufTy).Contents (Elt F)),
    StableHlo.reshape main_v22 main_v333 rfl shapeCasts_S4x2048x4096_S8192x4096,
    StableHlo.unary main_v333 main_v334 ((truncf .bf16 · bitsLt_bf16_f32) : (⟨S8192x4096, .f32⟩ : BufTy).Contents (Elt F) → (⟨S8192x4096, .bf16⟩ : BufTy).Contents (Elt F)),
    StableHlo.unary main_v332 main_v335 ((truncf .bf16 · bitsLt_bf16_f32) : (⟨S4096x4096, .f32⟩ : BufTy).Contents (Elt F) → (⟨S4096x4096, .bf16⟩ : BufTy).Contents (Elt F)) ]

end Cert.KernelIdeal.Pfx

end
-- ==== Proof.PfxTac.lean ====
import Idealize.ShloMosaic.Lib.StableHlo.Run
import Idealize.ShloMosaic.Lib.Pipeline.Regions

/-! Two small tools for reading a long straight line of host operations window by window. -/

namespace Cert.PfxAgree

open Idealize.ShloMosaic Idealize.ShloMosaic.StableHlo

variable {τ : Topo} {sig : RefSig} {Val : EltTy → Type}

/-- Running two lines one after the other is running their concatenation: the contents after `a ++ b` are the contents
    after `b` from the contents after `a`. -/
theorem after_app (a b : List (HloOp τ sig Val)) (V : Valuation τ sig Val) :
    after (a ++ b) V = after b (after a V) := by
  induction a generalizing V with
  | nil => rfl
  | cons op a ih => simp only [List.cons_append, after_cons, ih]

/-- The rewriting loop of the library's `after_results` without its opening `simp`: each operation's result read at its own buffer is its function's value, at another buffer what was there. It reaches the operands inside a concatenate's list, which a `simp` pass does not enter. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.PfxAgree
-- ==== Proof.KerPre.lean ====
import proofs.«404041_j68642167324808_1_alg».proof.Proof.PfxK
import proofs.«404041_j68642167324808_1_alg».proof.Proof.PfxTac
import proofs.«404041_j68642167324808_1_alg».proof.Proof.Gen.KernelIdeal.Frame

/-! What the kernel is launched on, in terms of the host prefix: the left operand is the prefix's activations
    flattened to rows and narrowed to bf16, the right operand the prefix's weight matrix transposed and narrowed. -/

set_option maxRecDepth 8192

noncomputable section

open Idealize.ShloMosaic Idealize.ShloMosaic.TcCoe Idealize.SL.Sem Idealize.ShloMosaic.StableHlo

namespace Cert.KernelIdeal.KerPre

open Cert.KernelIdeal Cert.KernelIdeal.Gen

variable {F : FTy → Type} [FloatOps F]
variable (m : (ℓ : Loc nD τ sig) → Buf (Elt F) ℓ)

/-- The host operations before the region, stretch by stretch, are the prefix followed by the four operations that
    lay the two operands out: the same operations in the same order. -/
theorem flatten_eq : (List.flatten [hostOps0, hostOps0_1, hostOps0_2, hostOps0_3, hostOps0_4, hostOps0_5, hostOps0_6, hostOps0_7, hostOps0_8, hostOps0_9, hostOps0_10] : List (HloOp τ sig (Elt F)))
    = Pfx.pre ++ Pfx.post := by
  chain_rfl

/-- The contents the region finds are the contents after the prefix, then after the four layout operations. -/
theorem V0_eq (c : Dev nD) : V0 m c = after Pfx.post (after Pfx.pre (launchContents m c)) := by
  show after (List.flatten [hostOps0, hostOps0_1, hostOps0_2, hostOps0_3, hostOps0_4, hostOps0_5, hostOps0_6, hostOps0_7, hostOps0_8, hostOps0_9, hostOps0_10]) (fun b => m (c, b)) = _
  rw [flatten_eq, after_append]

/-- The left operand: the activations, flattened to 8192 rows and narrowed. -/
theorem V_lhs (c : Dev nD) :
    (V m c main_v334 : FVec F S8192x4096 .bf16)
      = truncf .bf16 (shapeCast S8192x4096 (after Pfx.pre (launchContents m c) (Proc.devRef .tc main_v22)) shapeCasts_S4x2048x4096_S8192x4096) bitsLt_bf16_f32 := by
  show V0 m c (Proc.devRef .tc main_v334) = _
  rw [V0_eq]
  generalize after Pfx.pre (launchContents m c) = W
  after_results
  rfl

/-- The right operand: the weight matrix, transposed and narrowed. -/
theorem V_rhs (c : Dev nD) :
    (V m c main_v335 : FVec F S4096x4096 .bf16)
      = truncf .bf16 (transpose S4096x4096 [1, 0] (after Pfx.pre (launchContents m c) (Proc.devRef .tc main_v331)) transposes_S4096x4096_S4096x4096_1_0) bitsLt_bf16_f32 := by
  show V0 m c (Proc.devRef .tc main_v335) = _
  rw [V0_eq]
  generalize after Pfx.pre (launchContents m c) = W
  after_results

end Cert.KernelIdeal.KerPre

end
-- ==== Proof.Operands.lean ====
import proofs.«404041_j68642167324808_1_alg».proof.KernelIdeal
import proofs.«404041_j68642167324808_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Operands

open Cert.KernelIdeal Cert.KernelIdeal.Gen

/-- The left operand the kernel is launched on — the activations flattened to rows and narrowed, the narrowing the identity over the extended reals — at row 2048·b + s, column k, is x[b, s, k]. -/
theorem lhs_apply (X : FVec Ideal S4x2048x4096 .f32) (b : Fin 4) (s : Fin 2048) (k : Fin 4096) :
    (truncf .bf16 (shapeCast S8192x4096 X shapeCasts_S4x2048x4096_S8192x4096) bitsLt_bf16_f32 : FVec Ideal S8192x4096 .bf16)
        (ix2 ⟨2048 * b.val + s.val, by omega⟩ k) = X (ix3 b s k) := by
  rw [truncf_apply]
  refine shapeCast_apply X _ _ _ ?_
  rw [Shape.rowMajor_val_three, Shape.rowMajor_val_two]
  show (b.val * 2048 + s.val) * 4096 + k.val = (2048 * b.val + s.val) * 4096 + k.val
  omega

/-- The right operand — the weight transposed and narrowed — at (k, o) is w[o, k]. -/
theorem rhs_apply (W : FVec Ideal S4096x4096 .f32) (k : Fin 4096) (o : Fin 4096) :
    (truncf .bf16 (transpose S4096x4096 [1, 0] W transposes_S4096x4096_S4096x4096_1_0) bitsLt_bf16_f32 : FVec Ideal S4096x4096 .bf16)
        (ix2 k o) = W (ix2 o k) := by
  rw [truncf_apply]
  refine transpose_apply _ W _ _ _ ?_
  intro a
  match a with
  | ⟨0, _⟩ => rfl
  | ⟨1, _⟩ => rfl

/-- The result unflattened — the rows split back into (b, s) — at (b, s, o) is the flat array at row 2048·b + s, column o. -/
theorem out_apply (G : FVec Ideal S8192x4096 .f32) (b : Fin 4) (s : Fin 2048) (o : Fin 4096) :
    (shapeCast S4x2048x4096 G shapeCasts_S8192x4096_S4x2048x4096 : FVec Ideal S4x2048x4096 .f32) (ix3 b s o)
      = G (ix2 ⟨2048 * b.val + s.val, by omega⟩ o) := by
  refine shapeCast_apply G _ _ _ ?_
  rw [Shape.rowMajor_val_three, Shape.rowMajor_val_two]
  show (2048 * b.val + s.val) * 4096 + o.val = (b.val * 2048 + s.val) * 4096 + o.val
  omega

end Cert.KernelIdeal.Operands

end
-- ==== Proof.PfxR.lean ====
import proofs.«404041_j68642167324808_1_alg».proof.ReferenceIdeal
import proofs.«404041_j68642167324808_1_alg».proof.Proof.Gen.ReferenceIdeal
import Idealize.ShloMosaic.Lib.StableHlo.Run

set_option maxRecDepth 4404

noncomputable section

namespace Cert.ReferenceIdeal.Pfx

open Cert.ReferenceIdeal Cert.ReferenceIdeal.Gen Idealize.ShloMosaic Idealize.ShloMosaic.TcCoe Idealize.SL.Sem

variable {F : FTy → Type} [FloatOps F]

/-- Operations 1 … 12 of the host prefix. -/
abbrev w0 : List (HloOp τ sig (Elt F)) :=
  [ StableHlo.nullary main_c (fun i => lit0 (S4.rowMajor i)),
    StableHlo.nullary main_cst (constant S_ .f32 0x7F800000#32),
    StableHlo.binary main_arg0 main_cst main_v0 ((fun x v => Host.reduce FloatOps.minimumf x v reducesTo_S4x2048x4096_S4096_d0_1 h_S_) : (⟨S4x2048x4096, .f32⟩ : BufTy).Contents (Elt F) → (⟨S_, .f32⟩ : BufTy).Contents (Elt F) → (⟨S4096, .f32⟩ : BufTy).Contents (Elt F)),
    StableHlo.nullary main_cst_0 (constant S_ .f32 0xFF800000#32),
    StableHlo.binary main_arg0 main_cst_0 main_v1 ((fun x v => Host.reduce FloatOps.maximumf x v reducesTo_S4x2048x4096_S4096_d0_1 h_S_) : (⟨S4x2048x4096, .f32⟩ : BufTy).Contents (Elt F) → (⟨S_, .f32⟩ : BufTy).Contents (Elt F) → (⟨S4096, .f32⟩ : BufTy).Contents (Elt F)),
    StableHlo.binary main_v1 main_v0 main_v2 (subf : (⟨S4096, .f32⟩ : BufTy).Contents (Elt F) → (⟨S4096, .f32⟩ : BufTy).Contents (Elt F) → (⟨S4096, .f32⟩ : BufTy).Contents (Elt F)),
    StableHlo.nullary main_cst_1 (constant S_ .f32 0x437F0000#32),
    StableHlo.unary main_cst_1 main_v3 (broadcastInDim S4096 ![] bcast_S_S4096 : (⟨S_, .f32⟩ : BufTy).Contents (Elt F) → (⟨S4096, .f32⟩ : BufTy).Contents (Elt F)),
    StableHlo.binary main_v2 main_v3 main_v4 (Host.divf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x322BCC77#32),
    StableHlo.unary main_cst_2 main_v5 (broadcastInDim S4096 ![] bcast_S_S4096 : (⟨S_, .f32⟩ : BufTy).Contents (Elt F) → (⟨S4096, .f32⟩ : BufTy).Contents (Elt F)),
    StableHlo.binary main_v4 main_v5 main_v6 (maximumf : (⟨S4096, .f32⟩ : BufTy).Contents (Elt F) → (⟨S4096, .f32⟩ : BufTy).Contents (Elt F) → (⟨S4096, .f32⟩ : BufTy).Contents (Elt F)) ]

/-- Operations 13 … 24 of the host prefix. -/
abbrev w1 : List (HloOp τ sig (Elt F)) :=
  [ StableHlo.unary main_v0 main_v7 (broadcastInDim S1x1x4096 ![2] bcast_S4096_S1x1x4096_2 : (⟨S4096, .f32⟩ : BufTy).Contents (Elt F) → (⟨S1x1x4096, .f32⟩ : BufTy).Contents (Elt F)),
    StableHlo.unary main_v7 main_v8 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_arg0 main_v8 main_v9 (subf : (⟨S4x2048x4096, .f32⟩ : BufTy).Contents (Elt F) → (⟨S4x2048x4096, .f32⟩ : BufTy).Contents (Elt F) → (⟨S4x2048x4096, .f32⟩ : BufTy).Contents (Elt F)),
    StableHlo.unary main_v6 main_v10 (broadcastInDim S1x1x4096 ![2] bcast_S4096_S1x1x4096_2 : (⟨S4096, .f32⟩ : BufTy).Contents (Elt F) → (⟨S1x1x4096, .f32⟩ : BufTy).Contents (Elt F)),
    StableHlo.unary main_v10 main_v11 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v9 main_v11 main_v12 (Host.divf : (⟨S4x2048x4096, .f32⟩ : BufTy).Contents (Elt F) → (⟨S4x2048x4096, .f32⟩ : BufTy).Contents (Elt F) → (⟨S4x2048x4096, .f32⟩ : BufTy).Contents (Elt F)),
    StableHlo.TRef.unary (.of main_v12 : StableHlo.TRef sig ⟨S4x2048x4096, .f32⟩) (.of main_v13 : StableHlo.TRef sig ⟨S4x2048x4096, .f32⟩) Host.roundeven,
    StableHlo.nullary main_cst_3 (constant S_ .f32 0x00000000#32),
    StableHlo.nullary main_cst_4 (constant S_ .f32 0x437F0000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x2048x4096, .f32⟩) (broadcastInDim S4x2048x4096 ![] bcast_S_S4x2048x4096),
    StableHlo.TRef.binary (.of main_call1_v1 : StableHlo.TRef sig ⟨S4x2048x4096, .f32⟩) (.of main_v13 : StableHlo.TRef sig ⟨S4x2048x4096, .f32⟩) (.of main_call1_v2 : StableHlo.TRef sig ⟨S4x2048x4096, .f32⟩) maximumf ]

/-- Operations 25 … 36 of the host prefix. -/
abbrev w2 : List (HloOp τ sig (Elt F)) :=
  [ StableHlo.TRef.unary (.of main_cst_4 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S4x2048x4096, .f32⟩) (broadcastInDim S4x2048x4096 ![] bcast_S_S4x2048x4096),
    StableHlo.TRef.binary (.of main_call1_v4 : StableHlo.TRef sig ⟨S4x2048x4096, .f32⟩) (.of main_call1_v2 : StableHlo.TRef sig ⟨S4x2048x4096, .f32⟩) (.of main_v14 : StableHlo.TRef sig ⟨S4x2048x4096, .f32⟩) minimumf,
    StableHlo.unary main_v6 main_v15 (broadcastInDim S1x1x4096 ![2] bcast_S4096_S1x1x4096_2 : (⟨S4096, .f32⟩ : BufTy).Contents (Elt F) → (⟨S1x1x4096, .f32⟩ : BufTy).Contents (Elt F)),
    StableHlo.unary main_v15 main_v16 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v14 main_v16 main_v17 (mulf : (⟨S4x2048x4096, .f32⟩ : BufTy).Contents (Elt F) → (⟨S4x2048x4096, .f32⟩ : BufTy).Contents (Elt F) → (⟨S4x2048x4096, .f32⟩ : BufTy).Contents (Elt F)),
    StableHlo.unary main_v0 main_v18 (broadcastInDim S1x1x4096 ![2] bcast_S4096_S1x1x4096_2 : (⟨S4096, .f32⟩ : BufTy).Contents (Elt F) → (⟨S1x1x4096, .f32⟩ : BufTy).Contents (Elt F)),
    StableHlo.unary main_v18 main_v19 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v17 main_v19 main_v20 (addf : (⟨S4x2048x4096, .f32⟩ : BufTy).Contents (Elt F) → (⟨S4x2048x4096, .f32⟩ : BufTy).Contents (Elt F) → (⟨S4x2048x4096, .f32⟩ : BufTy).Contents (Elt F)),
    StableHlo.binary main_v20 main_arg0 main_v21 (subf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_v21 main_v22 (addf : (⟨S4x2048x4096, .f32⟩ : BufTy).Contents (Elt F) → (⟨S4x2048x4096, .f32⟩ : BufTy).Contents (Elt F) → (⟨S4x2048x4096, .f32⟩ : BufTy).Contents (Elt F)),
    StableHlo.unary main_arg5 main_v23 (broadcastInDim S65536x32x1 ![0, 1] bcast_S65536x32_S65536x32x1_0_1 : (⟨S65536x32, .i32⟩ : BufTy).Contents (Elt F) → (⟨S65536x32x1, .i32⟩ : BufTy).Contents (Elt F)) ]

/-- Operations 37 … 48 of the host prefix. -/
abbrev w3 : List (HloOp τ sig (Elt F)) :=
  [ StableHlo.unary main_c main_v24 (broadcastInDim S1x1x4 ![2] bcast_S4_S1x1x4_2 : (⟨S4, .i32⟩ : BufTy).Contents (Elt F) → (⟨S1x1x4, .i32⟩ : BufTy).Contents (Elt F)),
    StableHlo.unary main_v23 main_v25 (broadcastInDim S65536x32x4 ![0, 1, 2] bcast_S65536x32x1_S65536x32x4_0_1_2 : (⟨S65536x32x1, .i32⟩ : BufTy).Contents (Elt F) → (⟨S65536x32x4, .i32⟩ : BufTy).Contents (Elt F)),
    StableHlo.unary main_v24 main_v26 (broadcastInDim S65536x32x4 ![0, 1, 2] bcast_S1x1x4_S65536x32x4_0_1_2 : (⟨S1x1x4, .i32⟩ : BufTy).Contents (Elt F) → (⟨S65536x32x4, .i32⟩ : BufTy).Contents (Elt F)),
    StableHlo.binary main_v25 main_v26 main_v27 (Host.shrsi : (⟨S65536x32x4, .i32⟩ : BufTy).Contents (Elt F) → (⟨S65536x32x4, .i32⟩ : BufTy).Contents (Elt F) → (⟨S65536x32x4, .i32⟩ : BufTy).Contents (Elt F)),
    StableHlo.nullary main_c_5 (constantI S_ 32 15#32),
    StableHlo.unary main_c_5 main_v28 (broadcastInDim S65536x32x4 ![] bcast_S_S65536x32x4 : (⟨S_, .i32⟩ : BufTy).Contents (Elt F) → (⟨S65536x32x4, .i32⟩ : BufTy).Contents (Elt F)),
    StableHlo.binary main_v27 main_v28 main_v29 (andi : (⟨S65536x32x4, .i32⟩ : BufTy).Contents (Elt F) → (⟨S65536x32x4, .i32⟩ : BufTy).Contents (Elt F) → (⟨S65536x32x4, .i32⟩ : BufTy).Contents (Elt F)),
    StableHlo.reshape main_v29 main_v30 rfl shapeCasts_S65536x32x4_S65536x128,
    StableHlo.nullary main_c_6 (constantI S_ 32 12#32),
    StableHlo.unary main_c_6 main_v31 (broadcastInDim S65536x128 ![] bcast_S_S65536x128 : (⟨S_, .i32⟩ : BufTy).Contents (Elt F) → (⟨S65536x128, .i32⟩ : BufTy).Contents (Elt F)),
    StableHlo.binary main_v30 main_v31 main_v32 (Host.shli : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call2_v0 : StableHlo.TRef sig ⟨S65536x127, .i32⟩) (extractStridedSlice S65536x127 ![0, 1] · slices_S65536x128_S65536x127_0_1) ]

/-- Operations 49 … 60 of the host prefix. -/
abbrev w4 : List (HloOp τ sig (Elt F)) :=
  [ StableHlo.TRef.unary (.of main_v30 : StableHlo.TRef sig ⟨S65536x128, .i32⟩) (.of main_call2_v1 : StableHlo.TRef sig ⟨S65536x1, .i32⟩) (extractStridedSlice S65536x1 ![0, 0] · slices_S65536x128_S65536x1_0_0),
    StableHlo.TRef.binary (.of main_call2_v0 : StableHlo.TRef sig ⟨S65536x127, .i32⟩) (.of main_call2_v1 : StableHlo.TRef sig ⟨S65536x1, .i32⟩) (.of main_v33 : StableHlo.TRef sig ⟨S65536x128, .i32⟩) (fun a b => concatenate S65536x128 1 [⟨S65536x127, a⟩, ⟨S65536x1, b⟩] concatenates_S65536x127_S65536x1_S65536x128_d1),
    StableHlo.nullary main_c_7 (constantI S_ 32 8#32),
    StableHlo.unary main_c_7 main_v34 (broadcastInDim S65536x128 ![] bcast_S_S65536x128 : (⟨S_, .i32⟩ : BufTy).Contents (Elt F) → (⟨S65536x128, .i32⟩ : BufTy).Contents (Elt F)),
    StableHlo.binary main_v33 main_v34 main_v35 (Host.shli : (⟨S65536x128, .i32⟩ : BufTy).Contents (Elt F) → (⟨S65536x128, .i32⟩ : BufTy).Contents (Elt F) → (⟨S65536x128, .i32⟩ : BufTy).Contents (Elt F)),
    StableHlo.binary main_v32 main_v35 main_v36 (addi : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call3_v0 : StableHlo.TRef sig ⟨S65536x126, .i32⟩) (extractStridedSlice S65536x126 ![0, 2] · slices_S65536x128_S65536x126_0_2),
    StableHlo.TRef.unary (.of main_v30 : StableHlo.TRef sig ⟨S65536x128, .i32⟩) (.of main_call3_v1 : StableHlo.TRef sig ⟨S65536x2, .i32⟩) (extractStridedSlice S65536x2 ![0, 0] · slices_S65536x128_S65536x2_0_0),
    StableHlo.TRef.binary (.of main_call3_v0 : StableHlo.TRef sig ⟨S65536x126, .i32⟩) (.of main_call3_v1 : StableHlo.TRef sig ⟨S65536x2, .i32⟩) (.of main_v37 : StableHlo.TRef sig ⟨S65536x128, .i32⟩) (fun a b => concatenate S65536x128 1 [⟨S65536x126, a⟩, ⟨S65536x2, b⟩] concatenates_S65536x126_S65536x2_S65536x128_d1),
    StableHlo.nullary main_c_8 (constantI S_ 32 4#32),
    StableHlo.unary main_c_8 main_v38 (broadcastInDim S65536x128 ![] bcast_S_S65536x128 : (⟨S_, .i32⟩ : BufTy).Contents (Elt F) → (⟨S65536x128, .i32⟩ : BufTy).Contents (Elt F)),
    StableHlo.binary main_v37 main_v38 main_v39 (Host.shli : (⟨S65536x128, .i32⟩ : BufTy).Contents (Elt F) → (⟨S65536x128, .i32⟩ : BufTy).Contents (Elt F) → (⟨S65536x128, .i32⟩ : BufTy).Contents (Elt F)) ]

/-- Operations 61 … 72 of the host prefix. -/
abbrev w5 : List (HloOp τ sig (Elt F)) :=
  [ StableHlo.binary main_v36 main_v39 main_v40 (addi : (⟨S65536x128, .i32⟩ : BufTy).Contents (Elt F) → (⟨S65536x128, .i32⟩ : BufTy).Contents (Elt F) → (⟨S65536x128, .i32⟩ : BufTy).Contents (Elt F)),
    StableHlo.TRef.unary (.of main_v30 : StableHlo.TRef sig ⟨S65536x128, .i32⟩) (.of main_call4_v0 : StableHlo.TRef sig ⟨S65536x125, .i32⟩) (extractStridedSlice S65536x125 ![0, 3] · slices_S65536x128_S65536x125_0_3),
    StableHlo.TRef.unary (.of main_v30 : StableHlo.TRef sig ⟨S65536x128, .i32⟩) (.of main_call4_v1 : StableHlo.TRef sig ⟨S65536x3, .i32⟩) (extractStridedSlice S65536x3 ![0, 0] · slices_S65536x128_S65536x3_0_0),
    StableHlo.TRef.binary (.of main_call4_v0 : StableHlo.TRef sig ⟨S65536x125, .i32⟩) (.of main_call4_v1 : StableHlo.TRef sig ⟨S65536x3, .i32⟩) (.of main_v41 : StableHlo.TRef sig ⟨S65536x128, .i32⟩) (fun a b => concatenate S65536x128 1 [⟨S65536x125, a⟩, ⟨S65536x3, b⟩] concatenates_S65536x125_S65536x3_S65536x128_d1),
    StableHlo.binary main_v40 main_v41 main_v42 (addi : (⟨S65536x128, .i32⟩ : BufTy).Contents (Elt F) → (⟨S65536x128, .i32⟩ : BufTy).Contents (Elt F) → (⟨S65536x128, .i32⟩ : BufTy).Contents (Elt F)),
    StableHlo.nullary main_c_9 (constantI S_ 32 0#32),
    StableHlo.unary main_c_9 main_v43 (broadcastInDim S65536x128 ![] bcast_S_S65536x128 : (⟨S_, .i32⟩ : BufTy).Contents (Elt F) → (⟨S65536x128, .i32⟩ : BufTy).Contents (Elt F)),
    StableHlo.binary main_v42 main_v43 main_v44 (cmpi .slt : (⟨S65536x128, .i32⟩ : BufTy).Contents (Elt F) → (⟨S65536x128, .i32⟩ : BufTy).Contents (Elt F) → (⟨S65536x128, .i1⟩ : BufTy).Contents (Elt F)),
    StableHlo.nullary main_c_10 (constantI S_ 32 65536#32),
    StableHlo.unary main_c_10 main_v45 (broadcastInDim S65536x128 ![] bcast_S_S65536x128 : (⟨S_, .i32⟩ : BufTy).Contents (Elt F) → (⟨S65536x128, .i32⟩ : BufTy).Contents (Elt F)),
    StableHlo.binary main_v42 main_v45 main_v46 (addi : (⟨S65536x128, .i32⟩ : BufTy).Contents (Elt F) → (⟨S65536x128, .i32⟩ : BufTy).Contents (Elt F) → (⟨S65536x128, .i32⟩ : BufTy).Contents (Elt F)),
    StableHlo.ternary main_v44 main_v46 main_v42 main_v47 (select : (⟨S65536x128, .i1⟩ : BufTy).Contents (Elt F) → (⟨S65536x128, .i32⟩ : BufTy).Contents (Elt F) → (⟨S65536x128, .i32⟩ : BufTy).Contents (Elt F) → (⟨S65536x128, .i32⟩ : BufTy).Contents (Elt F)) ]

/-- Operations 73 … 84 of the host prefix. -/
abbrev w6 : List (HloOp τ sig (Elt F)) :=
  [ StableHlo.unary main_v47 main_v48 (broadcastInDim S65536x128x1 ![0, 1] bcast_S65536x128_S65536x128x1_0_1 : (⟨S65536x128, .i32⟩ : BufTy).Contents (Elt F) → (⟨S65536x128x1, .i32⟩ : BufTy).Contents (Elt F)),
    StableHlo.binary main_arg4 main_v48 main_v49 ((fun x i => Host.gather gather_S65536x2_S65536x128x1_S65536x128x2_2_0_n_n_0_2_12 x i) : (⟨S65536x2, .f32⟩ : BufTy).Contents (Elt F) → (⟨S65536x128x1, .i32⟩ : BufTy).Contents (Elt F) → (⟨S65536x128x2, .f32⟩ : BufTy).Contents (Elt F)),
    StableHlo.reshape main_v49 main_v50 rfl shapeCasts_S65536x128x2_S65536x256,
    StableHlo.reshape main_v50 main_v51 rfl shapeCasts_S65536x256_S4096x4096,
    StableHlo.reshape main_v51 main_v52 rfl shapeCasts_S4096x4096_S4096x2048x2x1,
    StableHlo.unary main_v52 main_v53 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F)),
    StableHlo.reshape main_v53 main_v54 rfl shapeCasts_S4096x2048x1x1_S4096x2048x1,
    StableHlo.unary main_v52 main_v55 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F)),
    StableHlo.reshape main_v55 main_v56 rfl shapeCasts_S4096x2048x1x1_S4096x2048x1,
    StableHlo.binary main_v54 main_v56 main_v57 (addf : (⟨S4096x2048x1, .f32⟩ : BufTy).Contents (Elt F) → (⟨S4096x2048x1, .f32⟩ : BufTy).Contents (Elt F) → (⟨S4096x2048x1, .f32⟩ : BufTy).Contents (Elt F)),
    StableHlo.binary main_v54 main_v56 main_v58 (subf : (⟨S4096x2048x1, .f32⟩ : BufTy).Contents (Elt F) → (⟨S4096x2048x1, .f32⟩ : BufTy).Contents (Elt F) → (⟨S4096x2048x1, .f32⟩ : BufTy).Contents (Elt F)),
    StableHlo.unary main_v57 main_v59 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)) ]

/-- Operations 85 … 96 of the host prefix. -/
abbrev w7 : List (HloOp τ sig (Elt F)) :=
  [ StableHlo.unary main_v58 main_v60 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.binary main_v59 main_v60 main_v61 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F)),
    StableHlo.reshape main_v61 main_v62 rfl shapeCasts_S4096x2048x2x1_S4096x4096,
    StableHlo.reshape main_v62 main_v63 rfl shapeCasts_S4096x4096_S4096x1024x2x2,
    StableHlo.unary main_v63 main_v64 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F)),
    StableHlo.reshape main_v64 main_v65 rfl shapeCasts_S4096x1024x1x2_S4096x1024x2,
    StableHlo.unary main_v63 main_v66 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F)),
    StableHlo.reshape main_v66 main_v67 rfl shapeCasts_S4096x1024x1x2_S4096x1024x2,
    StableHlo.binary main_v65 main_v67 main_v68 (addf : (⟨S4096x1024x2, .f32⟩ : BufTy).Contents (Elt F) → (⟨S4096x1024x2, .f32⟩ : BufTy).Contents (Elt F) → (⟨S4096x1024x2, .f32⟩ : BufTy).Contents (Elt F)),
    StableHlo.binary main_v65 main_v67 main_v69 (subf : (⟨S4096x1024x2, .f32⟩ : BufTy).Contents (Elt F) → (⟨S4096x1024x2, .f32⟩ : BufTy).Contents (Elt F) → (⟨S4096x1024x2, .f32⟩ : BufTy).Contents (Elt F)),
    StableHlo.unary main_v68 main_v70 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.unary main_v69 main_v71 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)) ]

/-- Operations 97 … 108 of the host prefix. -/
abbrev w8 : List (HloOp τ sig (Elt F)) :=
  [ StableHlo.binary main_v70 main_v71 main_v72 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F)),
    StableHlo.reshape main_v72 main_v73 rfl shapeCasts_S4096x1024x2x2_S4096x4096,
    StableHlo.reshape main_v73 main_v74 rfl shapeCasts_S4096x4096_S4096x512x2x4,
    StableHlo.unary main_v74 main_v75 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F)),
    StableHlo.reshape main_v75 main_v76 rfl shapeCasts_S4096x512x1x4_S4096x512x4,
    StableHlo.unary main_v74 main_v77 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F)),
    StableHlo.reshape main_v77 main_v78 rfl shapeCasts_S4096x512x1x4_S4096x512x4,
    StableHlo.binary main_v76 main_v78 main_v79 (addf : (⟨S4096x512x4, .f32⟩ : BufTy).Contents (Elt F) → (⟨S4096x512x4, .f32⟩ : BufTy).Contents (Elt F) → (⟨S4096x512x4, .f32⟩ : BufTy).Contents (Elt F)),
    StableHlo.binary main_v76 main_v78 main_v80 (subf : (⟨S4096x512x4, .f32⟩ : BufTy).Contents (Elt F) → (⟨S4096x512x4, .f32⟩ : BufTy).Contents (Elt F) → (⟨S4096x512x4, .f32⟩ : BufTy).Contents (Elt F)),
    StableHlo.unary main_v79 main_v81 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.unary main_v80 main_v82 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.binary main_v81 main_v82 main_v83 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F)) ]

/-- Operations 109 … 120 of the host prefix. -/
abbrev w9 : List (HloOp τ sig (Elt F)) :=
  [ StableHlo.reshape main_v83 main_v84 rfl shapeCasts_S4096x512x2x4_S4096x4096,
    StableHlo.reshape main_v84 main_v85 rfl shapeCasts_S4096x4096_S4096x256x2x8,
    StableHlo.unary main_v85 main_v86 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F)),
    StableHlo.reshape main_v86 main_v87 rfl shapeCasts_S4096x256x1x8_S4096x256x8,
    StableHlo.unary main_v85 main_v88 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F)),
    StableHlo.reshape main_v88 main_v89 rfl shapeCasts_S4096x256x1x8_S4096x256x8,
    StableHlo.binary main_v87 main_v89 main_v90 (addf : (⟨S4096x256x8, .f32⟩ : BufTy).Contents (Elt F) → (⟨S4096x256x8, .f32⟩ : BufTy).Contents (Elt F) → (⟨S4096x256x8, .f32⟩ : BufTy).Contents (Elt F)),
    StableHlo.binary main_v87 main_v89 main_v91 (subf : (⟨S4096x256x8, .f32⟩ : BufTy).Contents (Elt F) → (⟨S4096x256x8, .f32⟩ : BufTy).Contents (Elt F) → (⟨S4096x256x8, .f32⟩ : BufTy).Contents (Elt F)),
    StableHlo.unary main_v90 main_v92 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.unary main_v91 main_v93 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.binary main_v92 main_v93 main_v94 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F)),
    StableHlo.reshape main_v94 main_v95 rfl shapeCasts_S4096x256x2x8_S4096x4096 ]

/-- Operations 121 … 132 of the host prefix. -/
abbrev w10 : List (HloOp τ sig (Elt F)) :=
  [ StableHlo.reshape main_v95 main_v96 rfl shapeCasts_S4096x4096_S4096x128x2x16,
    StableHlo.unary main_v96 main_v97 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F)),
    StableHlo.reshape main_v97 main_v98 rfl shapeCasts_S4096x128x1x16_S4096x128x16,
    StableHlo.unary main_v96 main_v99 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F)),
    StableHlo.reshape main_v99 main_v100 rfl shapeCasts_S4096x128x1x16_S4096x128x16,
    StableHlo.binary main_v98 main_v100 main_v101 (addf : (⟨S4096x128x16, .f32⟩ : BufTy).Contents (Elt F) → (⟨S4096x128x16, .f32⟩ : BufTy).Contents (Elt F) → (⟨S4096x128x16, .f32⟩ : BufTy).Contents (Elt F)),
    StableHlo.binary main_v98 main_v100 main_v102 (subf : (⟨S4096x128x16, .f32⟩ : BufTy).Contents (Elt F) → (⟨S4096x128x16, .f32⟩ : BufTy).Contents (Elt F) → (⟨S4096x128x16, .f32⟩ : BufTy).Contents (Elt F)),
    StableHlo.unary main_v101 main_v103 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.unary main_v102 main_v104 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.binary main_v103 main_v104 main_v105 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F)),
    StableHlo.reshape main_v105 main_v106 rfl shapeCasts_S4096x128x2x16_S4096x4096,
    StableHlo.reshape main_v106 main_v107 rfl shapeCasts_S4096x4096_S4096x64x2x32 ]

/-- Operations 133 … 144 of the host prefix. -/
abbrev w11 : List (HloOp τ sig (Elt F)) :=
  [ StableHlo.unary main_v107 main_v108 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F)),
    StableHlo.reshape main_v108 main_v109 rfl shapeCasts_S4096x64x1x32_S4096x64x32,
    StableHlo.unary main_v107 main_v110 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F)),
    StableHlo.reshape main_v110 main_v111 rfl shapeCasts_S4096x64x1x32_S4096x64x32,
    StableHlo.binary main_v109 main_v111 main_v112 (addf : (⟨S4096x64x32, .f32⟩ : BufTy).Contents (Elt F) → (⟨S4096x64x32, .f32⟩ : BufTy).Contents (Elt F) → (⟨S4096x64x32, .f32⟩ : BufTy).Contents (Elt F)),
    StableHlo.binary main_v109 main_v111 main_v113 (subf : (⟨S4096x64x32, .f32⟩ : BufTy).Contents (Elt F) → (⟨S4096x64x32, .f32⟩ : BufTy).Contents (Elt F) → (⟨S4096x64x32, .f32⟩ : BufTy).Contents (Elt F)),
    StableHlo.unary main_v112 main_v114 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.unary main_v113 main_v115 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.binary main_v114 main_v115 main_v116 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F)),
    StableHlo.reshape main_v116 main_v117 rfl shapeCasts_S4096x64x2x32_S4096x4096,
    StableHlo.reshape main_v117 main_v118 rfl shapeCasts_S4096x4096_S4096x32x2x64,
    StableHlo.unary main_v118 main_v119 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F)) ]

/-- Operations 145 … 156 of the host prefix. -/
abbrev w12 : List (HloOp τ sig (Elt F)) :=
  [ StableHlo.reshape main_v119 main_v120 rfl shapeCasts_S4096x32x1x64_S4096x32x64,
    StableHlo.unary main_v118 main_v121 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F)),
    StableHlo.reshape main_v121 main_v122 rfl shapeCasts_S4096x32x1x64_S4096x32x64,
    StableHlo.binary main_v120 main_v122 main_v123 (addf : (⟨S4096x32x64, .f32⟩ : BufTy).Contents (Elt F) → (⟨S4096x32x64, .f32⟩ : BufTy).Contents (Elt F) → (⟨S4096x32x64, .f32⟩ : BufTy).Contents (Elt F)),
    StableHlo.binary main_v120 main_v122 main_v124 (subf : (⟨S4096x32x64, .f32⟩ : BufTy).Contents (Elt F) → (⟨S4096x32x64, .f32⟩ : BufTy).Contents (Elt F) → (⟨S4096x32x64, .f32⟩ : BufTy).Contents (Elt F)),
    StableHlo.unary main_v123 main_v125 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.unary main_v124 main_v126 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.binary main_v125 main_v126 main_v127 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F)),
    StableHlo.reshape main_v127 main_v128 rfl shapeCasts_S4096x32x2x64_S4096x4096,
    StableHlo.reshape main_v128 main_v129 rfl shapeCasts_S4096x4096_S4096x16x2x128,
    StableHlo.unary main_v129 main_v130 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F)),
    StableHlo.reshape main_v130 main_v131 rfl shapeCasts_S4096x16x1x128_S4096x16x128 ]

/-- Operations 157 … 168 of the host prefix. -/
abbrev w13 : List (HloOp τ sig (Elt F)) :=
  [ StableHlo.unary main_v129 main_v132 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F)),
    StableHlo.reshape main_v132 main_v133 rfl shapeCasts_S4096x16x1x128_S4096x16x128,
    StableHlo.binary main_v131 main_v133 main_v134 (addf : (⟨S4096x16x128, .f32⟩ : BufTy).Contents (Elt F) → (⟨S4096x16x128, .f32⟩ : BufTy).Contents (Elt F) → (⟨S4096x16x128, .f32⟩ : BufTy).Contents (Elt F)),
    StableHlo.binary main_v131 main_v133 main_v135 (subf : (⟨S4096x16x128, .f32⟩ : BufTy).Contents (Elt F) → (⟨S4096x16x128, .f32⟩ : BufTy).Contents (Elt F) → (⟨S4096x16x128, .f32⟩ : BufTy).Contents (Elt F)),
    StableHlo.unary main_v134 main_v136 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.unary main_v135 main_v137 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.binary main_v136 main_v137 main_v138 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F)),
    StableHlo.reshape main_v138 main_v139 rfl shapeCasts_S4096x16x2x128_S4096x4096,
    StableHlo.reshape main_v139 main_v140 rfl shapeCasts_S4096x4096_S4096x8x2x256,
    StableHlo.unary main_v140 main_v141 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F)),
    StableHlo.reshape main_v141 main_v142 rfl shapeCasts_S4096x8x1x256_S4096x8x256,
    StableHlo.unary main_v140 main_v143 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F)) ]

/-- Operations 169 … 180 of the host prefix. -/
abbrev w14 : List (HloOp τ sig (Elt F)) :=
  [ StableHlo.reshape main_v143 main_v144 rfl shapeCasts_S4096x8x1x256_S4096x8x256,
    StableHlo.binary main_v142 main_v144 main_v145 (addf : (⟨S4096x8x256, .f32⟩ : BufTy).Contents (Elt F) → (⟨S4096x8x256, .f32⟩ : BufTy).Contents (Elt F) → (⟨S4096x8x256, .f32⟩ : BufTy).Contents (Elt F)),
    StableHlo.binary main_v142 main_v144 main_v146 (subf : (⟨S4096x8x256, .f32⟩ : BufTy).Contents (Elt F) → (⟨S4096x8x256, .f32⟩ : BufTy).Contents (Elt F) → (⟨S4096x8x256, .f32⟩ : BufTy).Contents (Elt F)),
    StableHlo.unary main_v145 main_v147 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.unary main_v146 main_v148 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.binary main_v147 main_v148 main_v149 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F)),
    StableHlo.reshape main_v149 main_v150 rfl shapeCasts_S4096x8x2x256_S4096x4096,
    StableHlo.reshape main_v150 main_v151 rfl shapeCasts_S4096x4096_S4096x4x2x512,
    StableHlo.unary main_v151 main_v152 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F)),
    StableHlo.reshape main_v152 main_v153 rfl shapeCasts_S4096x4x1x512_S4096x4x512,
    StableHlo.unary main_v151 main_v154 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F)),
    StableHlo.reshape main_v154 main_v155 rfl shapeCasts_S4096x4x1x512_S4096x4x512 ]

/-- Operations 181 … 192 of the host prefix. -/
abbrev w15 : List (HloOp τ sig (Elt F)) :=
  [ StableHlo.binary main_v153 main_v155 main_v156 (addf : (⟨S4096x4x512, .f32⟩ : BufTy).Contents (Elt F) → (⟨S4096x4x512, .f32⟩ : BufTy).Contents (Elt F) → (⟨S4096x4x512, .f32⟩ : BufTy).Contents (Elt F)),
    StableHlo.binary main_v153 main_v155 main_v157 (subf : (⟨S4096x4x512, .f32⟩ : BufTy).Contents (Elt F) → (⟨S4096x4x512, .f32⟩ : BufTy).Contents (Elt F) → (⟨S4096x4x512, .f32⟩ : BufTy).Contents (Elt F)),
    StableHlo.unary main_v156 main_v158 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.unary main_v157 main_v159 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.binary main_v158 main_v159 main_v160 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F)),
    StableHlo.reshape main_v160 main_v161 rfl shapeCasts_S4096x4x2x512_S4096x4096,
    StableHlo.reshape main_v161 main_v162 rfl shapeCasts_S4096x4096_S4096x2x2x1024,
    StableHlo.unary main_v162 main_v163 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F)),
    StableHlo.reshape main_v163 main_v164 rfl shapeCasts_S4096x2x1x1024_S4096x2x1024,
    StableHlo.unary main_v162 main_v165 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F)),
    StableHlo.reshape main_v165 main_v166 rfl shapeCasts_S4096x2x1x1024_S4096x2x1024,
    StableHlo.binary main_v164 main_v166 main_v167 (addf : (⟨S4096x2x1024, .f32⟩ : BufTy).Contents (Elt F) → (⟨S4096x2x1024, .f32⟩ : BufTy).Contents (Elt F) → (⟨S4096x2x1024, .f32⟩ : BufTy).Contents (Elt F)) ]

/-- Operations 193 … 204 of the host prefix. -/
abbrev w16 : List (HloOp τ sig (Elt F)) :=
  [ StableHlo.binary main_v164 main_v166 main_v168 (subf : (⟨S4096x2x1024, .f32⟩ : BufTy).Contents (Elt F) → (⟨S4096x2x1024, .f32⟩ : BufTy).Contents (Elt F) → (⟨S4096x2x1024, .f32⟩ : BufTy).Contents (Elt F)),
    StableHlo.unary main_v167 main_v169 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.unary main_v168 main_v170 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.binary main_v169 main_v170 main_v171 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F)),
    StableHlo.reshape main_v171 main_v172 rfl shapeCasts_S4096x2x2x1024_S4096x4096,
    StableHlo.reshape main_v172 main_v173 rfl shapeCasts_S4096x4096_S4096x1x2x2048,
    StableHlo.unary main_v173 main_v174 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F)),
    StableHlo.reshape main_v174 main_v175 rfl shapeCasts_S4096x1x1x2048_S4096x1x2048,
    StableHlo.unary main_v173 main_v176 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F)),
    StableHlo.reshape main_v176 main_v177 rfl shapeCasts_S4096x1x1x2048_S4096x1x2048,
    StableHlo.binary main_v175 main_v177 main_v178 (addf : (⟨S4096x1x2048, .f32⟩ : BufTy).Contents (Elt F) → (⟨S4096x1x2048, .f32⟩ : BufTy).Contents (Elt F) → (⟨S4096x1x2048, .f32⟩ : BufTy).Contents (Elt F)),
    StableHlo.binary main_v175 main_v177 main_v179 (subf : (⟨S4096x1x2048, .f32⟩ : BufTy).Contents (Elt F) → (⟨S4096x1x2048, .f32⟩ : BufTy).Contents (Elt F) → (⟨S4096x1x2048, .f32⟩ : BufTy).Contents (Elt F)) ]

/-- Operations 205 … 216 of the host prefix. -/
abbrev w17 : List (HloOp τ sig (Elt F)) :=
  [ StableHlo.unary main_v178 main_v180 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.unary main_v179 main_v181 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.binary main_v180 main_v181 main_v182 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F)),
    StableHlo.reshape main_v182 main_v183 rfl shapeCasts_S4096x1x2x2048_S4096x4096,
    StableHlo.nullary main_cst_11 (constant S_ .f32 0x3C800000#32),
    StableHlo.unary main_cst_11 main_v184 (broadcastInDim S4096x4096 ![] bcast_S_S4096x4096 : (⟨S_, .f32⟩ : BufTy).Contents (Elt F) → (⟨S4096x4096, .f32⟩ : BufTy).Contents (Elt F)),
    StableHlo.binary main_v183 main_v184 main_v185 (mulf : (⟨S4096x4096, .f32⟩ : BufTy).Contents (Elt F) → (⟨S4096x4096, .f32⟩ : BufTy).Contents (Elt F) → (⟨S4096x4096, .f32⟩ : BufTy).Contents (Elt F)),
    StableHlo.unary main_v185 main_v186 ((transpose S4096x4096 [1, 0] · transposes_S4096x4096_S4096x4096_1_0) : (⟨S4096x4096, .f32⟩ : BufTy).Contents (Elt F) → (⟨S4096x4096, .f32⟩ : BufTy).Contents (Elt F)),
    StableHlo.reshape main_v186 main_v187 rfl shapeCasts_S4096x4096_S4096x2048x2x1,
    StableHlo.unary main_v187 main_v188 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F)),
    StableHlo.reshape main_v188 main_v189 rfl shapeCasts_S4096x2048x1x1_S4096x2048x1,
    StableHlo.unary main_v187 main_v190 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F)) ]

/-- Operations 217 … 228 of the host prefix. -/
abbrev w18 : List (HloOp τ sig (Elt F)) :=
  [ StableHlo.reshape main_v190 main_v191 rfl shapeCasts_S4096x2048x1x1_S4096x2048x1,
    StableHlo.binary main_v189 main_v191 main_v192 (addf : (⟨S4096x2048x1, .f32⟩ : BufTy).Contents (Elt F) → (⟨S4096x2048x1, .f32⟩ : BufTy).Contents (Elt F) → (⟨S4096x2048x1, .f32⟩ : BufTy).Contents (Elt F)),
    StableHlo.binary main_v189 main_v191 main_v193 (subf : (⟨S4096x2048x1, .f32⟩ : BufTy).Contents (Elt F) → (⟨S4096x2048x1, .f32⟩ : BufTy).Contents (Elt F) → (⟨S4096x2048x1, .f32⟩ : BufTy).Contents (Elt F)),
    StableHlo.unary main_v192 main_v194 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.unary main_v193 main_v195 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F)),
    StableHlo.binary main_v194 main_v195 main_v196 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F)),
    StableHlo.reshape main_v196 main_v197 rfl shapeCasts_S4096x2048x2x1_S4096x4096,
    StableHlo.reshape main_v197 main_v198 rfl shapeCasts_S4096x4096_S4096x1024x2x2,
    StableHlo.unary main_v198 main_v199 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F)),
    StableHlo.reshape main_v199 main_v200 rfl shapeCasts_S4096x1024x1x2_S4096x1024x2,
    StableHlo.unary main_v198 main_v201 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F)),
    StableHlo.reshape main_v201 main_v202 rfl shapeCasts_S4096x1024x1x2_S4096x1024x2 ]

/-- Operations 229 … 240 of the host prefix. -/
abbrev w19 : List (HloOp τ sig (Elt F)) :=
  [ StableHlo.binary main_v200 main_v202 main_v203 (addf : (⟨S4096x1024x2, .f32⟩ : BufTy).Contents (Elt F) → (⟨S4096x1024x2, .f32⟩ : BufTy).Contents (Elt F) → (⟨S4096x1024x2, .f32⟩ : BufTy).Contents (Elt F)),
    StableHlo.binary main_v200 main_v202 main_v204 (subf : (⟨S4096x1024x2, .f32⟩ : BufTy).Contents (Elt F) → (⟨S4096x1024x2, .f32⟩ : BufTy).Contents (Elt F) → (⟨S4096x1024x2, .f32⟩ : BufTy).Contents (Elt F)),
    StableHlo.unary main_v203 main_v205 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.unary main_v204 main_v206 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F)),
    StableHlo.binary main_v205 main_v206 main_v207 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F)),
    StableHlo.reshape main_v207 main_v208 rfl shapeCasts_S4096x1024x2x2_S4096x4096,
    StableHlo.reshape main_v208 main_v209 rfl shapeCasts_S4096x4096_S4096x512x2x4,
    StableHlo.unary main_v209 main_v210 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F)),
    StableHlo.reshape main_v210 main_v211 rfl shapeCasts_S4096x512x1x4_S4096x512x4,
    StableHlo.unary main_v209 main_v212 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F)),
    StableHlo.reshape main_v212 main_v213 rfl shapeCasts_S4096x512x1x4_S4096x512x4,
    StableHlo.binary main_v211 main_v213 main_v214 (addf : (⟨S4096x512x4, .f32⟩ : BufTy).Contents (Elt F) → (⟨S4096x512x4, .f32⟩ : BufTy).Contents (Elt F) → (⟨S4096x512x4, .f32⟩ : BufTy).Contents (Elt F)) ]

/-- Operations 241 … 252 of the host prefix. -/
abbrev w20 : List (HloOp τ sig (Elt F)) :=
  [ StableHlo.binary main_v211 main_v213 main_v215 (subf : (⟨S4096x512x4, .f32⟩ : BufTy).Contents (Elt F) → (⟨S4096x512x4, .f32⟩ : BufTy).Contents (Elt F) → (⟨S4096x512x4, .f32⟩ : BufTy).Contents (Elt F)),
    StableHlo.unary main_v214 main_v216 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.unary main_v215 main_v217 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F)),
    StableHlo.binary main_v216 main_v217 main_v218 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F)),
    StableHlo.reshape main_v218 main_v219 rfl shapeCasts_S4096x512x2x4_S4096x4096,
    StableHlo.reshape main_v219 main_v220 rfl shapeCasts_S4096x4096_S4096x256x2x8,
    StableHlo.unary main_v220 main_v221 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F)),
    StableHlo.reshape main_v221 main_v222 rfl shapeCasts_S4096x256x1x8_S4096x256x8,
    StableHlo.unary main_v220 main_v223 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F)),
    StableHlo.reshape main_v223 main_v224 rfl shapeCasts_S4096x256x1x8_S4096x256x8,
    StableHlo.binary main_v222 main_v224 main_v225 (addf : (⟨S4096x256x8, .f32⟩ : BufTy).Contents (Elt F) → (⟨S4096x256x8, .f32⟩ : BufTy).Contents (Elt F) → (⟨S4096x256x8, .f32⟩ : BufTy).Contents (Elt F)),
    StableHlo.binary main_v222 main_v224 main_v226 (subf : (⟨S4096x256x8, .f32⟩ : BufTy).Contents (Elt F) → (⟨S4096x256x8, .f32⟩ : BufTy).Contents (Elt F) → (⟨S4096x256x8, .f32⟩ : BufTy).Contents (Elt F)) ]

/-- Operations 253 … 264 of the host prefix. -/
abbrev w21 : List (HloOp τ sig (Elt F)) :=
  [ StableHlo.unary main_v225 main_v227 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.unary main_v226 main_v228 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F)),
    StableHlo.binary main_v227 main_v228 main_v229 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F)),
    StableHlo.reshape main_v229 main_v230 rfl shapeCasts_S4096x256x2x8_S4096x4096,
    StableHlo.reshape main_v230 main_v231 rfl shapeCasts_S4096x4096_S4096x128x2x16,
    StableHlo.unary main_v231 main_v232 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F)),
    StableHlo.reshape main_v232 main_v233 rfl shapeCasts_S4096x128x1x16_S4096x128x16,
    StableHlo.unary main_v231 main_v234 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F)),
    StableHlo.reshape main_v234 main_v235 rfl shapeCasts_S4096x128x1x16_S4096x128x16,
    StableHlo.binary main_v233 main_v235 main_v236 (addf : (⟨S4096x128x16, .f32⟩ : BufTy).Contents (Elt F) → (⟨S4096x128x16, .f32⟩ : BufTy).Contents (Elt F) → (⟨S4096x128x16, .f32⟩ : BufTy).Contents (Elt F)),
    StableHlo.binary main_v233 main_v235 main_v237 (subf : (⟨S4096x128x16, .f32⟩ : BufTy).Contents (Elt F) → (⟨S4096x128x16, .f32⟩ : BufTy).Contents (Elt F) → (⟨S4096x128x16, .f32⟩ : BufTy).Contents (Elt F)),
    StableHlo.unary main_v236 main_v238 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)) ]

/-- Operations 265 … 276 of the host prefix. -/
abbrev w22 : List (HloOp τ sig (Elt F)) :=
  [ StableHlo.unary main_v237 main_v239 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F)),
    StableHlo.binary main_v238 main_v239 main_v240 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F)),
    StableHlo.reshape main_v240 main_v241 rfl shapeCasts_S4096x128x2x16_S4096x4096,
    StableHlo.reshape main_v241 main_v242 rfl shapeCasts_S4096x4096_S4096x64x2x32,
    StableHlo.unary main_v242 main_v243 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F)),
    StableHlo.reshape main_v243 main_v244 rfl shapeCasts_S4096x64x1x32_S4096x64x32,
    StableHlo.unary main_v242 main_v245 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F)),
    StableHlo.reshape main_v245 main_v246 rfl shapeCasts_S4096x64x1x32_S4096x64x32,
    StableHlo.binary main_v244 main_v246 main_v247 (addf : (⟨S4096x64x32, .f32⟩ : BufTy).Contents (Elt F) → (⟨S4096x64x32, .f32⟩ : BufTy).Contents (Elt F) → (⟨S4096x64x32, .f32⟩ : BufTy).Contents (Elt F)),
    StableHlo.binary main_v244 main_v246 main_v248 (subf : (⟨S4096x64x32, .f32⟩ : BufTy).Contents (Elt F) → (⟨S4096x64x32, .f32⟩ : BufTy).Contents (Elt F) → (⟨S4096x64x32, .f32⟩ : BufTy).Contents (Elt F)),
    StableHlo.unary main_v247 main_v249 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)),
    StableHlo.unary main_v248 main_v250 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F)) ]

/-- Operations 277 … 288 of the host prefix. -/
abbrev w23 : List (HloOp τ sig (Elt F)) :=
  [ StableHlo.binary main_v249 main_v250 main_v251 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F)),
    StableHlo.reshape main_v251 main_v252 rfl shapeCasts_S4096x64x2x32_S4096x4096,
    StableHlo.reshape main_v252 main_v253 rfl shapeCasts_S4096x4096_S4096x32x2x64,
    StableHlo.unary main_v253 main_v254 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F)),
    StableHlo.reshape main_v254 main_v255 rfl shapeCasts_S4096x32x1x64_S4096x32x64,
    StableHlo.unary main_v253 main_v256 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F)),
    StableHlo.reshape main_v256 main_v257 rfl shapeCasts_S4096x32x1x64_S4096x32x64,
    StableHlo.binary main_v255 main_v257 main_v258 (addf : (⟨S4096x32x64, .f32⟩ : BufTy).Contents (Elt F) → (⟨S4096x32x64, .f32⟩ : BufTy).Contents (Elt F) → (⟨S4096x32x64, .f32⟩ : BufTy).Contents (Elt F)),
    StableHlo.binary main_v255 main_v257 main_v259 (subf : (⟨S4096x32x64, .f32⟩ : BufTy).Contents (Elt F) → (⟨S4096x32x64, .f32⟩ : BufTy).Contents (Elt F) → (⟨S4096x32x64, .f32⟩ : BufTy).Contents (Elt F)),
    StableHlo.unary main_v258 main_v260 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.unary main_v259 main_v261 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F)),
    StableHlo.binary main_v260 main_v261 main_v262 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F)) ]

/-- Operations 289 … 300 of the host prefix. -/
abbrev w24 : List (HloOp τ sig (Elt F)) :=
  [ StableHlo.reshape main_v262 main_v263 rfl shapeCasts_S4096x32x2x64_S4096x4096,
    StableHlo.reshape main_v263 main_v264 rfl shapeCasts_S4096x4096_S4096x16x2x128,
    StableHlo.unary main_v264 main_v265 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F)),
    StableHlo.reshape main_v265 main_v266 rfl shapeCasts_S4096x16x1x128_S4096x16x128,
    StableHlo.unary main_v264 main_v267 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F)),
    StableHlo.reshape main_v267 main_v268 rfl shapeCasts_S4096x16x1x128_S4096x16x128,
    StableHlo.binary main_v266 main_v268 main_v269 (addf : (⟨S4096x16x128, .f32⟩ : BufTy).Contents (Elt F) → (⟨S4096x16x128, .f32⟩ : BufTy).Contents (Elt F) → (⟨S4096x16x128, .f32⟩ : BufTy).Contents (Elt F)),
    StableHlo.binary main_v266 main_v268 main_v270 (subf : (⟨S4096x16x128, .f32⟩ : BufTy).Contents (Elt F) → (⟨S4096x16x128, .f32⟩ : BufTy).Contents (Elt F) → (⟨S4096x16x128, .f32⟩ : BufTy).Contents (Elt F)),
    StableHlo.unary main_v269 main_v271 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.unary main_v270 main_v272 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F)),
    StableHlo.binary main_v271 main_v272 main_v273 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F)),
    StableHlo.reshape main_v273 main_v274 rfl shapeCasts_S4096x16x2x128_S4096x4096 ]

/-- Operations 301 … 312 of the host prefix. -/
abbrev w25 : List (HloOp τ sig (Elt F)) :=
  [ StableHlo.reshape main_v274 main_v275 rfl shapeCasts_S4096x4096_S4096x8x2x256,
    StableHlo.unary main_v275 main_v276 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F)),
    StableHlo.reshape main_v276 main_v277 rfl shapeCasts_S4096x8x1x256_S4096x8x256,
    StableHlo.unary main_v275 main_v278 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F)),
    StableHlo.reshape main_v278 main_v279 rfl shapeCasts_S4096x8x1x256_S4096x8x256,
    StableHlo.binary main_v277 main_v279 main_v280 (addf : (⟨S4096x8x256, .f32⟩ : BufTy).Contents (Elt F) → (⟨S4096x8x256, .f32⟩ : BufTy).Contents (Elt F) → (⟨S4096x8x256, .f32⟩ : BufTy).Contents (Elt F)),
    StableHlo.binary main_v277 main_v279 main_v281 (subf : (⟨S4096x8x256, .f32⟩ : BufTy).Contents (Elt F) → (⟨S4096x8x256, .f32⟩ : BufTy).Contents (Elt F) → (⟨S4096x8x256, .f32⟩ : BufTy).Contents (Elt F)),
    StableHlo.unary main_v280 main_v282 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.unary main_v281 main_v283 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F)),
    StableHlo.binary main_v282 main_v283 main_v284 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F)),
    StableHlo.reshape main_v284 main_v285 rfl shapeCasts_S4096x8x2x256_S4096x4096,
    StableHlo.reshape main_v285 main_v286 rfl shapeCasts_S4096x4096_S4096x4x2x512 ]

/-- Operations 313 … 324 of the host prefix. -/
abbrev w26 : List (HloOp τ sig (Elt F)) :=
  [ StableHlo.unary main_v286 main_v287 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F)),
    StableHlo.reshape main_v287 main_v288 rfl shapeCasts_S4096x4x1x512_S4096x4x512,
    StableHlo.unary main_v286 main_v289 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F)),
    StableHlo.reshape main_v289 main_v290 rfl shapeCasts_S4096x4x1x512_S4096x4x512,
    StableHlo.binary main_v288 main_v290 main_v291 (addf : (⟨S4096x4x512, .f32⟩ : BufTy).Contents (Elt F) → (⟨S4096x4x512, .f32⟩ : BufTy).Contents (Elt F) → (⟨S4096x4x512, .f32⟩ : BufTy).Contents (Elt F)),
    StableHlo.binary main_v288 main_v290 main_v292 (subf : (⟨S4096x4x512, .f32⟩ : BufTy).Contents (Elt F) → (⟨S4096x4x512, .f32⟩ : BufTy).Contents (Elt F) → (⟨S4096x4x512, .f32⟩ : BufTy).Contents (Elt F)),
    StableHlo.unary main_v291 main_v293 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.unary main_v292 main_v294 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F)),
    StableHlo.binary main_v293 main_v294 main_v295 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F)),
    StableHlo.reshape main_v295 main_v296 rfl shapeCasts_S4096x4x2x512_S4096x4096,
    StableHlo.reshape main_v296 main_v297 rfl shapeCasts_S4096x4096_S4096x2x2x1024,
    StableHlo.unary main_v297 main_v298 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F)) ]

/-- Operations 325 … 336 of the host prefix. -/
abbrev w27 : List (HloOp τ sig (Elt F)) :=
  [ StableHlo.reshape main_v298 main_v299 rfl shapeCasts_S4096x2x1x1024_S4096x2x1024,
    StableHlo.unary main_v297 main_v300 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F)),
    StableHlo.reshape main_v300 main_v301 rfl shapeCasts_S4096x2x1x1024_S4096x2x1024,
    StableHlo.binary main_v299 main_v301 main_v302 (addf : (⟨S4096x2x1024, .f32⟩ : BufTy).Contents (Elt F) → (⟨S4096x2x1024, .f32⟩ : BufTy).Contents (Elt F) → (⟨S4096x2x1024, .f32⟩ : BufTy).Contents (Elt F)),
    StableHlo.binary main_v299 main_v301 main_v303 (subf : (⟨S4096x2x1024, .f32⟩ : BufTy).Contents (Elt F) → (⟨S4096x2x1024, .f32⟩ : BufTy).Contents (Elt F) → (⟨S4096x2x1024, .f32⟩ : BufTy).Contents (Elt F)),
    StableHlo.unary main_v302 main_v304 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.unary main_v303 main_v305 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F)),
    StableHlo.binary main_v304 main_v305 main_v306 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F)),
    StableHlo.reshape main_v306 main_v307 rfl shapeCasts_S4096x2x2x1024_S4096x4096,
    StableHlo.reshape main_v307 main_v308 rfl shapeCasts_S4096x4096_S4096x1x2x2048,
    StableHlo.unary main_v308 main_v309 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F)),
    StableHlo.reshape main_v309 main_v310 rfl shapeCasts_S4096x1x1x2048_S4096x1x2048 ]

/-- Operations 337 … 348 of the host prefix. -/
abbrev w28 : List (HloOp τ sig (Elt F)) :=
  [ StableHlo.unary main_v308 main_v311 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F)),
    StableHlo.reshape main_v311 main_v312 rfl shapeCasts_S4096x1x1x2048_S4096x1x2048,
    StableHlo.binary main_v310 main_v312 main_v313 (addf : (⟨S4096x1x2048, .f32⟩ : BufTy).Contents (Elt F) → (⟨S4096x1x2048, .f32⟩ : BufTy).Contents (Elt F) → (⟨S4096x1x2048, .f32⟩ : BufTy).Contents (Elt F)),
    StableHlo.binary main_v310 main_v312 main_v314 (subf : (⟨S4096x1x2048, .f32⟩ : BufTy).Contents (Elt F) → (⟨S4096x1x2048, .f32⟩ : BufTy).Contents (Elt F) → (⟨S4096x1x2048, .f32⟩ : BufTy).Contents (Elt F)),
    StableHlo.unary main_v313 main_v315 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.unary main_v314 main_v316 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F)),
    StableHlo.binary main_v315 main_v316 main_v317 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F)),
    StableHlo.reshape main_v317 main_v318 rfl shapeCasts_S4096x1x2x2048_S4096x4096,
    StableHlo.nullary main_cst_12 (constant S_ .f32 0x3C800000#32),
    StableHlo.unary main_cst_12 main_v319 (broadcastInDim S4096x4096 ![] bcast_S_S4096x4096 : (⟨S_, .f32⟩ : BufTy).Contents (Elt F) → (⟨S4096x4096, .f32⟩ : BufTy).Contents (Elt F)),
    StableHlo.binary main_v318 main_v319 main_v320 (mulf : (⟨S4096x4096, .f32⟩ : BufTy).Contents (Elt F) → (⟨S4096x4096, .f32⟩ : BufTy).Contents (Elt F) → (⟨S4096x4096, .f32⟩ : BufTy).Contents (Elt F)),
    StableHlo.unary main_v320 main_v321 ((transpose S4096x4096 [1, 0] · transposes_S4096x4096_S4096x4096_1_0) : (⟨S4096x4096, .f32⟩ : BufTy).Contents (Elt F) → (⟨S4096x4096, .f32⟩ : BufTy).Contents (Elt F)) ]

/-- Operations 349 … 358 of the host prefix. -/
abbrev w29 : List (HloOp τ sig (Elt F)) :=
  [ StableHlo.unary main_arg3 main_v322 (broadcastInDim S4096x1 ![0] bcast_S4096_S4096x1_0 : (⟨S4096, .f32⟩ : BufTy).Contents (Elt F) → (⟨S4096x1, .f32⟩ : BufTy).Contents (Elt F)),
    StableHlo.unary main_v322 main_v323 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v323 main_v321 main_v324 (mulf : (⟨S4096x4096, .f32⟩ : BufTy).Contents (Elt F) → (⟨S4096x4096, .f32⟩ : BufTy).Contents (Elt F) → (⟨S4096x4096, .f32⟩ : BufTy).Contents (Elt F)),
    StableHlo.unary main_arg2 main_v325 (broadcastInDim S1x4096 ![1] bcast_S4096_S1x4096_1 : (⟨S4096, .f32⟩ : BufTy).Contents (Elt F) → (⟨S1x4096, .f32⟩ : BufTy).Contents (Elt F)),
    StableHlo.unary main_v325 main_v326 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v324 main_v326 main_v327 (mulf : (⟨S4096x4096, .f32⟩ : BufTy).Contents (Elt F) → (⟨S4096x4096, .f32⟩ : BufTy).Contents (Elt F) → (⟨S4096x4096, .f32⟩ : BufTy).Contents (Elt F)),
    StableHlo.reshape main_v327 main_v328 rfl shapeCasts_S4096x4096_S65536x256,
    StableHlo.unary main_arg1 main_v329 (broadcastInDim S65536x256 ![0, 1] bcast_S65536x1_S65536x256_0_1 : (⟨S65536x1, .f32⟩ : BufTy).Contents (Elt F) → (⟨S65536x256, .f32⟩ : BufTy).Contents (Elt F)),
    StableHlo.binary main_v328 main_v329 main_v330 (mulf : (⟨S65536x256, .f32⟩ : BufTy).Contents (Elt F) → (⟨S65536x256, .f32⟩ : BufTy).Contents (Elt F) → (⟨S65536x256, .f32⟩ : BufTy).Contents (Elt F)),
    StableHlo.reshape main_v330 main_v331 rfl shapeCasts_S65536x256_S4096x4096 ]

/-- The host prefix: every operation up to the one that writes the scaled weight matrix. -/
abbrev pre : List (HloOp τ sig (Elt F)) :=
  w0 ++ w1 ++ w2 ++ w3 ++ w4 ++ w5 ++ w6 ++ w7 ++ w8 ++ w9 ++ w10 ++ w11 ++ w12 ++ w13 ++ w14 ++ w15 ++ w16 ++ w17 ++ w18 ++ w19 ++ w20 ++ w21 ++ w22 ++ w23 ++ w24 ++ w25 ++ w26 ++ w27 ++ w28 ++ w29

/-- What follows the prefix in this program's host operations before the result is returned or the kernel is launched. -/
abbrev post : List (HloOp τ sig (Elt F)) :=
  [ StableHlo.binary main_v22 main_v331 main_v332 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)) ]

end Cert.ReferenceIdeal.Pfx

end
-- ==== Proof.RefRun.lean ====
import proofs.«404041_j68642167324808_1_alg».proof.Proof.PfxR
import Idealize.ShloMosaic.Lib.Pipeline.Regions
import Idealize.ShloMosaic.Lib.Pipeline.Frame
import Idealize.ShloMosaic.Lib.ValueIdx
import Idealize.ShloMosaic.PureOps.Ideal.Laws
import Mathlib.Data.List.Basic

set_option maxRecDepth 16384

/-! # The reference program's run

@main of the reference is one straight line: the 358 operations of the prefix (the quantised activations, the decoded
and transformed weight), then the contraction of the two. Every weakly fair execution terminates with the result
buffer at the contraction of the two prefix values and the six arguments as launched. -/

noncomputable section

open Idealize.ShloMosaic Idealize.ShloMosaic.TcCoe Idealize.SL.Sem Idealize.ShloMosaic.StableHlo
open Idealize.ShloMosaic.ValueIdx

namespace Cert.ReferenceIdeal.RefRun

open Cert.ReferenceIdeal Cert.ReferenceIdeal.Gen

variable {F : FTy → Type} [FloatOps F]

/-- @main is the straight line of the prefix's operations, then the contraction. -/
theorem main_eq (c : Dev nD) : main (F := F) c = seq (Pfx.pre ++ Pfx.post) := by chain_rfl

/-- The signature scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-! ## What the operations touch

Window by window (twelve operations each): every operation touches TensorCore references only, allocates nothing,
and writes one buffer, which is none of the six arguments. -/

/-- The program's arguments. -/
abbrev args : List (Ref sig .tc) := [main_arg0, main_arg1, main_arg2, main_arg3, main_arg4, main_arg5]

/-- The operation writes no argument. -/
abbrev Keeps (op : HloOp τ sig (Elt F)) : Prop := ∀ r ∈ args, Proc.devRef (τ := τ) .tc r ∉ op.writes

/-- An operation whose one written buffer is no argument writes no argument. -/
theorem keeps_of {op : HloOp τ sig (Elt F)} {y : Ref sig .tc} (hw : op.writes = {Proc.devRef .tc y}) (hy : y ∉ args) :
    Keeps op := fun r hr h => by
  rw [hw, Finset.mem_singleton] at h
  exact hy (Proc.devRef_injective _ h ▸ hr)

/-- The three facts about one operation. -/
abbrev Good (op : HloOp τ sig (Elt F)) : Prop := op.bufs ⊆ tcRefs τ sig ∧ op.fresh = ∅ ∧ Keeps op

theorem w0_sub : (Pfx.w0 : List (HloOp τ sig (Elt F))).Forall fun op => op.bufs ⊆ tcRefs τ sig :=
  ⟨nullary_bufs_sub .., nullary_bufs_sub .., binary_bufs_sub .., nullary_bufs_sub .., binary_bufs_sub .., binary_bufs_sub .., nullary_bufs_sub .., unary_bufs_sub .., binary_bufs_sub .., nullary_bufs_sub .., unary_bufs_sub .., binary_bufs_sub ..⟩
theorem w0_fresh : (Pfx.w0 : List (HloOp τ sig (Elt F))).Forall fun op => op.fresh = ∅ :=
  ⟨rfl, rfl, rfl, rfl, rfl, rfl, rfl, rfl, rfl, rfl, rfl, rfl⟩
theorem w0_keeps : (Pfx.w0 : List (HloOp τ sig (Elt F))).Forall Keeps :=
  ⟨keeps_of (nullary_writes ..) (by decide), keeps_of (nullary_writes ..) (by decide), keeps_of (binary_writes ..) (by decide), keeps_of (nullary_writes ..) (by decide), keeps_of (binary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide)⟩
theorem w0_good (op : HloOp τ sig (Elt F)) (h : op ∈ (Pfx.w0 : List (HloOp τ sig (Elt F)))) : Good op :=
  ⟨List.forall_iff_forall_mem.mp w0_sub op h, List.forall_iff_forall_mem.mp w0_fresh op h, List.forall_iff_forall_mem.mp w0_keeps op h⟩

theorem w1_sub : (Pfx.w1 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub ..⟩
theorem w1_fresh : (Pfx.w1 : List (HloOp τ sig (Elt F))).Forall fun op => op.fresh = ∅ :=
  ⟨rfl, rfl, rfl, rfl, rfl, rfl, rfl, rfl, rfl, rfl, rfl, rfl⟩
theorem w1_keeps : (Pfx.w1 : List (HloOp τ sig (Elt F))).Forall Keeps :=
  ⟨keeps_of (unary_writes ..) (by decide), keeps_of (unary_writes ..) (by decide), keeps_of (binary_writes ..) (by decide), keeps_of (unary_writes ..) (by decide), keeps_of (unary_writes ..) (by decide), keeps_of (binary_writes ..) (by decide), keeps_of (unary_writes ..) (by decide), keeps_of (nullary_writes ..) (by decide), keeps_of (nullary_writes ..) (by decide), keeps_of (unary_writes ..) (by decide), keeps_of (unary_writes ..) (by decide), keeps_of (binary_writes ..) (by decide)⟩
theorem w1_good (op : HloOp τ sig (Elt F)) (h : op ∈ (Pfx.w1 : List (HloOp τ sig (Elt F)))) : Good op :=
  ⟨List.forall_iff_forall_mem.mp w1_sub op h, List.forall_iff_forall_mem.mp w1_fresh op h, List.forall_iff_forall_mem.mp w1_keeps op h⟩

theorem w2_sub : (Pfx.w2 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub ..⟩
theorem w2_fresh : (Pfx.w2 : List (HloOp τ sig (Elt F))).Forall fun op => op.fresh = ∅ :=
  ⟨rfl, rfl, rfl, rfl, rfl, rfl, rfl, rfl, rfl, rfl, rfl, rfl⟩
theorem w2_keeps : (Pfx.w2 : List (HloOp τ sig (Elt F))).Forall Keeps :=
  ⟨keeps_of (unary_writes ..) (by decide), keeps_of (unary_writes ..) (by decide), keeps_of (binary_writes ..) (by decide), keeps_of (unary_writes ..) (by decide), keeps_of (unary_writes ..) (by decide), keeps_of (binary_writes ..) (by decide), keeps_of (unary_writes ..) (by decide), keeps_of (unary_writes ..) (by decide), keeps_of (binary_writes ..) (by decide), keeps_of (binary_writes ..) (by decide), keeps_of (binary_writes ..) (by decide), keeps_of (unary_writes ..) (by decide)⟩
theorem w2_good (op : HloOp τ sig (Elt F)) (h : op ∈ (Pfx.w2 : List (HloOp τ sig (Elt F)))) : Good op :=
  ⟨List.forall_iff_forall_mem.mp w2_sub op h, List.forall_iff_forall_mem.mp w2_fresh op h, List.forall_iff_forall_mem.mp w2_keeps op h⟩

theorem w3_sub : (Pfx.w3 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., reshape_bufs_sub .., nullary_bufs_sub .., unary_bufs_sub .., binary_bufs_sub .., unary_bufs_sub ..⟩
theorem w3_fresh : (Pfx.w3 : List (HloOp τ sig (Elt F))).Forall fun op => op.fresh = ∅ :=
  ⟨rfl, rfl, rfl, rfl, rfl, rfl, rfl, rfl, rfl, rfl, rfl, rfl⟩
theorem w3_keeps : (Pfx.w3 : List (HloOp τ sig (Elt F))).Forall Keeps :=
  ⟨keeps_of (unary_writes ..) (by decide), keeps_of (unary_writes ..) (by decide), keeps_of (unary_writes ..) (by decide), keeps_of (binary_writes ..) (by decide), keeps_of (nullary_writes ..) (by decide), keeps_of (unary_writes ..) (by decide), keeps_of (binary_writes ..) (by decide), keeps_of (reshape_writes ..) (by decide), keeps_of (nullary_writes ..) (by decide), keeps_of (unary_writes ..) (by decide), keeps_of (binary_writes ..) (by decide), keeps_of (unary_writes ..) (by decide)⟩
theorem w3_good (op : HloOp τ sig (Elt F)) (h : op ∈ (Pfx.w3 : List (HloOp τ sig (Elt F)))) : Good op :=
  ⟨List.forall_iff_forall_mem.mp w3_sub op h, List.forall_iff_forall_mem.mp w3_fresh op h, List.forall_iff_forall_mem.mp w3_keeps op h⟩

theorem w4_sub : (Pfx.w4 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem w4_fresh : (Pfx.w4 : List (HloOp τ sig (Elt F))).Forall fun op => op.fresh = ∅ :=
  ⟨rfl, rfl, rfl, rfl, rfl, rfl, rfl, rfl, rfl, rfl, rfl, rfl⟩
theorem w4_keeps : (Pfx.w4 : List (HloOp τ sig (Elt F))).Forall Keeps :=
  ⟨keeps_of (unary_writes ..) (by decide), keeps_of (binary_writes ..) (by decide), keeps_of (nullary_writes ..) (by decide), keeps_of (unary_writes ..) (by decide), keeps_of (binary_writes ..) (by decide), keeps_of (binary_writes ..) (by decide), keeps_of (unary_writes ..) (by decide), keeps_of (unary_writes ..) (by decide), keeps_of (binary_writes ..) (by decide), keeps_of (nullary_writes ..) (by decide), keeps_of (unary_writes ..) (by decide), keeps_of (binary_writes ..) (by decide)⟩
theorem w4_good (op : HloOp τ sig (Elt F)) (h : op ∈ (Pfx.w4 : List (HloOp τ sig (Elt F)))) : Good op :=
  ⟨List.forall_iff_forall_mem.mp w4_sub op h, List.forall_iff_forall_mem.mp w4_fresh op h, List.forall_iff_forall_mem.mp w4_keeps op h⟩

theorem w5_sub : (Pfx.w5 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
theorem w5_fresh : (Pfx.w5 : List (HloOp τ sig (Elt F))).Forall fun op => op.fresh = ∅ :=
  ⟨rfl, rfl, rfl, rfl, rfl, rfl, rfl, rfl, rfl, rfl, rfl, rfl⟩
theorem w5_keeps : (Pfx.w5 : List (HloOp τ sig (Elt F))).Forall Keeps :=
  ⟨keeps_of (binary_writes ..) (by decide), keeps_of (unary_writes ..) (by decide), keeps_of (unary_writes ..) (by decide), keeps_of (binary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide)⟩
theorem w5_good (op : HloOp τ sig (Elt F)) (h : op ∈ (Pfx.w5 : List (HloOp τ sig (Elt F)))) : Good op :=
  ⟨List.forall_iff_forall_mem.mp w5_sub op h, List.forall_iff_forall_mem.mp w5_fresh op h, List.forall_iff_forall_mem.mp w5_keeps op h⟩

theorem w6_sub : (Pfx.w6 : List (HloOp τ sig (Elt F))).Forall fun op => op.bufs ⊆ tcRefs τ sig :=
  ⟨unary_bufs_sub .., binary_bufs_sub .., reshape_bufs_sub .., reshape_bufs_sub .., reshape_bufs_sub .., unary_bufs_sub .., reshape_bufs_sub .., unary_bufs_sub .., reshape_bufs_sub .., binary_bufs_sub .., binary_bufs_sub .., unary_bufs_sub ..⟩
theorem w6_fresh : (Pfx.w6 : List (HloOp τ sig (Elt F))).Forall fun op => op.fresh = ∅ :=
  ⟨rfl, rfl, rfl, rfl, rfl, rfl, rfl, rfl, rfl, rfl, rfl, rfl⟩
theorem w6_keeps : (Pfx.w6 : List (HloOp τ sig (Elt F))).Forall Keeps :=
  ⟨keeps_of (unary_writes ..) (by decide), keeps_of (binary_writes ..) (by decide), keeps_of (reshape_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide)⟩
theorem w6_good (op : HloOp τ sig (Elt F)) (h : op ∈ (Pfx.w6 : List (HloOp τ sig (Elt F)))) : Good op :=
  ⟨List.forall_iff_forall_mem.mp w6_sub op h, List.forall_iff_forall_mem.mp w6_fresh op h, List.forall_iff_forall_mem.mp w6_keeps op h⟩

theorem w7_sub : (Pfx.w7 : List (HloOp τ sig (Elt F))).Forall fun op => op.bufs ⊆ tcRefs τ sig :=
  ⟨unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub ..⟩
theorem w7_fresh : (Pfx.w7 : List (HloOp τ sig (Elt F))).Forall fun op => op.fresh = ∅ :=
  ⟨rfl, rfl, rfl, rfl, rfl, rfl, rfl, rfl, rfl, rfl, rfl, rfl⟩
theorem w7_keeps : (Pfx.w7 : List (HloOp τ sig (Elt F))).Forall Keeps :=
  ⟨keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide)⟩
theorem w7_good (op : HloOp τ sig (Elt F)) (h : op ∈ (Pfx.w7 : List (HloOp τ sig (Elt F)))) : Good op :=
  ⟨List.forall_iff_forall_mem.mp w7_sub op h, List.forall_iff_forall_mem.mp w7_fresh op h, List.forall_iff_forall_mem.mp w7_keeps op h⟩

theorem w8_sub : (Pfx.w8 : List (HloOp τ sig (Elt F))).Forall fun op => op.bufs ⊆ tcRefs τ sig :=
  ⟨binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub ..⟩
theorem w8_fresh : (Pfx.w8 : List (HloOp τ sig (Elt F))).Forall fun op => op.fresh = ∅ :=
  ⟨rfl, rfl, rfl, rfl, rfl, rfl, rfl, rfl, rfl, rfl, rfl, rfl⟩
theorem w8_keeps : (Pfx.w8 : List (HloOp τ sig (Elt F))).Forall Keeps :=
  ⟨keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide)⟩
theorem w8_good (op : HloOp τ sig (Elt F)) (h : op ∈ (Pfx.w8 : List (HloOp τ sig (Elt F)))) : Good op :=
  ⟨List.forall_iff_forall_mem.mp w8_sub op h, List.forall_iff_forall_mem.mp w8_fresh op h, List.forall_iff_forall_mem.mp w8_keeps op h⟩

theorem w9_sub : (Pfx.w9 : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem w9_fresh : (Pfx.w9 : List (HloOp τ sig (Elt F))).Forall fun op => op.fresh = ∅ :=
  ⟨rfl, rfl, rfl, rfl, rfl, rfl, rfl, rfl, rfl, rfl, rfl, rfl⟩
theorem w9_keeps : (Pfx.w9 : List (HloOp τ sig (Elt F))).Forall Keeps :=
  ⟨keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide)⟩
theorem w9_good (op : HloOp τ sig (Elt F)) (h : op ∈ (Pfx.w9 : List (HloOp τ sig (Elt F)))) : Good op :=
  ⟨List.forall_iff_forall_mem.mp w9_sub op h, List.forall_iff_forall_mem.mp w9_fresh op h, List.forall_iff_forall_mem.mp w9_keeps op h⟩

theorem w10_sub : (Pfx.w10 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub ..⟩
theorem w10_fresh : (Pfx.w10 : List (HloOp τ sig (Elt F))).Forall fun op => op.fresh = ∅ :=
  ⟨rfl, rfl, rfl, rfl, rfl, rfl, rfl, rfl, rfl, rfl, rfl, rfl⟩
theorem w10_keeps : (Pfx.w10 : List (HloOp τ sig (Elt F))).Forall Keeps :=
  ⟨keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide)⟩
theorem w10_good (op : HloOp τ sig (Elt F)) (h : op ∈ (Pfx.w10 : List (HloOp τ sig (Elt F)))) : Good op :=
  ⟨List.forall_iff_forall_mem.mp w10_sub op h, List.forall_iff_forall_mem.mp w10_fresh op h, List.forall_iff_forall_mem.mp w10_keeps op h⟩

theorem w11_sub : (Pfx.w11 : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub ..⟩
theorem w11_fresh : (Pfx.w11 : List (HloOp τ sig (Elt F))).Forall fun op => op.fresh = ∅ :=
  ⟨rfl, rfl, rfl, rfl, rfl, rfl, rfl, rfl, rfl, rfl, rfl, rfl⟩
theorem w11_keeps : (Pfx.w11 : List (HloOp τ sig (Elt F))).Forall Keeps :=
  ⟨keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide)⟩
theorem w11_good (op : HloOp τ sig (Elt F)) (h : op ∈ (Pfx.w11 : List (HloOp τ sig (Elt F)))) : Good op :=
  ⟨List.forall_iff_forall_mem.mp w11_sub op h, List.forall_iff_forall_mem.mp w11_fresh op h, List.forall_iff_forall_mem.mp w11_keeps op h⟩

theorem w12_sub : (Pfx.w12 : List (HloOp τ sig (Elt F))).Forall fun op => op.bufs ⊆ tcRefs τ sig :=
  ⟨reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub ..⟩
theorem w12_fresh : (Pfx.w12 : List (HloOp τ sig (Elt F))).Forall fun op => op.fresh = ∅ :=
  ⟨rfl, rfl, rfl, rfl, rfl, rfl, rfl, rfl, rfl, rfl, rfl, rfl⟩
theorem w12_keeps : (Pfx.w12 : List (HloOp τ sig (Elt F))).Forall Keeps :=
  ⟨keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide)⟩
theorem w12_good (op : HloOp τ sig (Elt F)) (h : op ∈ (Pfx.w12 : List (HloOp τ sig (Elt F)))) : Good op :=
  ⟨List.forall_iff_forall_mem.mp w12_sub op h, List.forall_iff_forall_mem.mp w12_fresh op h, List.forall_iff_forall_mem.mp w12_keeps op h⟩

theorem w13_sub : (Pfx.w13 : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub ..⟩
theorem w13_fresh : (Pfx.w13 : List (HloOp τ sig (Elt F))).Forall fun op => op.fresh = ∅ :=
  ⟨rfl, rfl, rfl, rfl, rfl, rfl, rfl, rfl, rfl, rfl, rfl, rfl⟩
theorem w13_keeps : (Pfx.w13 : List (HloOp τ sig (Elt F))).Forall Keeps :=
  ⟨keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide)⟩
theorem w13_good (op : HloOp τ sig (Elt F)) (h : op ∈ (Pfx.w13 : List (HloOp τ sig (Elt F)))) : Good op :=
  ⟨List.forall_iff_forall_mem.mp w13_sub op h, List.forall_iff_forall_mem.mp w13_fresh op h, List.forall_iff_forall_mem.mp w13_keeps op h⟩

theorem w14_sub : (Pfx.w14 : List (HloOp τ sig (Elt F))).Forall fun op => op.bufs ⊆ tcRefs τ sig :=
  ⟨reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub ..⟩
theorem w14_fresh : (Pfx.w14 : List (HloOp τ sig (Elt F))).Forall fun op => op.fresh = ∅ :=
  ⟨rfl, rfl, rfl, rfl, rfl, rfl, rfl, rfl, rfl, rfl, rfl, rfl⟩
theorem w14_keeps : (Pfx.w14 : List (HloOp τ sig (Elt F))).Forall Keeps :=
  ⟨keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide)⟩
theorem w14_good (op : HloOp τ sig (Elt F)) (h : op ∈ (Pfx.w14 : List (HloOp τ sig (Elt F)))) : Good op :=
  ⟨List.forall_iff_forall_mem.mp w14_sub op h, List.forall_iff_forall_mem.mp w14_fresh op h, List.forall_iff_forall_mem.mp w14_keeps op h⟩

theorem w15_sub : (Pfx.w15 : List (HloOp τ sig (Elt F))).Forall fun op => op.bufs ⊆ tcRefs τ sig :=
  ⟨binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub ..⟩
theorem w15_fresh : (Pfx.w15 : List (HloOp τ sig (Elt F))).Forall fun op => op.fresh = ∅ :=
  ⟨rfl, rfl, rfl, rfl, rfl, rfl, rfl, rfl, rfl, rfl, rfl, rfl⟩
theorem w15_keeps : (Pfx.w15 : List (HloOp τ sig (Elt F))).Forall Keeps :=
  ⟨keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide)⟩
theorem w15_good (op : HloOp τ sig (Elt F)) (h : op ∈ (Pfx.w15 : List (HloOp τ sig (Elt F)))) : Good op :=
  ⟨List.forall_iff_forall_mem.mp w15_sub op h, List.forall_iff_forall_mem.mp w15_fresh op h, List.forall_iff_forall_mem.mp w15_keeps op h⟩

theorem w16_sub : (Pfx.w16 : List (HloOp τ sig (Elt F))).Forall fun op => op.bufs ⊆ tcRefs τ sig :=
  ⟨binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub ..⟩
theorem w16_fresh : (Pfx.w16 : List (HloOp τ sig (Elt F))).Forall fun op => op.fresh = ∅ :=
  ⟨rfl, rfl, rfl, rfl, rfl, rfl, rfl, rfl, rfl, rfl, rfl, rfl⟩
theorem w16_keeps : (Pfx.w16 : List (HloOp τ sig (Elt F))).Forall Keeps :=
  ⟨keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide)⟩
theorem w16_good (op : HloOp τ sig (Elt F)) (h : op ∈ (Pfx.w16 : List (HloOp τ sig (Elt F)))) : Good op :=
  ⟨List.forall_iff_forall_mem.mp w16_sub op h, List.forall_iff_forall_mem.mp w16_fresh op h, List.forall_iff_forall_mem.mp w16_keeps op h⟩

theorem w17_sub : (Pfx.w17 : List (HloOp τ sig (Elt F))).Forall fun op => op.bufs ⊆ tcRefs τ sig :=
  ⟨unary_bufs_sub .., unary_bufs_sub .., binary_bufs_sub .., reshape_bufs_sub .., nullary_bufs_sub .., unary_bufs_sub .., binary_bufs_sub .., unary_bufs_sub .., reshape_bufs_sub .., unary_bufs_sub .., reshape_bufs_sub .., unary_bufs_sub ..⟩
theorem w17_fresh : (Pfx.w17 : List (HloOp τ sig (Elt F))).Forall fun op => op.fresh = ∅ :=
  ⟨rfl, rfl, rfl, rfl, rfl, rfl, rfl, rfl, rfl, rfl, rfl, rfl⟩
theorem w17_keeps : (Pfx.w17 : List (HloOp τ sig (Elt F))).Forall Keeps :=
  ⟨keeps_of (unary_writes ..) (by decide), keeps_of (unary_writes ..) (by decide), keeps_of (binary_writes ..) (by decide), keeps_of (reshape_writes ..) (by decide), keeps_of (nullary_writes ..) (by decide), keeps_of (unary_writes ..) (by decide), keeps_of (binary_writes ..) (by decide), keeps_of (unary_writes ..) (by decide), keeps_of (reshape_writes ..) (by decide), keeps_of (unary_writes ..) (by decide), keeps_of (reshape_writes ..) (by decide), keeps_of (unary_writes ..) (by decide)⟩
theorem w17_good (op : HloOp τ sig (Elt F)) (h : op ∈ (Pfx.w17 : List (HloOp τ sig (Elt F)))) : Good op :=
  ⟨List.forall_iff_forall_mem.mp w17_sub op h, List.forall_iff_forall_mem.mp w17_fresh op h, List.forall_iff_forall_mem.mp w17_keeps op h⟩

theorem w18_sub : (Pfx.w18 : List (HloOp τ sig (Elt F))).Forall fun op => op.bufs ⊆ tcRefs τ sig :=
  ⟨reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub ..⟩
theorem w18_fresh : (Pfx.w18 : List (HloOp τ sig (Elt F))).Forall fun op => op.fresh = ∅ :=
  ⟨rfl, rfl, rfl, rfl, rfl, rfl, rfl, rfl, rfl, rfl, rfl, rfl⟩
theorem w18_keeps : (Pfx.w18 : List (HloOp τ sig (Elt F))).Forall Keeps :=
  ⟨keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide)⟩
theorem w18_good (op : HloOp τ sig (Elt F)) (h : op ∈ (Pfx.w18 : List (HloOp τ sig (Elt F)))) : Good op :=
  ⟨List.forall_iff_forall_mem.mp w18_sub op h, List.forall_iff_forall_mem.mp w18_fresh op h, List.forall_iff_forall_mem.mp w18_keeps op h⟩

theorem w19_sub : (Pfx.w19 : List (HloOp τ sig (Elt F))).Forall fun op => op.bufs ⊆ tcRefs τ sig :=
  ⟨binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub ..⟩
theorem w19_fresh : (Pfx.w19 : List (HloOp τ sig (Elt F))).Forall fun op => op.fresh = ∅ :=
  ⟨rfl, rfl, rfl, rfl, rfl, rfl, rfl, rfl, rfl, rfl, rfl, rfl⟩
theorem w19_keeps : (Pfx.w19 : List (HloOp τ sig (Elt F))).Forall Keeps :=
  ⟨keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide)⟩
theorem w19_good (op : HloOp τ sig (Elt F)) (h : op ∈ (Pfx.w19 : List (HloOp τ sig (Elt F)))) : Good op :=
  ⟨List.forall_iff_forall_mem.mp w19_sub op h, List.forall_iff_forall_mem.mp w19_fresh op h, List.forall_iff_forall_mem.mp w19_keeps op h⟩

theorem w20_sub : (Pfx.w20 : List (HloOp τ sig (Elt F))).Forall fun op => op.bufs ⊆ tcRefs τ sig :=
  ⟨binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub ..⟩
theorem w20_fresh : (Pfx.w20 : List (HloOp τ sig (Elt F))).Forall fun op => op.fresh = ∅ :=
  ⟨rfl, rfl, rfl, rfl, rfl, rfl, rfl, rfl, rfl, rfl, rfl, rfl⟩
theorem w20_keeps : (Pfx.w20 : List (HloOp τ sig (Elt F))).Forall Keeps :=
  ⟨keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide)⟩
theorem w20_good (op : HloOp τ sig (Elt F)) (h : op ∈ (Pfx.w20 : List (HloOp τ sig (Elt F)))) : Good op :=
  ⟨List.forall_iff_forall_mem.mp w20_sub op h, List.forall_iff_forall_mem.mp w20_fresh op h, List.forall_iff_forall_mem.mp w20_keeps op h⟩

theorem w21_sub : (Pfx.w21 : List (HloOp τ sig (Elt F))).Forall fun op => op.bufs ⊆ tcRefs τ sig :=
  ⟨unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub ..⟩
theorem w21_fresh : (Pfx.w21 : List (HloOp τ sig (Elt F))).Forall fun op => op.fresh = ∅ :=
  ⟨rfl, rfl, rfl, rfl, rfl, rfl, rfl, rfl, rfl, rfl, rfl, rfl⟩
theorem w21_keeps : (Pfx.w21 : List (HloOp τ sig (Elt F))).Forall Keeps :=
  ⟨keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide)⟩
theorem w21_good (op : HloOp τ sig (Elt F)) (h : op ∈ (Pfx.w21 : List (HloOp τ sig (Elt F)))) : Good op :=
  ⟨List.forall_iff_forall_mem.mp w21_sub op h, List.forall_iff_forall_mem.mp w21_fresh op h, List.forall_iff_forall_mem.mp w21_keeps op h⟩

theorem w22_sub : (Pfx.w22 : List (HloOp τ sig (Elt F))).Forall fun op => op.bufs ⊆ tcRefs τ sig :=
  ⟨unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub ..⟩
theorem w22_fresh : (Pfx.w22 : List (HloOp τ sig (Elt F))).Forall fun op => op.fresh = ∅ :=
  ⟨rfl, rfl, rfl, rfl, rfl, rfl, rfl, rfl, rfl, rfl, rfl, rfl⟩
theorem w22_keeps : (Pfx.w22 : List (HloOp τ sig (Elt F))).Forall Keeps :=
  ⟨keeps_of (unary_writes ..) (by decide), keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide)⟩
theorem w22_good (op : HloOp τ sig (Elt F)) (h : op ∈ (Pfx.w22 : List (HloOp τ sig (Elt F)))) : Good op :=
  ⟨List.forall_iff_forall_mem.mp w22_sub op h, List.forall_iff_forall_mem.mp w22_fresh op h, List.forall_iff_forall_mem.mp w22_keeps op h⟩

theorem w23_sub : (Pfx.w23 : List (HloOp τ sig (Elt F))).Forall fun op => op.bufs ⊆ tcRefs τ sig :=
  ⟨binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub ..⟩
theorem w23_fresh : (Pfx.w23 : List (HloOp τ sig (Elt F))).Forall fun op => op.fresh = ∅ :=
  ⟨rfl, rfl, rfl, rfl, rfl, rfl, rfl, rfl, rfl, rfl, rfl, rfl⟩
theorem w23_keeps : (Pfx.w23 : List (HloOp τ sig (Elt F))).Forall Keeps :=
  ⟨keeps_of (binary_writes ..) (by decide), keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide)⟩
theorem w23_good (op : HloOp τ sig (Elt F)) (h : op ∈ (Pfx.w23 : List (HloOp τ sig (Elt F)))) : Good op :=
  ⟨List.forall_iff_forall_mem.mp w23_sub op h, List.forall_iff_forall_mem.mp w23_fresh op h, List.forall_iff_forall_mem.mp w23_keeps op h⟩

theorem w24_sub : (Pfx.w24 : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem w24_fresh : (Pfx.w24 : List (HloOp τ sig (Elt F))).Forall fun op => op.fresh = ∅ :=
  ⟨rfl, rfl, rfl, rfl, rfl, rfl, rfl, rfl, rfl, rfl, rfl, rfl⟩
theorem w24_keeps : (Pfx.w24 : List (HloOp τ sig (Elt F))).Forall Keeps :=
  ⟨keeps_of (reshape_writes ..) (by decide), keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide)⟩
theorem w24_good (op : HloOp τ sig (Elt F)) (h : op ∈ (Pfx.w24 : List (HloOp τ sig (Elt F)))) : Good op :=
  ⟨List.forall_iff_forall_mem.mp w24_sub op h, List.forall_iff_forall_mem.mp w24_fresh op h, List.forall_iff_forall_mem.mp w24_keeps op h⟩

theorem w25_sub : (Pfx.w25 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub ..⟩
theorem w25_fresh : (Pfx.w25 : List (HloOp τ sig (Elt F))).Forall fun op => op.fresh = ∅ :=
  ⟨rfl, rfl, rfl, rfl, rfl, rfl, rfl, rfl, rfl, rfl, rfl, rfl⟩
theorem w25_keeps : (Pfx.w25 : List (HloOp τ sig (Elt F))).Forall Keeps :=
  ⟨keeps_of (reshape_writes ..) (by decide), keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide)⟩
theorem w25_good (op : HloOp τ sig (Elt F)) (h : op ∈ (Pfx.w25 : List (HloOp τ sig (Elt F)))) : Good op :=
  ⟨List.forall_iff_forall_mem.mp w25_sub op h, List.forall_iff_forall_mem.mp w25_fresh op h, List.forall_iff_forall_mem.mp w25_keeps op h⟩

theorem w26_sub : (Pfx.w26 : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub ..⟩
theorem w26_fresh : (Pfx.w26 : List (HloOp τ sig (Elt F))).Forall fun op => op.fresh = ∅ :=
  ⟨rfl, rfl, rfl, rfl, rfl, rfl, rfl, rfl, rfl, rfl, rfl, rfl⟩
theorem w26_keeps : (Pfx.w26 : List (HloOp τ sig (Elt F))).Forall Keeps :=
  ⟨keeps_of (unary_writes ..) (by decide), keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide)⟩
theorem w26_good (op : HloOp τ sig (Elt F)) (h : op ∈ (Pfx.w26 : List (HloOp τ sig (Elt F)))) : Good op :=
  ⟨List.forall_iff_forall_mem.mp w26_sub op h, List.forall_iff_forall_mem.mp w26_fresh op h, List.forall_iff_forall_mem.mp w26_keeps op h⟩

theorem w27_sub : (Pfx.w27 : List (HloOp τ sig (Elt F))).Forall fun op => op.bufs ⊆ tcRefs τ sig :=
  ⟨reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub ..⟩
theorem w27_fresh : (Pfx.w27 : List (HloOp τ sig (Elt F))).Forall fun op => op.fresh = ∅ :=
  ⟨rfl, rfl, rfl, rfl, rfl, rfl, rfl, rfl, rfl, rfl, rfl, rfl⟩
theorem w27_keeps : (Pfx.w27 : List (HloOp τ sig (Elt F))).Forall Keeps :=
  ⟨keeps_of (reshape_writes ..) (by decide), keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (reshape_writes ..) (by decide), keeps_of (unary_writes ..) (by decide), keeps_of (reshape_writes ..) (by decide)⟩
theorem w27_good (op : HloOp τ sig (Elt F)) (h : op ∈ (Pfx.w27 : List (HloOp τ sig (Elt F)))) : Good op :=
  ⟨List.forall_iff_forall_mem.mp w27_sub op h, List.forall_iff_forall_mem.mp w27_fresh op h, List.forall_iff_forall_mem.mp w27_keeps op h⟩

theorem w28_sub : (Pfx.w28 : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub .., reshape_bufs_sub .., nullary_bufs_sub .., unary_bufs_sub .., binary_bufs_sub .., unary_bufs_sub ..⟩
theorem w28_fresh : (Pfx.w28 : List (HloOp τ sig (Elt F))).Forall fun op => op.fresh = ∅ :=
  ⟨rfl, rfl, rfl, rfl, rfl, rfl, rfl, rfl, rfl, rfl, rfl, rfl⟩
theorem w28_keeps : (Pfx.w28 : List (HloOp τ sig (Elt F))).Forall Keeps :=
  ⟨keeps_of (unary_writes ..) (by decide), keeps_of (reshape_writes ..) (by decide), keeps_of (binary_writes ..) (by decide), keeps_of (binary_writes ..) (by decide), keeps_of (unary_writes ..) (by decide), keeps_of (unary_writes ..) (by decide), keeps_of (binary_writes ..) (by decide), keeps_of (reshape_writes ..) (by decide), keeps_of (nullary_writes ..) (by decide), keeps_of (unary_writes ..) (by decide), keeps_of (binary_writes ..) (by decide), keeps_of (unary_writes ..) (by decide)⟩
theorem w28_good (op : HloOp τ sig (Elt F)) (h : op ∈ (Pfx.w28 : List (HloOp τ sig (Elt F)))) : Good op :=
  ⟨List.forall_iff_forall_mem.mp w28_sub op h, List.forall_iff_forall_mem.mp w28_fresh op h, List.forall_iff_forall_mem.mp w28_keeps op h⟩

theorem w29_sub : (Pfx.w29 : List (HloOp τ sig (Elt F))).Forall fun op => op.bufs ⊆ tcRefs τ sig :=
  ⟨unary_bufs_sub .., unary_bufs_sub .., binary_bufs_sub .., unary_bufs_sub .., unary_bufs_sub .., binary_bufs_sub .., reshape_bufs_sub .., unary_bufs_sub .., binary_bufs_sub .., reshape_bufs_sub ..⟩
theorem w29_fresh : (Pfx.w29 : List (HloOp τ sig (Elt F))).Forall fun op => op.fresh = ∅ :=
  ⟨rfl, rfl, rfl, rfl, rfl, rfl, rfl, rfl, rfl, rfl⟩
theorem w29_keeps : (Pfx.w29 : List (HloOp τ sig (Elt F))).Forall Keeps :=
  ⟨keeps_of (unary_writes ..) (by decide), keeps_of (unary_writes ..) (by decide), keeps_of (binary_writes ..) (by decide), keeps_of (unary_writes ..) (by decide), keeps_of (unary_writes ..) (by decide), keeps_of (binary_writes ..) (by decide), keeps_of (reshape_writes ..) (by decide), keeps_of (unary_writes ..) (by decide), keeps_of (binary_writes ..) (by decide), keeps_of (reshape_writes ..) (by decide)⟩
theorem w29_good (op : HloOp τ sig (Elt F)) (h : op ∈ (Pfx.w29 : List (HloOp τ sig (Elt F)))) : Good op :=
  ⟨List.forall_iff_forall_mem.mp w29_sub op h, List.forall_iff_forall_mem.mp w29_fresh op h, List.forall_iff_forall_mem.mp w29_keeps op h⟩

theorem post_sub : (Pfx.post : List (HloOp τ sig (Elt F))).Forall fun op => op.bufs ⊆ tcRefs τ sig :=
  binary_bufs_sub ..
theorem post_fresh : (Pfx.post : List (HloOp τ sig (Elt F))).Forall fun op => op.fresh = ∅ :=
  rfl
theorem post_keeps : (Pfx.post : List (HloOp τ sig (Elt F))).Forall Keeps :=
  keeps_of (binary_writes ..) (by decide)
theorem post_good (op : HloOp τ sig (Elt F)) (h : op ∈ (Pfx.post : List (HloOp τ sig (Elt F)))) : Good op :=
  ⟨List.forall_iff_forall_mem.mp post_sub op h, List.forall_iff_forall_mem.mp post_fresh op h, List.forall_iff_forall_mem.mp post_keeps op h⟩

/-! ## The whole line -/

/-- An operation of the line is an operation of one of its windows. -/
theorem mem_split {op : HloOp τ sig (Elt F)} (h : op ∈ (Pfx.pre ++ Pfx.post : List (HloOp τ sig (Elt F)))) :
    op ∈ (Pfx.w0 : List (HloOp τ sig (Elt F))) ∨ op ∈ (Pfx.w1 : List (HloOp τ sig (Elt F))) ∨ op ∈ (Pfx.w2 : List (HloOp τ sig (Elt F))) ∨ op ∈ (Pfx.w3 : List (HloOp τ sig (Elt F))) ∨ op ∈ (Pfx.w4 : List (HloOp τ sig (Elt F))) ∨ op ∈ (Pfx.w5 : List (HloOp τ sig (Elt F))) ∨ op ∈ (Pfx.w6 : List (HloOp τ sig (Elt F))) ∨ op ∈ (Pfx.w7 : List (HloOp τ sig (Elt F))) ∨ op ∈ (Pfx.w8 : List (HloOp τ sig (Elt F))) ∨ op ∈ (Pfx.w9 : List (HloOp τ sig (Elt F))) ∨ op ∈ (Pfx.w10 : List (HloOp τ sig (Elt F))) ∨ op ∈ (Pfx.w11 : List (HloOp τ sig (Elt F))) ∨ op ∈ (Pfx.w12 : List (HloOp τ sig (Elt F))) ∨ op ∈ (Pfx.w13 : List (HloOp τ sig (Elt F))) ∨ op ∈ (Pfx.w14 : List (HloOp τ sig (Elt F))) ∨ op ∈ (Pfx.w15 : List (HloOp τ sig (Elt F))) ∨ op ∈ (Pfx.w16 : List (HloOp τ sig (Elt F))) ∨ op ∈ (Pfx.w17 : List (HloOp τ sig (Elt F))) ∨ op ∈ (Pfx.w18 : List (HloOp τ sig (Elt F))) ∨ op ∈ (Pfx.w19 : List (HloOp τ sig (Elt F))) ∨ op ∈ (Pfx.w20 : List (HloOp τ sig (Elt F))) ∨ op ∈ (Pfx.w21 : List (HloOp τ sig (Elt F))) ∨ op ∈ (Pfx.w22 : List (HloOp τ sig (Elt F))) ∨ op ∈ (Pfx.w23 : List (HloOp τ sig (Elt F))) ∨ op ∈ (Pfx.w24 : List (HloOp τ sig (Elt F))) ∨ op ∈ (Pfx.w25 : List (HloOp τ sig (Elt F))) ∨ op ∈ (Pfx.w26 : List (HloOp τ sig (Elt F))) ∨ op ∈ (Pfx.w27 : List (HloOp τ sig (Elt F))) ∨ op ∈ (Pfx.w28 : List (HloOp τ sig (Elt F))) ∨ op ∈ (Pfx.w29 : List (HloOp τ sig (Elt F))) ∨ op ∈ (Pfx.post : List (HloOp τ sig (Elt F))) := by
  simpa only [Pfx.pre, List.mem_append, or_assoc] using h

theorem ops_good (op : HloOp τ sig (Elt F)) (h : op ∈ (Pfx.pre ++ Pfx.post : List (HloOp τ sig (Elt F)))) : Good op := by
  rcases mem_split h with h | h | h | h | h | h | h | h | h | h | h | h | h | h | h | h | h | h | h | h | h | h | h | h | h | h | h | h | h | h | h
  · exact w0_good op h
  · exact w1_good op h
  · exact w2_good op h
  · exact w3_good op h
  · exact w4_good op h
  · exact w5_good op h
  · exact w6_good op h
  · exact w7_good op h
  · exact w8_good op h
  · exact w9_good op h
  · exact w10_good op h
  · exact w11_good op h
  · exact w12_good op h
  · exact w13_good op h
  · exact w14_good op h
  · exact w15_good op h
  · exact w16_good op h
  · exact w17_good op h
  · exact w18_good op h
  · exact w19_good op h
  · exact w20_good op h
  · exact w21_good op h
  · exact w22_good op h
  · exact w23_good op h
  · exact w24_good op h
  · exact w25_good op h
  · exact w26_good op h
  · exact w27_good op h
  · exact w28_good op h
  · exact w29_good op h
  · exact post_good op h

/-- An argument is as launched after the whole line. -/
theorem after_arg (V : Valuation τ sig (Elt F)) {r : Ref sig .tc} (hr : r ∈ args) :
    after (Pfx.pre ++ Pfx.post) V (Proc.devRef .tc r) = V (Proc.devRef .tc r) :=
  after_of_forall_not_mem _ V fun op hop => (ops_good op hop).2.2 r hr

/-- The result buffer after the whole line: the contraction of the two prefix values. -/
theorem after_result (V : Valuation τ sig (Elt F)) :
    after (Pfx.pre ++ Pfx.post) V (Proc.devRef .tc main_v332)
      = Host.dotGeneral dot_S4x2048x4096_S4096x4096_S4x2048x4096_2_1_01_0_n_n none
          (after Pfx.pre V (Proc.devRef .tc main_v22)) (after Pfx.pre V (Proc.devRef .tc main_v331)) := by
  rw [after_append, after_cons, after_nil]
  exact binary_result ..

/-- The run read back: the result is the contraction of the two prefix values, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v332)
        = Host.dotGeneral dot_S4x2048x4096_S4096x4096_S4x2048x4096_2_1_01_0_n_n none
            (after Pfx.pre (launchContents m c) (Proc.devRef .tc main_v22))
            (after Pfx.pre (launchContents m c) (Proc.devRef .tc main_v331))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v332).trans (after_result _),
      (h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide))⟩)
    (run_seq scopedRefs_eq scopedSems_eq defs main (fun _ => Pfx.pre ++ Pfx.post) main_eq
      (by intro d; rw [List.forall_iff_forall_mem]; exact fun op h => (ops_good op h).1) m ρ
      (fun _ op h => (ops_good op h).2.1))

end Cert.ReferenceIdeal.RefRun

end
-- ==== Proof.RefDot.lean ====
import proofs.«404041_j68642167324808_1_alg».proof.ReferenceIdeal
import proofs.«404041_j68642167324808_1_alg».proof.Proof.Gen.ReferenceIdeal
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.ReferenceIdeal.RefDot

open Cert.ReferenceIdeal Cert.ReferenceIdeal.Gen

/-- The contraction's dimension numbers: the left operand's axis 2 against the right operand's axis 1; the left operand's
    axes 0 and 1 are the result's axes 0 and 1, the right operand's axis 0 is the result's axis 2. -/
theorem lhs_axis0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := by
  unfold DotDims.lhsIdx
  rw [dif_neg (show ¬((0 : Fin S4x2048x4096.rank) ∈ dot_S4x2048x4096_S4096x4096_S4x2048x4096_2_1_01_0_n_n.lhsBatch) by decide),
    dif_pos (show (0 : Fin S4x2048x4096.rank) ∈ dot_S4x2048x4096_S4096x4096_S4x2048x4096_2_1_01_0_n_n.lhsNonContracting by decide)]
  rfl

/-- The left operand's axis 1 reads the result's axis 1. -/
theorem lhs_axis1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := by
  unfold DotDims.lhsIdx
  rw [dif_neg (show ¬((1 : Fin S4x2048x4096.rank) ∈ dot_S4x2048x4096_S4096x4096_S4x2048x4096_2_1_01_0_n_n.lhsBatch) by decide),
    dif_pos (show (1 : Fin S4x2048x4096.rank) ∈ dot_S4x2048x4096_S4096x4096_S4x2048x4096_2_1_01_0_n_n.lhsNonContracting by decide)]
  rfl

/-- The left operand's axis 2 is the contracted one. -/
theorem lhs_axis2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, by decide⟩).val :=
  DotDims.lhsIdx_val_of_single _ (cl := 2) rfl j k

/-- The right operand's axis 0 reads the result's axis 2. -/
theorem rhs_axis0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := by
  unfold DotDims.rhsIdx
  rw [dif_neg (show ¬((0 : Fin S4096x4096.rank) ∈ dot_S4x2048x4096_S4096x4096_S4x2048x4096_2_1_01_0_n_n.rhsBatch) by decide),
    dif_pos (show (0 : Fin S4096x4096.rank) ∈ dot_S4x2048x4096_S4096x4096_S4x2048x4096_2_1_01_0_n_n.rhsNonContracting by decide)]
  rfl

/-- The right operand's axis 1 is the contracted one. -/
theorem rhs_axis1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, by decide⟩).val :=
  DotDims.rhsIdx_val_of_single _ (cr := 1) rfl j k

/-- The contraction at an index, over the extended reals: entry (b, s, o) sums x[b, s, k] · w[o, k] over k. -/
theorem dot_apply (X : FVec Ideal S4x2048x4096 .f32) (W : FVec Ideal S4096x4096 .f32) (b : Fin 4) (s : Fin 2048) (o : Fin 4096) :
    Host.dotGeneral (F := Ideal) dot_S4x2048x4096_S4096x4096_S4x2048x4096_2_1_01_0_n_n none X W (ix3 b s o)
      = ∑ k : Fin 4096, X (ix3 b s k) * W (ix2 o k) := by
  show FloatOps.dotGeneral _ none _ X W (ix3 b s o) = _
  rw [Ideal.dotGeneral_apply,
    ← Equiv.sum_comp (contrEquiv1 dot_S4x2048x4096_S4096x4096_S4x2048x4096_2_1_01_0_n_n 4096 rfl rfl).symm]
  refine Finset.sum_congr rfl fun c _ => ?_
  have hc := contrEquiv1_symm_val dot_S4x2048x4096_S4096x4096_S4x2048x4096_2_1_01_0_n_n 4096 rfl rfl c
  have hl : dot_S4x2048x4096_S4096x4096_S4x2048x4096_2_1_01_0_n_n.lhsIdx (ix3 b s o)
      ((contrEquiv1 dot_S4x2048x4096_S4096x4096_S4x2048x4096_2_1_01_0_n_n 4096 rfl rfl).symm c) = ix3 b s c := by
    funext a; apply Fin.ext
    match a with
    | ⟨0, _⟩ => exact lhs_axis0 _ _
    | ⟨1, _⟩ => exact lhs_axis1 _ _
    | ⟨2, _⟩ => exact (lhs_axis2 _ _).trans hc
  have hr : dot_S4x2048x4096_S4096x4096_S4x2048x4096_2_1_01_0_n_n.rhsIdx (ix3 b s o)
      ((contrEquiv1 dot_S4x2048x4096_S4096x4096_S4x2048x4096_2_1_01_0_n_n 4096 rfl rfl).symm c) = ix2 o c := by
    funext a; apply Fin.ext
    match a with
    | ⟨0, _⟩ => exact rhs_axis0 _ _
    | ⟨1, _⟩ => exact (rhs_axis1 _ _).trans hc
  rw [hl, hr]

end Cert.ReferenceIdeal.RefDot

end
-- ==== Proof.PfxAgree0.lean ====
import proofs.«404041_j68642167324808_1_alg».proof.Proof.PfxK
import proofs.«404041_j68642167324808_1_alg».proof.Proof.PfxR
import proofs.«404041_j68642167324808_1_alg».proof.Proof.PfxTac

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem agree0 (V : Valuation Cert.KernelIdeal.τ Cert.KernelIdeal.sig (Elt F)) (V' : Valuation Cert.ReferenceIdeal.τ Cert.ReferenceIdeal.sig (Elt F))
    (h0 : V (Proc.devRef .tc Cert.KernelIdeal.main_arg0) = V' (Proc.devRef .tc Cert.ReferenceIdeal.main_arg0))
    (h1 : V (Proc.devRef .tc Cert.KernelIdeal.main_arg1) = V' (Proc.devRef .tc Cert.ReferenceIdeal.main_arg1))
    (h2 : V (Proc.devRef .tc Cert.KernelIdeal.main_arg2) = V' (Proc.devRef .tc Cert.ReferenceIdeal.main_arg2))
    (h3 : V (Proc.devRef .tc Cert.KernelIdeal.main_arg3) = V' (Proc.devRef .tc Cert.ReferenceIdeal.main_arg3))
    (h4 : V (Proc.devRef .tc Cert.KernelIdeal.main_arg4) = V' (Proc.devRef .tc Cert.ReferenceIdeal.main_arg4))
    (h5 : V (Proc.devRef .tc Cert.KernelIdeal.main_arg5) = V' (Proc.devRef .tc Cert.ReferenceIdeal.main_arg5)) :
    (StableHlo.after Cert.KernelIdeal.Pfx.w0 V (Proc.devRef .tc Cert.KernelIdeal.main_arg0) = StableHlo.after Cert.ReferenceIdeal.Pfx.w0 V' (Proc.devRef .tc Cert.ReferenceIdeal.main_arg0))
      ∧ (StableHlo.after Cert.KernelIdeal.Pfx.w0 V (Proc.devRef .tc Cert.KernelIdeal.main_arg1) = StableHlo.after Cert.ReferenceIdeal.Pfx.w0 V' (Proc.devRef .tc Cert.ReferenceIdeal.main_arg1))
      ∧ (StableHlo.after Cert.KernelIdeal.Pfx.w0 V (Proc.devRef .tc Cert.KernelIdeal.main_arg2) = StableHlo.after Cert.ReferenceIdeal.Pfx.w0 V' (Proc.devRef .tc Cert.ReferenceIdeal.main_arg2))
      ∧ (StableHlo.after Cert.KernelIdeal.Pfx.w0 V (Proc.devRef .tc Cert.KernelIdeal.main_arg3) = StableHlo.after Cert.ReferenceIdeal.Pfx.w0 V' (Proc.devRef .tc Cert.ReferenceIdeal.main_arg3))
      ∧ (StableHlo.after Cert.KernelIdeal.Pfx.w0 V (Proc.devRef .tc Cert.KernelIdeal.main_arg4) = StableHlo.after Cert.ReferenceIdeal.Pfx.w0 V' (Proc.devRef .tc Cert.ReferenceIdeal.main_arg4))
      ∧ (StableHlo.after Cert.KernelIdeal.Pfx.w0 V (Proc.devRef .tc Cert.KernelIdeal.main_arg5) = StableHlo.after Cert.ReferenceIdeal.Pfx.w0 V' (Proc.devRef .tc Cert.ReferenceIdeal.main_arg5))
      ∧ (StableHlo.after Cert.KernelIdeal.Pfx.w0 V (Proc.devRef .tc Cert.KernelIdeal.main_c) = StableHlo.after Cert.ReferenceIdeal.Pfx.w0 V' (Proc.devRef .tc Cert.ReferenceIdeal.main_c))
      ∧ (StableHlo.after Cert.KernelIdeal.Pfx.w0 V (Proc.devRef .tc Cert.KernelIdeal.main_v0) = StableHlo.after Cert.ReferenceIdeal.Pfx.w0 V' (Proc.devRef .tc Cert.ReferenceIdeal.main_v0))
      ∧ (StableHlo.after Cert.KernelIdeal.Pfx.w0 V (Proc.devRef .tc Cert.KernelIdeal.main_v6) = StableHlo.after Cert.ReferenceIdeal.Pfx.w0 V' (Proc.devRef .tc Cert.ReferenceIdeal.main_v6)) := by
  refine ⟨?_, ?_, ?_, ?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree1 (V : Valuation Cert.KernelIdeal.τ Cert.KernelIdeal.sig (Elt F)) (V' : Valuation Cert.ReferenceIdeal.τ Cert.ReferenceIdeal.sig (Elt F))
    (h0 : V (Proc.devRef .tc Cert.KernelIdeal.main_arg0) = V' (Proc.devRef .tc Cert.ReferenceIdeal.main_arg0))
    (h1 : V (Proc.devRef .tc Cert.KernelIdeal.main_arg1) = V' (Proc.devRef .tc Cert.ReferenceIdeal.main_arg1))
    (h2 : V (Proc.devRef .tc Cert.KernelIdeal.main_arg2) = V' (Proc.devRef .tc Cert.ReferenceIdeal.main_arg2))
    (h3 : V (Proc.devRef .tc Cert.KernelIdeal.main_arg3) = V' (Proc.devRef .tc Cert.ReferenceIdeal.main_arg3))
    (h4 : V (Proc.devRef .tc Cert.KernelIdeal.main_arg4) = V' (Proc.devRef .tc Cert.ReferenceIdeal.main_arg4))
    (h5 : V (Proc.devRef .tc Cert.KernelIdeal.main_arg5) = V' (Proc.devRef .tc Cert.ReferenceIdeal.main_arg5))
    (h6 : V (Proc.devRef .tc Cert.KernelIdeal.main_c) = V' (Proc.devRef .tc Cert.ReferenceIdeal.main_c))
    (h7 : V (Proc.devRef .tc Cert.KernelIdeal.main_v0) = V' (Proc.devRef .tc Cert.ReferenceIdeal.main_v0))
    (h8 : V (Proc.devRef .tc Cert.KernelIdeal.main_v6) = V' (Proc.devRef .tc Cert.ReferenceIdeal.main_v6)) :
    (StableHlo.after Cert.KernelIdeal.Pfx.w1 V (Proc.devRef .tc Cert.KernelIdeal.main_arg0) = StableHlo.after Cert.ReferenceIdeal.Pfx.w1 V' (Proc.devRef .tc Cert.ReferenceIdeal.main_arg0))
      ∧ (StableHlo.after Cert.KernelIdeal.Pfx.w1 V (Proc.devRef .tc Cert.KernelIdeal.main_arg1) = StableHlo.after Cert.ReferenceIdeal.Pfx.w1 V' (Proc.devRef .tc Cert.ReferenceIdeal.main_arg1))
      ∧ (StableHlo.after Cert.KernelIdeal.Pfx.w1 V (Proc.devRef .tc Cert.KernelIdeal.main_arg2) = StableHlo.after Cert.ReferenceIdeal.Pfx.w1 V' (Proc.devRef .tc Cert.ReferenceIdeal.main_arg2))
      ∧ (StableHlo.after Cert.KernelIdeal.Pfx.w1 V (Proc.devRef .tc Cert.KernelIdeal.main_arg3) = StableHlo.after Cert.ReferenceIdeal.Pfx.w1 V' (Proc.devRef .tc Cert.ReferenceIdeal.main_arg3))
      ∧ (StableHlo.after Cert.KernelIdeal.Pfx.w1 V (Proc.devRef .tc Cert.KernelIdeal.main_arg4) = StableHlo.after Cert.ReferenceIdeal.Pfx.w1 V' (Proc.devRef .tc Cert.ReferenceIdeal.main_arg4))
      ∧ (StableHlo.after Cert.KernelIdeal.Pfx.w1 V (Proc.devRef .tc Cert.KernelIdeal.main_arg5) = StableHlo.after Cert.ReferenceIdeal.Pfx.w1 V' (Proc.devRef .tc Cert.ReferenceIdeal.main_arg5))
      ∧ (StableHlo.after Cert.KernelIdeal.Pfx.w1 V (Proc.devRef .tc Cert.KernelIdeal.main_c) = StableHlo.after Cert.ReferenceIdeal.Pfx.w1 V' (Proc.devRef .tc Cert.ReferenceIdeal.main_c))
      ∧ (StableHlo.after Cert.KernelIdeal.Pfx.w1 V (Proc.devRef .tc Cert.KernelIdeal.main_call1_v2) = StableHlo.after Cert.ReferenceIdeal.Pfx.w1 V' (Proc.devRef .tc Cert.ReferenceIdeal.main_call1_v2))
      ∧ (StableHlo.after Cert.KernelIdeal.Pfx.w1 V (Proc.devRef .tc Cert.KernelIdeal.main_cst_4) = StableHlo.after Cert.ReferenceIdeal.Pfx.w1 V' (Proc.devRef .tc Cert.ReferenceIdeal.main_cst_4))
      ∧ (StableHlo.after Cert.KernelIdeal.Pfx.w1 V (Proc.devRef .tc Cert.KernelIdeal.main_v0) = StableHlo.after Cert.ReferenceIdeal.Pfx.w1 V' (Proc.devRef .tc Cert.ReferenceIdeal.main_v0))
      ∧ (StableHlo.after Cert.KernelIdeal.Pfx.w1 V (Proc.devRef .tc Cert.KernelIdeal.main_v6) = StableHlo.after Cert.ReferenceIdeal.Pfx.w1 V' (Proc.devRef .tc Cert.ReferenceIdeal.main_v6)) := by
  refine ⟨?_, ?_, ?_, ?_, ?_, ?_, ?_, ?_, ?_, ?_, ?_⟩ <;>
  · after_results_simp
    try results_rw
    try simp only [h0, h1, h2, h3, h4, h5, h6, h7, h8]
    try rw [h0]
    try rw [h1]
    try rw [h2]
    try rw [h3]
    try rw [h4]
    try rw [h5]
    try rw [h6]
    try rw [h7]
    try rw [h8]
    try chain_rfl

set_option maxHeartbeats 4000000 in
theorem agree2 (V : Valuation Cert.KernelIdeal.τ Cert.KernelIdeal.sig (Elt F)) (V' : Valuation Cert.ReferenceIdeal.τ Cert.ReferenceIdeal.sig (Elt F))
    (h0 : V (Proc.devRef .tc Cert.KernelIdeal.main_arg0) = V' (Proc.devRef .tc Cert.ReferenceIdeal.main_arg0))
    (h1 : V (Proc.devRef .tc Cert.KernelIdeal.main_arg1) = V' (Proc.devRef .tc Cert.ReferenceIdeal.main_arg1))
    (h2 : V (Proc.devRef .tc Cert.KernelIdeal.main_arg2) = V' (Proc.devRef .tc Cert.ReferenceIdeal.main_arg2))
    (h3 : V (Proc.devRef .tc Cert.KernelIdeal.main_arg3) = V' (Proc.devRef .tc Cert.ReferenceIdeal.main_arg3))
    (h4 : V (Proc.devRef .tc Cert.KernelIdeal.main_arg4) = V' (Proc.devRef .tc Cert.ReferenceIdeal.main_arg4))
    (h5 : V (Proc.devRef .tc Cert.KernelIdeal.main_arg5) = V' (Proc.devRef .tc Cert.ReferenceIdeal.main_arg5))
    (h6 : V (Proc.devRef .tc Cert.KernelIdeal.main_c) = V' (Proc.devRef .tc Cert.ReferenceIdeal.main_c))
    (h7 : V (Proc.devRef .tc Cert.KernelIdeal.main_call1_v2) = V' (Proc.devRef .tc Cert.ReferenceIdeal.main_call1_v2))
    (h8 : V (Proc.devRef .tc Cert.KernelIdeal.main_cst_4) = V' (Proc.devRef .tc Cert.ReferenceIdeal.main_cst_4))
    (h9 : V (Proc.devRef .tc Cert.KernelIdeal.main_v0) = V' (Proc.devRef .tc Cert.ReferenceIdeal.main_v0))
    (h10 : V (Proc.devRef .tc Cert.KernelIdeal.main_v6) = V' (Proc.devRef .tc Cert.ReferenceIdeal.main_v6)) :
    (StableHlo.after Cert.KernelIdeal.Pfx.w2 V (Proc.devRef .tc Cert.KernelIdeal.main_arg1) = StableHlo.after Cert.ReferenceIdeal.Pfx.w2 V' (Proc.devRef .tc Cert.ReferenceIdeal.main_arg1))
      ∧ (StableHlo.after Cert.KernelIdeal.Pfx.w2 V (Proc.devRef .tc Cert.KernelIdeal.main_arg2) = StableHlo.after Cert.ReferenceIdeal.Pfx.w2 V' (Proc.devRef .tc Cert.ReferenceIdeal.main_arg2))
      ∧ (StableHlo.after Cert.KernelIdeal.Pfx.w2 V (Proc.devRef .tc Cert.KernelIdeal.main_arg3) = StableHlo.after Cert.ReferenceIdeal.Pfx.w2 V' (Proc.devRef .tc Cert.ReferenceIdeal.main_arg3))
      ∧ (StableHlo.after Cert.KernelIdeal.Pfx.w2 V (Proc.devRef .tc Cert.KernelIdeal.main_arg4) = StableHlo.after Cert.ReferenceIdeal.Pfx.w2 V' (Proc.devRef .tc Cert.ReferenceIdeal.main_arg4))
      ∧ (StableHlo.after Cert.KernelIdeal.Pfx.w2 V (Proc.devRef .tc Cert.KernelIdeal.main_c) = StableHlo.after Cert.ReferenceIdeal.Pfx.w2 V' (Proc.devRef .tc Cert.ReferenceIdeal.main_c))
      ∧ (StableHlo.after Cert.KernelIdeal.Pfx.w2 V (Proc.devRef .tc Cert.KernelIdeal.main_v22) = StableHlo.after Cert.ReferenceIdeal.Pfx.w2 V' (Proc.devRef .tc Cert.ReferenceIdeal.main_v22))
      ∧ (StableHlo.after Cert.KernelIdeal.Pfx.w2 V (Proc.devRef .tc Cert.KernelIdeal.main_v23) = StableHlo.after Cert.ReferenceIdeal.Pfx.w2 V' (Proc.devRef .tc Cert.ReferenceIdeal.main_v23)) := by
  refine ⟨?_, ?_, ?_, ?_, ?_, ?_, ?_⟩ <;>
  · after_results_simp
    try results_rw
    try simp only [h0, h1, h2, h3, h4, h5, h6, h7, h8, h9, h10]
    try rw [h0]
    try rw [h1]
    try rw [h2]
    try rw [h3]
    try rw [h4]
    try rw [h5]
    try rw [h6]
    try rw [h7]
    try rw [h8]
    try rw [h9]
    try rw [h10]
    try chain_rfl

set_option maxHeartbeats 4000000 in
theorem agree3 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_arg4) = V' (Proc.devRef .tc Cert.ReferenceIdeal.main_arg4))
    (h4 : V (Proc.devRef .tc Cert.KernelIdeal.main_c) = V' (Proc.devRef .tc Cert.ReferenceIdeal.main_c))
    (h5 : V (Proc.devRef .tc Cert.KernelIdeal.main_v22) = V' (Proc.devRef .tc Cert.ReferenceIdeal.main_v22))
    (h6 : V (Proc.devRef .tc Cert.KernelIdeal.main_v23) = V' (Proc.devRef .tc Cert.ReferenceIdeal.main_v23)) :
    (StableHlo.after Cert.KernelIdeal.Pfx.w3 V (Proc.devRef .tc Cert.KernelIdeal.main_arg1) = StableHlo.after Cert.ReferenceIdeal.Pfx.w3 V' (Proc.devRef .tc Cert.ReferenceIdeal.main_arg1))
      ∧ (StableHlo.after Cert.KernelIdeal.Pfx.w3 V (Proc.devRef .tc Cert.KernelIdeal.main_arg2) = StableHlo.after Cert.ReferenceIdeal.Pfx.w3 V' (Proc.devRef .tc Cert.ReferenceIdeal.main_arg2))
      ∧ (StableHlo.after Cert.KernelIdeal.Pfx.w3 V (Proc.devRef .tc Cert.KernelIdeal.main_arg3) = StableHlo.after Cert.ReferenceIdeal.Pfx.w3 V' (Proc.devRef .tc Cert.ReferenceIdeal.main_arg3))
      ∧ (StableHlo.after Cert.KernelIdeal.Pfx.w3 V (Proc.devRef .tc Cert.KernelIdeal.main_arg4) = StableHlo.after Cert.ReferenceIdeal.Pfx.w3 V' (Proc.devRef .tc Cert.ReferenceIdeal.main_arg4))
      ∧ (StableHlo.after Cert.KernelIdeal.Pfx.w3 V (Proc.devRef .tc Cert.KernelIdeal.main_call2_v0) = StableHlo.after Cert.ReferenceIdeal.Pfx.w3 V' (Proc.devRef .tc Cert.ReferenceIdeal.main_call2_v0))
      ∧ (StableHlo.after Cert.KernelIdeal.Pfx.w3 V (Proc.devRef .tc Cert.KernelIdeal.main_v22) = StableHlo.after Cert.ReferenceIdeal.Pfx.w3 V' (Proc.devRef .tc Cert.ReferenceIdeal.main_v22))
      ∧ (StableHlo.after Cert.KernelIdeal.Pfx.w3 V (Proc.devRef .tc Cert.KernelIdeal.main_v30) = StableHlo.after Cert.ReferenceIdeal.Pfx.w3 V' (Proc.devRef .tc Cert.ReferenceIdeal.main_v30))
      ∧ (StableHlo.after Cert.KernelIdeal.Pfx.w3 V (Proc.devRef .tc Cert.KernelIdeal.main_v32) = StableHlo.after Cert.ReferenceIdeal.Pfx.w3 V' (Proc.devRef .tc Cert.ReferenceIdeal.main_v32)) := by
  refine ⟨?_, ?_, ?_, ?_, ?_, ?_, ?_, ?_⟩ <;>
  · after_results_simp
    try results_rw
    try simp only [h0, h1, h2, h3, h4, h5, h6]
    try rw [h0]
    try rw [h1]
    try rw [h2]
    try rw [h3]
    try rw [h4]
    try rw [h5]
    try rw [h6]
    try chain_rfl

set_option maxHeartbeats 4000000 in
theorem agree4 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_arg4) = V' (Proc.devRef .tc Cert.ReferenceIdeal.main_arg4))
    (h4 : V (Proc.devRef .tc Cert.KernelIdeal.main_call2_v0) = V' (Proc.devRef .tc Cert.ReferenceIdeal.main_call2_v0))
    (h5 : V (Proc.devRef .tc Cert.KernelIdeal.main_v22) = V' (Proc.devRef .tc Cert.ReferenceIdeal.main_v22))
    (h6 : V (Proc.devRef .tc Cert.KernelIdeal.main_v30) = V' (Proc.devRef .tc Cert.ReferenceIdeal.main_v30))
    (h7 : V (Proc.devRef .tc Cert.KernelIdeal.main_v32) = V' (Proc.devRef .tc Cert.ReferenceIdeal.main_v32)) :
    (StableHlo.after Cert.KernelIdeal.Pfx.w4 V (Proc.devRef .tc Cert.KernelIdeal.main_arg1) = StableHlo.after Cert.ReferenceIdeal.Pfx.w4 V' (Proc.devRef .tc Cert.ReferenceIdeal.main_arg1))
      ∧ (StableHlo.after Cert.KernelIdeal.Pfx.w4 V (Proc.devRef .tc Cert.KernelIdeal.main_arg2) = StableHlo.after Cert.ReferenceIdeal.Pfx.w4 V' (Proc.devRef .tc Cert.ReferenceIdeal.main_arg2))
      ∧ (StableHlo.after Cert.KernelIdeal.Pfx.w4 V (Proc.devRef .tc Cert.KernelIdeal.main_arg3) = StableHlo.after Cert.ReferenceIdeal.Pfx.w4 V' (Proc.devRef .tc Cert.ReferenceIdeal.main_arg3))
      ∧ (StableHlo.after Cert.KernelIdeal.Pfx.w4 V (Proc.devRef .tc Cert.KernelIdeal.main_arg4) = StableHlo.after Cert.ReferenceIdeal.Pfx.w4 V' (Proc.devRef .tc Cert.ReferenceIdeal.main_arg4))
      ∧ (StableHlo.after Cert.KernelIdeal.Pfx.w4 V (Proc.devRef .tc Cert.KernelIdeal.main_v22) = StableHlo.after Cert.ReferenceIdeal.Pfx.w4 V' (Proc.devRef .tc Cert.ReferenceIdeal.main_v22))
      ∧ (StableHlo.after Cert.KernelIdeal.Pfx.w4 V (Proc.devRef .tc Cert.KernelIdeal.main_v30) = StableHlo.after Cert.ReferenceIdeal.Pfx.w4 V' (Proc.devRef .tc Cert.ReferenceIdeal.main_v30))
      ∧ (StableHlo.after Cert.KernelIdeal.Pfx.w4 V (Proc.devRef .tc Cert.KernelIdeal.main_v36) = StableHlo.after Cert.ReferenceIdeal.Pfx.w4 V' (Proc.devRef .tc Cert.ReferenceIdeal.main_v36))
      ∧ (StableHlo.after Cert.KernelIdeal.Pfx.w4 V (Proc.devRef .tc Cert.KernelIdeal.main_v39) = StableHlo.after Cert.ReferenceIdeal.Pfx.w4 V' (Proc.devRef .tc Cert.ReferenceIdeal.main_v39)) := by
  refine ⟨?_, ?_, ?_, ?_, ?_, ?_, ?_, ?_⟩ <;>
  · after_results_simp
    try results_rw
    try simp only [h0, h1, h2, h3, h4, h5, h6, h7]
    try rw [h0]
    try rw [h1]
    try rw [h2]
    try rw [h3]
    try rw [h4]
    try rw [h5]
    try rw [h6]
    try rw [h7]
    try chain_rfl

set_option maxHeartbeats 4000000 in
theorem agree5 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_arg4) = V' (Proc.devRef .tc Cert.ReferenceIdeal.main_arg4))
    (h4 : V (Proc.devRef .tc Cert.KernelIdeal.main_v22) = V' (Proc.devRef .tc Cert.ReferenceIdeal.main_v22))
    (h5 : V (Proc.devRef .tc Cert.KernelIdeal.main_v30) = V' (Proc.devRef .tc Cert.ReferenceIdeal.main_v30))
    (h6 : V (Proc.devRef .tc Cert.KernelIdeal.main_v36) = V' (Proc.devRef .tc Cert.ReferenceIdeal.main_v36))
    (h7 : V (Proc.devRef .tc Cert.KernelIdeal.main_v39) = V' (Proc.devRef .tc Cert.ReferenceIdeal.main_v39)) :
    (StableHlo.after Cert.KernelIdeal.Pfx.w5 V (Proc.devRef .tc Cert.KernelIdeal.main_arg1) = StableHlo.after Cert.ReferenceIdeal.Pfx.w5 V' (Proc.devRef .tc Cert.ReferenceIdeal.main_arg1))
      ∧ (StableHlo.after Cert.KernelIdeal.Pfx.w5 V (Proc.devRef .tc Cert.KernelIdeal.main_arg2) = StableHlo.after Cert.ReferenceIdeal.Pfx.w5 V' (Proc.devRef .tc Cert.ReferenceIdeal.main_arg2))
      ∧ (StableHlo.after Cert.KernelIdeal.Pfx.w5 V (Proc.devRef .tc Cert.KernelIdeal.main_arg3) = StableHlo.after Cert.ReferenceIdeal.Pfx.w5 V' (Proc.devRef .tc Cert.ReferenceIdeal.main_arg3))
      ∧ (StableHlo.after Cert.KernelIdeal.Pfx.w5 V (Proc.devRef .tc Cert.KernelIdeal.main_arg4) = StableHlo.after Cert.ReferenceIdeal.Pfx.w5 V' (Proc.devRef .tc Cert.ReferenceIdeal.main_arg4))
      ∧ (StableHlo.after Cert.KernelIdeal.Pfx.w5 V (Proc.devRef .tc Cert.KernelIdeal.main_v22) = StableHlo.after Cert.ReferenceIdeal.Pfx.w5 V' (Proc.devRef .tc Cert.ReferenceIdeal.main_v22))
      ∧ (StableHlo.after Cert.KernelIdeal.Pfx.w5 V (Proc.devRef .tc Cert.KernelIdeal.main_v47) = StableHlo.after Cert.ReferenceIdeal.Pfx.w5 V' (Proc.devRef .tc Cert.ReferenceIdeal.main_v47)) := by
  refine ⟨?_, ?_, ?_, ?_, ?_, ?_⟩ <;>
  · after_results_simp
    try results_rw
    try simp only [h0, h1, h2, h3, h4, h5, h6, h7]
    try rw [h0]
    try rw [h1]
    try rw [h2]
    try rw [h3]
    try rw [h4]
    try rw [h5]
    try rw [h6]
    try rw [h7]
    try chain_rfl

end Cert.PfxAgree
end
-- ==== Proof.PfxAgree1.lean ====
import proofs.«404041_j68642167324808_1_alg».proof.Proof.PfxK
import proofs.«404041_j68642167324808_1_alg».proof.Proof.PfxR
import proofs.«404041_j68642167324808_1_alg».proof.Proof.PfxTac

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem agree6 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_arg4) = V' (Proc.devRef .tc Cert.ReferenceIdeal.main_arg4))
    (h4 : V (Proc.devRef .tc Cert.KernelIdeal.main_v22) = V' (Proc.devRef .tc Cert.ReferenceIdeal.main_v22))
    (h5 : V (Proc.devRef .tc Cert.KernelIdeal.main_v47) = V' (Proc.devRef .tc Cert.ReferenceIdeal.main_v47)) :
    (StableHlo.after Cert.KernelIdeal.Pfx.w6 V (Proc.devRef .tc Cert.KernelIdeal.main_arg1) = StableHlo.after Cert.ReferenceIdeal.Pfx.w6 V' (Proc.devRef .tc Cert.ReferenceIdeal.main_arg1))
      ∧ (StableHlo.after Cert.KernelIdeal.Pfx.w6 V (Proc.devRef .tc Cert.KernelIdeal.main_arg2) = StableHlo.after Cert.ReferenceIdeal.Pfx.w6 V' (Proc.devRef .tc Cert.ReferenceIdeal.main_arg2))
      ∧ (StableHlo.after Cert.KernelIdeal.Pfx.w6 V (Proc.devRef .tc Cert.KernelIdeal.main_arg3) = StableHlo.after Cert.ReferenceIdeal.Pfx.w6 V' (Proc.devRef .tc Cert.ReferenceIdeal.main_arg3))
      ∧ (StableHlo.after Cert.KernelIdeal.Pfx.w6 V (Proc.devRef .tc Cert.KernelIdeal.main_v22) = StableHlo.after Cert.ReferenceIdeal.Pfx.w6 V' (Proc.devRef .tc Cert.ReferenceIdeal.main_v22))
      ∧ (StableHlo.after Cert.KernelIdeal.Pfx.w6 V (Proc.devRef .tc Cert.KernelIdeal.main_v58) = StableHlo.after Cert.ReferenceIdeal.Pfx.w6 V' (Proc.devRef .tc Cert.ReferenceIdeal.main_v58))
      ∧ (StableHlo.after Cert.KernelIdeal.Pfx.w6 V (Proc.devRef .tc Cert.KernelIdeal.main_v59) = StableHlo.after Cert.ReferenceIdeal.Pfx.w6 V' (Proc.devRef .tc Cert.ReferenceIdeal.main_v59)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree7 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v58) = V' (Proc.devRef .tc Cert.ReferenceIdeal.main_v58))
    (h5 : V (Proc.devRef .tc Cert.KernelIdeal.main_v59) = V' (Proc.devRef .tc Cert.ReferenceIdeal.main_v59)) :
    (StableHlo.after Cert.KernelIdeal.Pfx.w7 V (Proc.devRef .tc Cert.KernelIdeal.main_arg1) = StableHlo.after Cert.ReferenceIdeal.Pfx.w7 V' (Proc.devRef .tc Cert.ReferenceIdeal.main_arg1))
      ∧ (StableHlo.after Cert.KernelIdeal.Pfx.w7 V (Proc.devRef .tc Cert.KernelIdeal.main_arg2) = StableHlo.after Cert.ReferenceIdeal.Pfx.w7 V' (Proc.devRef .tc Cert.ReferenceIdeal.main_arg2))
      ∧ (StableHlo.after Cert.KernelIdeal.Pfx.w7 V (Proc.devRef .tc Cert.KernelIdeal.main_arg3) = StableHlo.after Cert.ReferenceIdeal.Pfx.w7 V' (Proc.devRef .tc Cert.ReferenceIdeal.main_arg3))
      ∧ (StableHlo.after Cert.KernelIdeal.Pfx.w7 V (Proc.devRef .tc Cert.KernelIdeal.main_v22) = StableHlo.after Cert.ReferenceIdeal.Pfx.w7 V' (Proc.devRef .tc Cert.ReferenceIdeal.main_v22))
      ∧ (StableHlo.after Cert.KernelIdeal.Pfx.w7 V (Proc.devRef .tc Cert.KernelIdeal.main_v70) = StableHlo.after Cert.ReferenceIdeal.Pfx.w7 V' (Proc.devRef .tc Cert.ReferenceIdeal.main_v70))
      ∧ (StableHlo.after Cert.KernelIdeal.Pfx.w7 V (Proc.devRef .tc Cert.KernelIdeal.main_v71) = StableHlo.after Cert.ReferenceIdeal.Pfx.w7 V' (Proc.devRef .tc Cert.ReferenceIdeal.main_v71)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree8 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v70) = V' (Proc.devRef .tc Cert.ReferenceIdeal.main_v70))
    (h5 : V (Proc.devRef .tc Cert.KernelIdeal.main_v71) = V' (Proc.devRef .tc Cert.ReferenceIdeal.main_v71)) :
    (StableHlo.after Cert.KernelIdeal.Pfx.w8 V (Proc.devRef .tc Cert.KernelIdeal.main_arg1) = StableHlo.after Cert.ReferenceIdeal.Pfx.w8 V' (Proc.devRef .tc Cert.ReferenceIdeal.main_arg1))
      ∧ (StableHlo.after Cert.KernelIdeal.Pfx.w8 V (Proc.devRef .tc Cert.KernelIdeal.main_arg2) = StableHlo.after Cert.ReferenceIdeal.Pfx.w8 V' (Proc.devRef .tc Cert.ReferenceIdeal.main_arg2))
      ∧ (StableHlo.after Cert.KernelIdeal.Pfx.w8 V (Proc.devRef .tc Cert.KernelIdeal.main_arg3) = StableHlo.after Cert.ReferenceIdeal.Pfx.w8 V' (Proc.devRef .tc Cert.ReferenceIdeal.main_arg3))
      ∧ (StableHlo.after Cert.KernelIdeal.Pfx.w8 V (Proc.devRef .tc Cert.KernelIdeal.main_v22) = StableHlo.after Cert.ReferenceIdeal.Pfx.w8 V' (Proc.devRef .tc Cert.ReferenceIdeal.main_v22))
      ∧ (StableHlo.after Cert.KernelIdeal.Pfx.w8 V (Proc.devRef .tc Cert.KernelIdeal.main_v83) = StableHlo.after Cert.ReferenceIdeal.Pfx.w8 V' (Proc.devRef .tc Cert.ReferenceIdeal.main_v83)) := by
  refine ⟨?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree9 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v83) = V' (Proc.devRef .tc Cert.ReferenceIdeal.main_v83)) :
    (StableHlo.after Cert.KernelIdeal.Pfx.w9 V (Proc.devRef .tc Cert.KernelIdeal.main_arg1) = StableHlo.after Cert.ReferenceIdeal.Pfx.w9 V' (Proc.devRef .tc Cert.ReferenceIdeal.main_arg1))
      ∧ (StableHlo.after Cert.KernelIdeal.Pfx.w9 V (Proc.devRef .tc Cert.KernelIdeal.main_arg2) = StableHlo.after Cert.ReferenceIdeal.Pfx.w9 V' (Proc.devRef .tc Cert.ReferenceIdeal.main_arg2))
      ∧ (StableHlo.after Cert.KernelIdeal.Pfx.w9 V (Proc.devRef .tc Cert.KernelIdeal.main_arg3) = StableHlo.after Cert.ReferenceIdeal.Pfx.w9 V' (Proc.devRef .tc Cert.ReferenceIdeal.main_arg3))
      ∧ (StableHlo.after Cert.KernelIdeal.Pfx.w9 V (Proc.devRef .tc Cert.KernelIdeal.main_v22) = StableHlo.after Cert.ReferenceIdeal.Pfx.w9 V' (Proc.devRef .tc Cert.ReferenceIdeal.main_v22))
      ∧ (StableHlo.after Cert.KernelIdeal.Pfx.w9 V (Proc.devRef .tc Cert.KernelIdeal.main_v95) = StableHlo.after Cert.ReferenceIdeal.Pfx.w9 V' (Proc.devRef .tc Cert.ReferenceIdeal.main_v95)) := by
  refine ⟨?_, ?_, ?_, ?_, ?_⟩ <;>
  · after_results_simp
    try results_rw
    try simp only [h0, h1, h2, h3, h4]
    try rw [h0]
    try rw [h1]
    try rw [h2]
    try rw [h3]
    try rw [h4]
    try chain_rfl

set_option maxHeartbeats 4000000 in
theorem agree10 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v95) = V' (Proc.devRef .tc Cert.ReferenceIdeal.main_v95)) :
    (StableHlo.after Cert.KernelIdeal.Pfx.w10 V (Proc.devRef .tc Cert.KernelIdeal.main_arg1) = StableHlo.after Cert.ReferenceIdeal.Pfx.w10 V' (Proc.devRef .tc Cert.ReferenceIdeal.main_arg1))
      ∧ (StableHlo.after Cert.KernelIdeal.Pfx.w10 V (Proc.devRef .tc Cert.KernelIdeal.main_arg2) = StableHlo.after Cert.ReferenceIdeal.Pfx.w10 V' (Proc.devRef .tc Cert.ReferenceIdeal.main_arg2))
      ∧ (StableHlo.after Cert.KernelIdeal.Pfx.w10 V (Proc.devRef .tc Cert.KernelIdeal.main_arg3) = StableHlo.after Cert.ReferenceIdeal.Pfx.w10 V' (Proc.devRef .tc Cert.ReferenceIdeal.main_arg3))
      ∧ (StableHlo.after Cert.KernelIdeal.Pfx.w10 V (Proc.devRef .tc Cert.KernelIdeal.main_v107) = StableHlo.after Cert.ReferenceIdeal.Pfx.w10 V' (Proc.devRef .tc Cert.ReferenceIdeal.main_v107))
      ∧ (StableHlo.after Cert.KernelIdeal.Pfx.w10 V (Proc.devRef .tc Cert.KernelIdeal.main_v22) = StableHlo.after Cert.ReferenceIdeal.Pfx.w10 V' (Proc.devRef .tc Cert.ReferenceIdeal.main_v22)) := by
  refine ⟨?_, ?_, ?_, ?_, ?_⟩ <;>
  · after_results_simp
    try results_rw
    try simp only [h0, h1, h2, h3, h4]
    try rw [h0]
    try rw [h1]
    try rw [h2]
    try rw [h3]
    try rw [h4]
    try chain_rfl

set_option maxHeartbeats 4000000 in
theorem agree11 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v107) = V' (Proc.devRef .tc Cert.ReferenceIdeal.main_v107))
    (h4 : V (Proc.devRef .tc Cert.KernelIdeal.main_v22) = V' (Proc.devRef .tc Cert.ReferenceIdeal.main_v22)) :
    (StableHlo.after Cert.KernelIdeal.Pfx.w11 V (Proc.devRef .tc Cert.KernelIdeal.main_arg1) = StableHlo.after Cert.ReferenceIdeal.Pfx.w11 V' (Proc.devRef .tc Cert.ReferenceIdeal.main_arg1))
      ∧ (StableHlo.after Cert.KernelIdeal.Pfx.w11 V (Proc.devRef .tc Cert.KernelIdeal.main_arg2) = StableHlo.after Cert.ReferenceIdeal.Pfx.w11 V' (Proc.devRef .tc Cert.ReferenceIdeal.main_arg2))
      ∧ (StableHlo.after Cert.KernelIdeal.Pfx.w11 V (Proc.devRef .tc Cert.KernelIdeal.main_arg3) = StableHlo.after Cert.ReferenceIdeal.Pfx.w11 V' (Proc.devRef .tc Cert.ReferenceIdeal.main_arg3))
      ∧ (StableHlo.after Cert.KernelIdeal.Pfx.w11 V (Proc.devRef .tc Cert.KernelIdeal.main_v118) = StableHlo.after Cert.ReferenceIdeal.Pfx.w11 V' (Proc.devRef .tc Cert.ReferenceIdeal.main_v118))
      ∧ (StableHlo.after Cert.KernelIdeal.Pfx.w11 V (Proc.devRef .tc Cert.KernelIdeal.main_v119) = StableHlo.after Cert.ReferenceIdeal.Pfx.w11 V' (Proc.devRef .tc Cert.ReferenceIdeal.main_v119))
      ∧ (StableHlo.after Cert.KernelIdeal.Pfx.w11 V (Proc.devRef .tc Cert.KernelIdeal.main_v22) = StableHlo.after Cert.ReferenceIdeal.Pfx.w11 V' (Proc.devRef .tc Cert.ReferenceIdeal.main_v22)) := by
  refine ⟨?_, ?_, ?_, ?_, ?_, ?_⟩ <;>
  · after_results_simp
    try results_rw
    try simp only [h0, h1, h2, h3, h4]
    try rw [h0]
    try rw [h1]
    try rw [h2]
    try rw [h3]
    try rw [h4]
    try chain_rfl

end Cert.PfxAgree
end
-- ==== Proof.PfxAgree2.lean ====
import proofs.«404041_j68642167324808_1_alg».proof.Proof.PfxK
import proofs.«404041_j68642167324808_1_alg».proof.Proof.PfxR
import proofs.«404041_j68642167324808_1_alg».proof.Proof.PfxTac

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem agree12 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v118) = V' (Proc.devRef .tc Cert.ReferenceIdeal.main_v118))
    (h4 : V (Proc.devRef .tc Cert.KernelIdeal.main_v119) = V' (Proc.devRef .tc Cert.ReferenceIdeal.main_v119))
    (h5 : V (Proc.devRef .tc Cert.KernelIdeal.main_v22) = V' (Proc.devRef .tc Cert.ReferenceIdeal.main_v22)) :
    (StableHlo.after Cert.KernelIdeal.Pfx.w12 V (Proc.devRef .tc Cert.KernelIdeal.main_arg1) = StableHlo.after Cert.ReferenceIdeal.Pfx.w12 V' (Proc.devRef .tc Cert.ReferenceIdeal.main_arg1))
      ∧ (StableHlo.after Cert.KernelIdeal.Pfx.w12 V (Proc.devRef .tc Cert.KernelIdeal.main_arg2) = StableHlo.after Cert.ReferenceIdeal.Pfx.w12 V' (Proc.devRef .tc Cert.ReferenceIdeal.main_arg2))
      ∧ (StableHlo.after Cert.KernelIdeal.Pfx.w12 V (Proc.devRef .tc Cert.KernelIdeal.main_arg3) = StableHlo.after Cert.ReferenceIdeal.Pfx.w12 V' (Proc.devRef .tc Cert.ReferenceIdeal.main_arg3))
      ∧ (StableHlo.after Cert.KernelIdeal.Pfx.w12 V (Proc.devRef .tc Cert.KernelIdeal.main_v129) = StableHlo.after Cert.ReferenceIdeal.Pfx.w12 V' (Proc.devRef .tc Cert.ReferenceIdeal.main_v129))
      ∧ (StableHlo.after Cert.KernelIdeal.Pfx.w12 V (Proc.devRef .tc Cert.KernelIdeal.main_v131) = StableHlo.after Cert.ReferenceIdeal.Pfx.w12 V' (Proc.devRef .tc Cert.ReferenceIdeal.main_v131))
      ∧ (StableHlo.after Cert.KernelIdeal.Pfx.w12 V (Proc.devRef .tc Cert.KernelIdeal.main_v22) = StableHlo.after Cert.ReferenceIdeal.Pfx.w12 V' (Proc.devRef .tc Cert.ReferenceIdeal.main_v22)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree13 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v129) = V' (Proc.devRef .tc Cert.ReferenceIdeal.main_v129))
    (h4 : V (Proc.devRef .tc Cert.KernelIdeal.main_v131) = V' (Proc.devRef .tc Cert.ReferenceIdeal.main_v131))
    (h5 : V (Proc.devRef .tc Cert.KernelIdeal.main_v22) = V' (Proc.devRef .tc Cert.ReferenceIdeal.main_v22)) :
    (StableHlo.after Cert.KernelIdeal.Pfx.w13 V (Proc.devRef .tc Cert.KernelIdeal.main_arg1) = StableHlo.after Cert.ReferenceIdeal.Pfx.w13 V' (Proc.devRef .tc Cert.ReferenceIdeal.main_arg1))
      ∧ (StableHlo.after Cert.KernelIdeal.Pfx.w13 V (Proc.devRef .tc Cert.KernelIdeal.main_arg2) = StableHlo.after Cert.ReferenceIdeal.Pfx.w13 V' (Proc.devRef .tc Cert.ReferenceIdeal.main_arg2))
      ∧ (StableHlo.after Cert.KernelIdeal.Pfx.w13 V (Proc.devRef .tc Cert.KernelIdeal.main_arg3) = StableHlo.after Cert.ReferenceIdeal.Pfx.w13 V' (Proc.devRef .tc Cert.ReferenceIdeal.main_arg3))
      ∧ (StableHlo.after Cert.KernelIdeal.Pfx.w13 V (Proc.devRef .tc Cert.KernelIdeal.main_v142) = StableHlo.after Cert.ReferenceIdeal.Pfx.w13 V' (Proc.devRef .tc Cert.ReferenceIdeal.main_v142))
      ∧ (StableHlo.after Cert.KernelIdeal.Pfx.w13 V (Proc.devRef .tc Cert.KernelIdeal.main_v143) = StableHlo.after Cert.ReferenceIdeal.Pfx.w13 V' (Proc.devRef .tc Cert.ReferenceIdeal.main_v143))
      ∧ (StableHlo.after Cert.KernelIdeal.Pfx.w13 V (Proc.devRef .tc Cert.KernelIdeal.main_v22) = StableHlo.after Cert.ReferenceIdeal.Pfx.w13 V' (Proc.devRef .tc Cert.ReferenceIdeal.main_v22)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree14 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v142) = V' (Proc.devRef .tc Cert.ReferenceIdeal.main_v142))
    (h4 : V (Proc.devRef .tc Cert.KernelIdeal.main_v143) = V' (Proc.devRef .tc Cert.ReferenceIdeal.main_v143))
    (h5 : V (Proc.devRef .tc Cert.KernelIdeal.main_v22) = V' (Proc.devRef .tc Cert.ReferenceIdeal.main_v22)) :
    (StableHlo.after Cert.KernelIdeal.Pfx.w14 V (Proc.devRef .tc Cert.KernelIdeal.main_arg1) = StableHlo.after Cert.ReferenceIdeal.Pfx.w14 V' (Proc.devRef .tc Cert.ReferenceIdeal.main_arg1))
      ∧ (StableHlo.after Cert.KernelIdeal.Pfx.w14 V (Proc.devRef .tc Cert.KernelIdeal.main_arg2) = StableHlo.after Cert.ReferenceIdeal.Pfx.w14 V' (Proc.devRef .tc Cert.ReferenceIdeal.main_arg2))
      ∧ (StableHlo.after Cert.KernelIdeal.Pfx.w14 V (Proc.devRef .tc Cert.KernelIdeal.main_arg3) = StableHlo.after Cert.ReferenceIdeal.Pfx.w14 V' (Proc.devRef .tc Cert.ReferenceIdeal.main_arg3))
      ∧ (StableHlo.after Cert.KernelIdeal.Pfx.w14 V (Proc.devRef .tc Cert.KernelIdeal.main_v153) = StableHlo.after Cert.ReferenceIdeal.Pfx.w14 V' (Proc.devRef .tc Cert.ReferenceIdeal.main_v153))
      ∧ (StableHlo.after Cert.KernelIdeal.Pfx.w14 V (Proc.devRef .tc Cert.KernelIdeal.main_v155) = StableHlo.after Cert.ReferenceIdeal.Pfx.w14 V' (Proc.devRef .tc Cert.ReferenceIdeal.main_v155))
      ∧ (StableHlo.after Cert.KernelIdeal.Pfx.w14 V (Proc.devRef .tc Cert.KernelIdeal.main_v22) = StableHlo.after Cert.ReferenceIdeal.Pfx.w14 V' (Proc.devRef .tc Cert.ReferenceIdeal.main_v22)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree15 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v153) = V' (Proc.devRef .tc Cert.ReferenceIdeal.main_v153))
    (h4 : V (Proc.devRef .tc Cert.KernelIdeal.main_v155) = V' (Proc.devRef .tc Cert.ReferenceIdeal.main_v155))
    (h5 : V (Proc.devRef .tc Cert.KernelIdeal.main_v22) = V' (Proc.devRef .tc Cert.ReferenceIdeal.main_v22)) :
    (StableHlo.after Cert.KernelIdeal.Pfx.w15 V (Proc.devRef .tc Cert.KernelIdeal.main_arg1) = StableHlo.after Cert.ReferenceIdeal.Pfx.w15 V' (Proc.devRef .tc Cert.ReferenceIdeal.main_arg1))
      ∧ (StableHlo.after Cert.KernelIdeal.Pfx.w15 V (Proc.devRef .tc Cert.KernelIdeal.main_arg2) = StableHlo.after Cert.ReferenceIdeal.Pfx.w15 V' (Proc.devRef .tc Cert.ReferenceIdeal.main_arg2))
      ∧ (StableHlo.after Cert.KernelIdeal.Pfx.w15 V (Proc.devRef .tc Cert.KernelIdeal.main_arg3) = StableHlo.after Cert.ReferenceIdeal.Pfx.w15 V' (Proc.devRef .tc Cert.ReferenceIdeal.main_arg3))
      ∧ (StableHlo.after Cert.KernelIdeal.Pfx.w15 V (Proc.devRef .tc Cert.KernelIdeal.main_v164) = StableHlo.after Cert.ReferenceIdeal.Pfx.w15 V' (Proc.devRef .tc Cert.ReferenceIdeal.main_v164))
      ∧ (StableHlo.after Cert.KernelIdeal.Pfx.w15 V (Proc.devRef .tc Cert.KernelIdeal.main_v166) = StableHlo.after Cert.ReferenceIdeal.Pfx.w15 V' (Proc.devRef .tc Cert.ReferenceIdeal.main_v166))
      ∧ (StableHlo.after Cert.KernelIdeal.Pfx.w15 V (Proc.devRef .tc Cert.KernelIdeal.main_v167) = StableHlo.after Cert.ReferenceIdeal.Pfx.w15 V' (Proc.devRef .tc Cert.ReferenceIdeal.main_v167))
      ∧ (StableHlo.after Cert.KernelIdeal.Pfx.w15 V (Proc.devRef .tc Cert.KernelIdeal.main_v22) = StableHlo.after Cert.ReferenceIdeal.Pfx.w15 V' (Proc.devRef .tc Cert.ReferenceIdeal.main_v22)) := by
  refine ⟨?_, ?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree16 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v164) = V' (Proc.devRef .tc Cert.ReferenceIdeal.main_v164))
    (h4 : V (Proc.devRef .tc Cert.KernelIdeal.main_v166) = V' (Proc.devRef .tc Cert.ReferenceIdeal.main_v166))
    (h5 : V (Proc.devRef .tc Cert.KernelIdeal.main_v167) = V' (Proc.devRef .tc Cert.ReferenceIdeal.main_v167))
    (h6 : V (Proc.devRef .tc Cert.KernelIdeal.main_v22) = V' (Proc.devRef .tc Cert.ReferenceIdeal.main_v22)) :
    (StableHlo.after Cert.KernelIdeal.Pfx.w16 V (Proc.devRef .tc Cert.KernelIdeal.main_arg1) = StableHlo.after Cert.ReferenceIdeal.Pfx.w16 V' (Proc.devRef .tc Cert.ReferenceIdeal.main_arg1))
      ∧ (StableHlo.after Cert.KernelIdeal.Pfx.w16 V (Proc.devRef .tc Cert.KernelIdeal.main_arg2) = StableHlo.after Cert.ReferenceIdeal.Pfx.w16 V' (Proc.devRef .tc Cert.ReferenceIdeal.main_arg2))
      ∧ (StableHlo.after Cert.KernelIdeal.Pfx.w16 V (Proc.devRef .tc Cert.KernelIdeal.main_arg3) = StableHlo.after Cert.ReferenceIdeal.Pfx.w16 V' (Proc.devRef .tc Cert.ReferenceIdeal.main_arg3))
      ∧ (StableHlo.after Cert.KernelIdeal.Pfx.w16 V (Proc.devRef .tc Cert.KernelIdeal.main_v178) = StableHlo.after Cert.ReferenceIdeal.Pfx.w16 V' (Proc.devRef .tc Cert.ReferenceIdeal.main_v178))
      ∧ (StableHlo.after Cert.KernelIdeal.Pfx.w16 V (Proc.devRef .tc Cert.KernelIdeal.main_v179) = StableHlo.after Cert.ReferenceIdeal.Pfx.w16 V' (Proc.devRef .tc Cert.ReferenceIdeal.main_v179))
      ∧ (StableHlo.after Cert.KernelIdeal.Pfx.w16 V (Proc.devRef .tc Cert.KernelIdeal.main_v22) = StableHlo.after Cert.ReferenceIdeal.Pfx.w16 V' (Proc.devRef .tc Cert.ReferenceIdeal.main_v22)) := by
  refine ⟨?_, ?_, ?_, ?_, ?_, ?_⟩ <;>
  · after_results_simp
    try results_rw
    try simp only [h0, h1, h2, h3, h4, h5, h6]
    try rw [h0]
    try rw [h1]
    try rw [h2]
    try rw [h3]
    try rw [h4]
    try rw [h5]
    try rw [h6]
    try chain_rfl

set_option maxHeartbeats 4000000 in
theorem agree17 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v178) = V' (Proc.devRef .tc Cert.ReferenceIdeal.main_v178))
    (h4 : V (Proc.devRef .tc Cert.KernelIdeal.main_v179) = V' (Proc.devRef .tc Cert.ReferenceIdeal.main_v179))
    (h5 : V (Proc.devRef .tc Cert.KernelIdeal.main_v22) = V' (Proc.devRef .tc Cert.ReferenceIdeal.main_v22)) :
    (StableHlo.after Cert.KernelIdeal.Pfx.w17 V (Proc.devRef .tc Cert.KernelIdeal.main_arg1) = StableHlo.after Cert.ReferenceIdeal.Pfx.w17 V' (Proc.devRef .tc Cert.ReferenceIdeal.main_arg1))
      ∧ (StableHlo.after Cert.KernelIdeal.Pfx.w17 V (Proc.devRef .tc Cert.KernelIdeal.main_arg2) = StableHlo.after Cert.ReferenceIdeal.Pfx.w17 V' (Proc.devRef .tc Cert.ReferenceIdeal.main_arg2))
      ∧ (StableHlo.after Cert.KernelIdeal.Pfx.w17 V (Proc.devRef .tc Cert.KernelIdeal.main_arg3) = StableHlo.after Cert.ReferenceIdeal.Pfx.w17 V' (Proc.devRef .tc Cert.ReferenceIdeal.main_arg3))
      ∧ (StableHlo.after Cert.KernelIdeal.Pfx.w17 V (Proc.devRef .tc Cert.KernelIdeal.main_v189) = StableHlo.after Cert.ReferenceIdeal.Pfx.w17 V' (Proc.devRef .tc Cert.ReferenceIdeal.main_v189))
      ∧ (StableHlo.after Cert.KernelIdeal.Pfx.w17 V (Proc.devRef .tc Cert.KernelIdeal.main_v190) = StableHlo.after Cert.ReferenceIdeal.Pfx.w17 V' (Proc.devRef .tc Cert.ReferenceIdeal.main_v190))
      ∧ (StableHlo.after Cert.KernelIdeal.Pfx.w17 V (Proc.devRef .tc Cert.KernelIdeal.main_v22) = StableHlo.after Cert.ReferenceIdeal.Pfx.w17 V' (Proc.devRef .tc Cert.ReferenceIdeal.main_v22)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

end Cert.PfxAgree
end
-- ==== Proof.PfxAgree3.lean ====
import proofs.«404041_j68642167324808_1_alg».proof.Proof.PfxK
import proofs.«404041_j68642167324808_1_alg».proof.Proof.PfxR
import proofs.«404041_j68642167324808_1_alg».proof.Proof.PfxTac

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem agree18 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v189) = V' (Proc.devRef .tc Cert.ReferenceIdeal.main_v189))
    (h4 : V (Proc.devRef .tc Cert.KernelIdeal.main_v190) = V' (Proc.devRef .tc Cert.ReferenceIdeal.main_v190))
    (h5 : V (Proc.devRef .tc Cert.KernelIdeal.main_v22) = V' (Proc.devRef .tc Cert.ReferenceIdeal.main_v22)) :
    (StableHlo.after Cert.KernelIdeal.Pfx.w18 V (Proc.devRef .tc Cert.KernelIdeal.main_arg1) = StableHlo.after Cert.ReferenceIdeal.Pfx.w18 V' (Proc.devRef .tc Cert.ReferenceIdeal.main_arg1))
      ∧ (StableHlo.after Cert.KernelIdeal.Pfx.w18 V (Proc.devRef .tc Cert.KernelIdeal.main_arg2) = StableHlo.after Cert.ReferenceIdeal.Pfx.w18 V' (Proc.devRef .tc Cert.ReferenceIdeal.main_arg2))
      ∧ (StableHlo.after Cert.KernelIdeal.Pfx.w18 V (Proc.devRef .tc Cert.KernelIdeal.main_arg3) = StableHlo.after Cert.ReferenceIdeal.Pfx.w18 V' (Proc.devRef .tc Cert.ReferenceIdeal.main_arg3))
      ∧ (StableHlo.after Cert.KernelIdeal.Pfx.w18 V (Proc.devRef .tc Cert.KernelIdeal.main_v200) = StableHlo.after Cert.ReferenceIdeal.Pfx.w18 V' (Proc.devRef .tc Cert.ReferenceIdeal.main_v200))
      ∧ (StableHlo.after Cert.KernelIdeal.Pfx.w18 V (Proc.devRef .tc Cert.KernelIdeal.main_v202) = StableHlo.after Cert.ReferenceIdeal.Pfx.w18 V' (Proc.devRef .tc Cert.ReferenceIdeal.main_v202))
      ∧ (StableHlo.after Cert.KernelIdeal.Pfx.w18 V (Proc.devRef .tc Cert.KernelIdeal.main_v22) = StableHlo.after Cert.ReferenceIdeal.Pfx.w18 V' (Proc.devRef .tc Cert.ReferenceIdeal.main_v22)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree19 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v200) = V' (Proc.devRef .tc Cert.ReferenceIdeal.main_v200))
    (h4 : V (Proc.devRef .tc Cert.KernelIdeal.main_v202) = V' (Proc.devRef .tc Cert.ReferenceIdeal.main_v202))
    (h5 : V (Proc.devRef .tc Cert.KernelIdeal.main_v22) = V' (Proc.devRef .tc Cert.ReferenceIdeal.main_v22)) :
    (StableHlo.after Cert.KernelIdeal.Pfx.w19 V (Proc.devRef .tc Cert.KernelIdeal.main_arg1) = StableHlo.after Cert.ReferenceIdeal.Pfx.w19 V' (Proc.devRef .tc Cert.ReferenceIdeal.main_arg1))
      ∧ (StableHlo.after Cert.KernelIdeal.Pfx.w19 V (Proc.devRef .tc Cert.KernelIdeal.main_arg2) = StableHlo.after Cert.ReferenceIdeal.Pfx.w19 V' (Proc.devRef .tc Cert.ReferenceIdeal.main_arg2))
      ∧ (StableHlo.after Cert.KernelIdeal.Pfx.w19 V (Proc.devRef .tc Cert.KernelIdeal.main_arg3) = StableHlo.after Cert.ReferenceIdeal.Pfx.w19 V' (Proc.devRef .tc Cert.ReferenceIdeal.main_arg3))
      ∧ (StableHlo.after Cert.KernelIdeal.Pfx.w19 V (Proc.devRef .tc Cert.KernelIdeal.main_v211) = StableHlo.after Cert.ReferenceIdeal.Pfx.w19 V' (Proc.devRef .tc Cert.ReferenceIdeal.main_v211))
      ∧ (StableHlo.after Cert.KernelIdeal.Pfx.w19 V (Proc.devRef .tc Cert.KernelIdeal.main_v213) = StableHlo.after Cert.ReferenceIdeal.Pfx.w19 V' (Proc.devRef .tc Cert.ReferenceIdeal.main_v213))
      ∧ (StableHlo.after Cert.KernelIdeal.Pfx.w19 V (Proc.devRef .tc Cert.KernelIdeal.main_v214) = StableHlo.after Cert.ReferenceIdeal.Pfx.w19 V' (Proc.devRef .tc Cert.ReferenceIdeal.main_v214))
      ∧ (StableHlo.after Cert.KernelIdeal.Pfx.w19 V (Proc.devRef .tc Cert.KernelIdeal.main_v22) = StableHlo.after Cert.ReferenceIdeal.Pfx.w19 V' (Proc.devRef .tc Cert.ReferenceIdeal.main_v22)) := by
  refine ⟨?_, ?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree20 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v211) = V' (Proc.devRef .tc Cert.ReferenceIdeal.main_v211))
    (h4 : V (Proc.devRef .tc Cert.KernelIdeal.main_v213) = V' (Proc.devRef .tc Cert.ReferenceIdeal.main_v213))
    (h5 : V (Proc.devRef .tc Cert.KernelIdeal.main_v214) = V' (Proc.devRef .tc Cert.ReferenceIdeal.main_v214))
    (h6 : V (Proc.devRef .tc Cert.KernelIdeal.main_v22) = V' (Proc.devRef .tc Cert.ReferenceIdeal.main_v22)) :
    (StableHlo.after Cert.KernelIdeal.Pfx.w20 V (Proc.devRef .tc Cert.KernelIdeal.main_arg1) = StableHlo.after Cert.ReferenceIdeal.Pfx.w20 V' (Proc.devRef .tc Cert.ReferenceIdeal.main_arg1))
      ∧ (StableHlo.after Cert.KernelIdeal.Pfx.w20 V (Proc.devRef .tc Cert.KernelIdeal.main_arg2) = StableHlo.after Cert.ReferenceIdeal.Pfx.w20 V' (Proc.devRef .tc Cert.ReferenceIdeal.main_arg2))
      ∧ (StableHlo.after Cert.KernelIdeal.Pfx.w20 V (Proc.devRef .tc Cert.KernelIdeal.main_arg3) = StableHlo.after Cert.ReferenceIdeal.Pfx.w20 V' (Proc.devRef .tc Cert.ReferenceIdeal.main_arg3))
      ∧ (StableHlo.after Cert.KernelIdeal.Pfx.w20 V (Proc.devRef .tc Cert.KernelIdeal.main_v22) = StableHlo.after Cert.ReferenceIdeal.Pfx.w20 V' (Proc.devRef .tc Cert.ReferenceIdeal.main_v22))
      ∧ (StableHlo.after Cert.KernelIdeal.Pfx.w20 V (Proc.devRef .tc Cert.KernelIdeal.main_v225) = StableHlo.after Cert.ReferenceIdeal.Pfx.w20 V' (Proc.devRef .tc Cert.ReferenceIdeal.main_v225))
      ∧ (StableHlo.after Cert.KernelIdeal.Pfx.w20 V (Proc.devRef .tc Cert.KernelIdeal.main_v226) = StableHlo.after Cert.ReferenceIdeal.Pfx.w20 V' (Proc.devRef .tc Cert.ReferenceIdeal.main_v226)) := by
  refine ⟨?_, ?_, ?_, ?_, ?_, ?_⟩ <;>
  · after_results_simp
    try results_rw
    try simp only [h0, h1, h2, h3, h4, h5, h6]
    try rw [h0]
    try rw [h1]
    try rw [h2]
    try rw [h3]
    try rw [h4]
    try rw [h5]
    try rw [h6]
    try chain_rfl

set_option maxHeartbeats 4000000 in
theorem agree21 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v225) = V' (Proc.devRef .tc Cert.ReferenceIdeal.main_v225))
    (h5 : V (Proc.devRef .tc Cert.KernelIdeal.main_v226) = V' (Proc.devRef .tc Cert.ReferenceIdeal.main_v226)) :
    (StableHlo.after Cert.KernelIdeal.Pfx.w21 V (Proc.devRef .tc Cert.KernelIdeal.main_arg1) = StableHlo.after Cert.ReferenceIdeal.Pfx.w21 V' (Proc.devRef .tc Cert.ReferenceIdeal.main_arg1))
      ∧ (StableHlo.after Cert.KernelIdeal.Pfx.w21 V (Proc.devRef .tc Cert.KernelIdeal.main_arg2) = StableHlo.after Cert.ReferenceIdeal.Pfx.w21 V' (Proc.devRef .tc Cert.ReferenceIdeal.main_arg2))
      ∧ (StableHlo.after Cert.KernelIdeal.Pfx.w21 V (Proc.devRef .tc Cert.KernelIdeal.main_arg3) = StableHlo.after Cert.ReferenceIdeal.Pfx.w21 V' (Proc.devRef .tc Cert.ReferenceIdeal.main_arg3))
      ∧ (StableHlo.after Cert.KernelIdeal.Pfx.w21 V (Proc.devRef .tc Cert.KernelIdeal.main_v22) = StableHlo.after Cert.ReferenceIdeal.Pfx.w21 V' (Proc.devRef .tc Cert.ReferenceIdeal.main_v22))
      ∧ (StableHlo.after Cert.KernelIdeal.Pfx.w21 V (Proc.devRef .tc Cert.KernelIdeal.main_v237) = StableHlo.after Cert.ReferenceIdeal.Pfx.w21 V' (Proc.devRef .tc Cert.ReferenceIdeal.main_v237))
      ∧ (StableHlo.after Cert.KernelIdeal.Pfx.w21 V (Proc.devRef .tc Cert.KernelIdeal.main_v238) = StableHlo.after Cert.ReferenceIdeal.Pfx.w21 V' (Proc.devRef .tc Cert.ReferenceIdeal.main_v238)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree22 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v237) = V' (Proc.devRef .tc Cert.ReferenceIdeal.main_v237))
    (h5 : V (Proc.devRef .tc Cert.KernelIdeal.main_v238) = V' (Proc.devRef .tc Cert.ReferenceIdeal.main_v238)) :
    (StableHlo.after Cert.KernelIdeal.Pfx.w22 V (Proc.devRef .tc Cert.KernelIdeal.main_arg1) = StableHlo.after Cert.ReferenceIdeal.Pfx.w22 V' (Proc.devRef .tc Cert.ReferenceIdeal.main_arg1))
      ∧ (StableHlo.after Cert.KernelIdeal.Pfx.w22 V (Proc.devRef .tc Cert.KernelIdeal.main_arg2) = StableHlo.after Cert.ReferenceIdeal.Pfx.w22 V' (Proc.devRef .tc Cert.ReferenceIdeal.main_arg2))
      ∧ (StableHlo.after Cert.KernelIdeal.Pfx.w22 V (Proc.devRef .tc Cert.KernelIdeal.main_arg3) = StableHlo.after Cert.ReferenceIdeal.Pfx.w22 V' (Proc.devRef .tc Cert.ReferenceIdeal.main_arg3))
      ∧ (StableHlo.after Cert.KernelIdeal.Pfx.w22 V (Proc.devRef .tc Cert.KernelIdeal.main_v22) = StableHlo.after Cert.ReferenceIdeal.Pfx.w22 V' (Proc.devRef .tc Cert.ReferenceIdeal.main_v22))
      ∧ (StableHlo.after Cert.KernelIdeal.Pfx.w22 V (Proc.devRef .tc Cert.KernelIdeal.main_v249) = StableHlo.after Cert.ReferenceIdeal.Pfx.w22 V' (Proc.devRef .tc Cert.ReferenceIdeal.main_v249))
      ∧ (StableHlo.after Cert.KernelIdeal.Pfx.w22 V (Proc.devRef .tc Cert.KernelIdeal.main_v250) = StableHlo.after Cert.ReferenceIdeal.Pfx.w22 V' (Proc.devRef .tc Cert.ReferenceIdeal.main_v250)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree23 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v249) = V' (Proc.devRef .tc Cert.ReferenceIdeal.main_v249))
    (h5 : V (Proc.devRef .tc Cert.KernelIdeal.main_v250) = V' (Proc.devRef .tc Cert.ReferenceIdeal.main_v250)) :
    (StableHlo.after Cert.KernelIdeal.Pfx.w23 V (Proc.devRef .tc Cert.KernelIdeal.main_arg1) = StableHlo.after Cert.ReferenceIdeal.Pfx.w23 V' (Proc.devRef .tc Cert.ReferenceIdeal.main_arg1))
      ∧ (StableHlo.after Cert.KernelIdeal.Pfx.w23 V (Proc.devRef .tc Cert.KernelIdeal.main_arg2) = StableHlo.after Cert.ReferenceIdeal.Pfx.w23 V' (Proc.devRef .tc Cert.ReferenceIdeal.main_arg2))
      ∧ (StableHlo.after Cert.KernelIdeal.Pfx.w23 V (Proc.devRef .tc Cert.KernelIdeal.main_arg3) = StableHlo.after Cert.ReferenceIdeal.Pfx.w23 V' (Proc.devRef .tc Cert.ReferenceIdeal.main_arg3))
      ∧ (StableHlo.after Cert.KernelIdeal.Pfx.w23 V (Proc.devRef .tc Cert.KernelIdeal.main_v22) = StableHlo.after Cert.ReferenceIdeal.Pfx.w23 V' (Proc.devRef .tc Cert.ReferenceIdeal.main_v22))
      ∧ (StableHlo.after Cert.KernelIdeal.Pfx.w23 V (Proc.devRef .tc Cert.KernelIdeal.main_v262) = StableHlo.after Cert.ReferenceIdeal.Pfx.w23 V' (Proc.devRef .tc Cert.ReferenceIdeal.main_v262)) := by
  refine ⟨?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

end Cert.PfxAgree
end
-- ==== Proof.PfxAgree4.lean ====
import proofs.«404041_j68642167324808_1_alg».proof.Proof.PfxK
import proofs.«404041_j68642167324808_1_alg».proof.Proof.PfxR
import proofs.«404041_j68642167324808_1_alg».proof.Proof.PfxTac

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem agree24 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v262) = V' (Proc.devRef .tc Cert.ReferenceIdeal.main_v262)) :
    (StableHlo.after Cert.KernelIdeal.Pfx.w24 V (Proc.devRef .tc Cert.KernelIdeal.main_arg1) = StableHlo.after Cert.ReferenceIdeal.Pfx.w24 V' (Proc.devRef .tc Cert.ReferenceIdeal.main_arg1))
      ∧ (StableHlo.after Cert.KernelIdeal.Pfx.w24 V (Proc.devRef .tc Cert.KernelIdeal.main_arg2) = StableHlo.after Cert.ReferenceIdeal.Pfx.w24 V' (Proc.devRef .tc Cert.ReferenceIdeal.main_arg2))
      ∧ (StableHlo.after Cert.KernelIdeal.Pfx.w24 V (Proc.devRef .tc Cert.KernelIdeal.main_arg3) = StableHlo.after Cert.ReferenceIdeal.Pfx.w24 V' (Proc.devRef .tc Cert.ReferenceIdeal.main_arg3))
      ∧ (StableHlo.after Cert.KernelIdeal.Pfx.w24 V (Proc.devRef .tc Cert.KernelIdeal.main_v22) = StableHlo.after Cert.ReferenceIdeal.Pfx.w24 V' (Proc.devRef .tc Cert.ReferenceIdeal.main_v22))
      ∧ (StableHlo.after Cert.KernelIdeal.Pfx.w24 V (Proc.devRef .tc Cert.KernelIdeal.main_v274) = StableHlo.after Cert.ReferenceIdeal.Pfx.w24 V' (Proc.devRef .tc Cert.ReferenceIdeal.main_v274)) := by
  refine ⟨?_, ?_, ?_, ?_, ?_⟩ <;>
  · after_results_simp
    try results_rw
    try simp only [h0, h1, h2, h3, h4]
    try rw [h0]
    try rw [h1]
    try rw [h2]
    try rw [h3]
    try rw [h4]
    try chain_rfl

set_option maxHeartbeats 4000000 in
theorem agree25 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v274) = V' (Proc.devRef .tc Cert.ReferenceIdeal.main_v274)) :
    (StableHlo.after Cert.KernelIdeal.Pfx.w25 V (Proc.devRef .tc Cert.KernelIdeal.main_arg1) = StableHlo.after Cert.ReferenceIdeal.Pfx.w25 V' (Proc.devRef .tc Cert.ReferenceIdeal.main_arg1))
      ∧ (StableHlo.after Cert.KernelIdeal.Pfx.w25 V (Proc.devRef .tc Cert.KernelIdeal.main_arg2) = StableHlo.after Cert.ReferenceIdeal.Pfx.w25 V' (Proc.devRef .tc Cert.ReferenceIdeal.main_arg2))
      ∧ (StableHlo.after Cert.KernelIdeal.Pfx.w25 V (Proc.devRef .tc Cert.KernelIdeal.main_arg3) = StableHlo.after Cert.ReferenceIdeal.Pfx.w25 V' (Proc.devRef .tc Cert.ReferenceIdeal.main_arg3))
      ∧ (StableHlo.after Cert.KernelIdeal.Pfx.w25 V (Proc.devRef .tc Cert.KernelIdeal.main_v22) = StableHlo.after Cert.ReferenceIdeal.Pfx.w25 V' (Proc.devRef .tc Cert.ReferenceIdeal.main_v22))
      ∧ (StableHlo.after Cert.KernelIdeal.Pfx.w25 V (Proc.devRef .tc Cert.KernelIdeal.main_v286) = StableHlo.after Cert.ReferenceIdeal.Pfx.w25 V' (Proc.devRef .tc Cert.ReferenceIdeal.main_v286)) := by
  refine ⟨?_, ?_, ?_, ?_, ?_⟩ <;>
  · after_results_simp
    try results_rw
    try simp only [h0, h1, h2, h3, h4]
    try rw [h0]
    try rw [h1]
    try rw [h2]
    try rw [h3]
    try rw [h4]
    try chain_rfl

set_option maxHeartbeats 4000000 in
theorem agree26 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v286) = V' (Proc.devRef .tc Cert.ReferenceIdeal.main_v286)) :
    (StableHlo.after Cert.KernelIdeal.Pfx.w26 V (Proc.devRef .tc Cert.KernelIdeal.main_arg1) = StableHlo.after Cert.ReferenceIdeal.Pfx.w26 V' (Proc.devRef .tc Cert.ReferenceIdeal.main_arg1))
      ∧ (StableHlo.after Cert.KernelIdeal.Pfx.w26 V (Proc.devRef .tc Cert.KernelIdeal.main_arg2) = StableHlo.after Cert.ReferenceIdeal.Pfx.w26 V' (Proc.devRef .tc Cert.ReferenceIdeal.main_arg2))
      ∧ (StableHlo.after Cert.KernelIdeal.Pfx.w26 V (Proc.devRef .tc Cert.KernelIdeal.main_arg3) = StableHlo.after Cert.ReferenceIdeal.Pfx.w26 V' (Proc.devRef .tc Cert.ReferenceIdeal.main_arg3))
      ∧ (StableHlo.after Cert.KernelIdeal.Pfx.w26 V (Proc.devRef .tc Cert.KernelIdeal.main_v22) = StableHlo.after Cert.ReferenceIdeal.Pfx.w26 V' (Proc.devRef .tc Cert.ReferenceIdeal.main_v22))
      ∧ (StableHlo.after Cert.KernelIdeal.Pfx.w26 V (Proc.devRef .tc Cert.KernelIdeal.main_v297) = StableHlo.after Cert.ReferenceIdeal.Pfx.w26 V' (Proc.devRef .tc Cert.ReferenceIdeal.main_v297))
      ∧ (StableHlo.after Cert.KernelIdeal.Pfx.w26 V (Proc.devRef .tc Cert.KernelIdeal.main_v298) = StableHlo.after Cert.ReferenceIdeal.Pfx.w26 V' (Proc.devRef .tc Cert.ReferenceIdeal.main_v298)) := by
  refine ⟨?_, ?_, ?_, ?_, ?_, ?_⟩ <;>
  · after_results_simp
    try results_rw
    try simp only [h0, h1, h2, h3, h4]
    try rw [h0]
    try rw [h1]
    try rw [h2]
    try rw [h3]
    try rw [h4]
    try chain_rfl

set_option maxHeartbeats 4000000 in
theorem agree27 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v297) = V' (Proc.devRef .tc Cert.ReferenceIdeal.main_v297))
    (h5 : V (Proc.devRef .tc Cert.KernelIdeal.main_v298) = V' (Proc.devRef .tc Cert.ReferenceIdeal.main_v298)) :
    (StableHlo.after Cert.KernelIdeal.Pfx.w27 V (Proc.devRef .tc Cert.KernelIdeal.main_arg1) = StableHlo.after Cert.ReferenceIdeal.Pfx.w27 V' (Proc.devRef .tc Cert.ReferenceIdeal.main_arg1))
      ∧ (StableHlo.after Cert.KernelIdeal.Pfx.w27 V (Proc.devRef .tc Cert.KernelIdeal.main_arg2) = StableHlo.after Cert.ReferenceIdeal.Pfx.w27 V' (Proc.devRef .tc Cert.ReferenceIdeal.main_arg2))
      ∧ (StableHlo.after Cert.KernelIdeal.Pfx.w27 V (Proc.devRef .tc Cert.KernelIdeal.main_arg3) = StableHlo.after Cert.ReferenceIdeal.Pfx.w27 V' (Proc.devRef .tc Cert.ReferenceIdeal.main_arg3))
      ∧ (StableHlo.after Cert.KernelIdeal.Pfx.w27 V (Proc.devRef .tc Cert.KernelIdeal.main_v22) = StableHlo.after Cert.ReferenceIdeal.Pfx.w27 V' (Proc.devRef .tc Cert.ReferenceIdeal.main_v22))
      ∧ (StableHlo.after Cert.KernelIdeal.Pfx.w27 V (Proc.devRef .tc Cert.KernelIdeal.main_v308) = StableHlo.after Cert.ReferenceIdeal.Pfx.w27 V' (Proc.devRef .tc Cert.ReferenceIdeal.main_v308))
      ∧ (StableHlo.after Cert.KernelIdeal.Pfx.w27 V (Proc.devRef .tc Cert.KernelIdeal.main_v310) = StableHlo.after Cert.ReferenceIdeal.Pfx.w27 V' (Proc.devRef .tc Cert.ReferenceIdeal.main_v310)) := by
  refine ⟨?_, ?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree28 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v308) = V' (Proc.devRef .tc Cert.ReferenceIdeal.main_v308))
    (h5 : V (Proc.devRef .tc Cert.KernelIdeal.main_v310) = V' (Proc.devRef .tc Cert.ReferenceIdeal.main_v310)) :
    (StableHlo.after Cert.KernelIdeal.Pfx.w28 V (Proc.devRef .tc Cert.KernelIdeal.main_arg1) = StableHlo.after Cert.ReferenceIdeal.Pfx.w28 V' (Proc.devRef .tc Cert.ReferenceIdeal.main_arg1))
      ∧ (StableHlo.after Cert.KernelIdeal.Pfx.w28 V (Proc.devRef .tc Cert.KernelIdeal.main_arg2) = StableHlo.after Cert.ReferenceIdeal.Pfx.w28 V' (Proc.devRef .tc Cert.ReferenceIdeal.main_arg2))
      ∧ (StableHlo.after Cert.KernelIdeal.Pfx.w28 V (Proc.devRef .tc Cert.KernelIdeal.main_arg3) = StableHlo.after Cert.ReferenceIdeal.Pfx.w28 V' (Proc.devRef .tc Cert.ReferenceIdeal.main_arg3))
      ∧ (StableHlo.after Cert.KernelIdeal.Pfx.w28 V (Proc.devRef .tc Cert.KernelIdeal.main_v22) = StableHlo.after Cert.ReferenceIdeal.Pfx.w28 V' (Proc.devRef .tc Cert.ReferenceIdeal.main_v22))
      ∧ (StableHlo.after Cert.KernelIdeal.Pfx.w28 V (Proc.devRef .tc Cert.KernelIdeal.main_v321) = StableHlo.after Cert.ReferenceIdeal.Pfx.w28 V' (Proc.devRef .tc Cert.ReferenceIdeal.main_v321)) := by
  refine ⟨?_, ?_, ?_, ?_, ?_⟩ <;>
  · after_results_simp
    try results_rw
    try simp only [h0, h1, h2, h3, h4, h5]
    try rw [h0]
    try rw [h1]
    try rw [h2]
    try rw [h3]
    try rw [h4]
    try rw [h5]
    try chain_rfl

set_option maxHeartbeats 4000000 in
theorem agree29 (V : Valuation Cert.KernelIdeal.τ Cert.KernelIdeal.sig (Elt F)) (V' : Valuation Cert.ReferenceIdeal.τ Cert.ReferenceIdeal.sig (Elt F))
    (h0 : V (Proc.devRef .tc Cert.KernelIdeal.main_arg1) = V' (Proc.devRef .tc Cert.ReferenceIdeal.main_arg1))
    (h1 : V (Proc.devRef .tc Cert.KernelIdeal.main_arg2) = V' (Proc.devRef .tc Cert.ReferenceIdeal.main_arg2))
    (h2 : V (Proc.devRef .tc Cert.KernelIdeal.main_arg3) = V' (Proc.devRef .tc Cert.ReferenceIdeal.main_arg3))
    (h3 : V (Proc.devRef .tc Cert.KernelIdeal.main_v22) = V' (Proc.devRef .tc Cert.ReferenceIdeal.main_v22))
    (h4 : V (Proc.devRef .tc Cert.KernelIdeal.main_v321) = V' (Proc.devRef .tc Cert.ReferenceIdeal.main_v321)) :
    (StableHlo.after Cert.KernelIdeal.Pfx.w29 V (Proc.devRef .tc Cert.KernelIdeal.main_v22) = StableHlo.after Cert.ReferenceIdeal.Pfx.w29 V' (Proc.devRef .tc Cert.ReferenceIdeal.main_v22))
      ∧ (StableHlo.after Cert.KernelIdeal.Pfx.w29 V (Proc.devRef .tc Cert.KernelIdeal.main_v331) = StableHlo.after Cert.ReferenceIdeal.Pfx.w29 V' (Proc.devRef .tc Cert.ReferenceIdeal.main_v331)) := by
  refine ⟨?_, ?_⟩ <;>
  · after_results_simp
    try results_rw
    try simp only [h0, h1, h2, h3, h4]
    try rw [h0]
    try rw [h1]
    try rw [h2]
    try rw [h3]
    try rw [h4]
    try chain_rfl

end Cert.PfxAgree
end
-- ==== Proof.PfxAgree.lean ====
import proofs.«404041_j68642167324808_1_alg».proof.Proof.PfxAgree0
import proofs.«404041_j68642167324808_1_alg».proof.Proof.PfxAgree1
import proofs.«404041_j68642167324808_1_alg».proof.Proof.PfxAgree2
import proofs.«404041_j68642167324808_1_alg».proof.Proof.PfxAgree3
import proofs.«404041_j68642167324808_1_alg».proof.Proof.PfxAgree4

noncomputable section

namespace Cert.PfxAgree

open Idealize.ShloMosaic Idealize.ShloMosaic.TcCoe Idealize.SL.Sem Idealize.ShloMosaic.StableHlo

variable {F : FTy → Type} [FloatOps F]

set_option maxHeartbeats 4000000 in
theorem pre_agree (V : Valuation Cert.KernelIdeal.τ Cert.KernelIdeal.sig (Elt F)) (V' : Valuation Cert.ReferenceIdeal.τ Cert.ReferenceIdeal.sig (Elt F))
    (a0 : V (Proc.devRef .tc Cert.KernelIdeal.main_arg0) = V' (Proc.devRef .tc Cert.ReferenceIdeal.main_arg0))
    (a1 : V (Proc.devRef .tc Cert.KernelIdeal.main_arg1) = V' (Proc.devRef .tc Cert.ReferenceIdeal.main_arg1))
    (a2 : V (Proc.devRef .tc Cert.KernelIdeal.main_arg2) = V' (Proc.devRef .tc Cert.ReferenceIdeal.main_arg2))
    (a3 : V (Proc.devRef .tc Cert.KernelIdeal.main_arg3) = V' (Proc.devRef .tc Cert.ReferenceIdeal.main_arg3))
    (a4 : V (Proc.devRef .tc Cert.KernelIdeal.main_arg4) = V' (Proc.devRef .tc Cert.ReferenceIdeal.main_arg4))
    (a5 : V (Proc.devRef .tc Cert.KernelIdeal.main_arg5) = V' (Proc.devRef .tc Cert.ReferenceIdeal.main_arg5)) :
    (after Cert.KernelIdeal.Pfx.pre V (Proc.devRef .tc Cert.KernelIdeal.main_v22) = after Cert.ReferenceIdeal.Pfx.pre V' (Proc.devRef .tc Cert.ReferenceIdeal.main_v22))
      ∧ (after Cert.KernelIdeal.Pfx.pre V (Proc.devRef .tc Cert.KernelIdeal.main_v331) = after Cert.ReferenceIdeal.Pfx.pre V' (Proc.devRef .tc Cert.ReferenceIdeal.main_v331)) := by
  simp only [Cert.KernelIdeal.Pfx.pre, Cert.ReferenceIdeal.Pfx.pre, after_app]
  obtain ⟨e0_0, e0_1, e0_2, e0_3, e0_4, e0_5, e0_6, e0_7, e0_8⟩ := agree0 V V' a0 a1 a2 a3 a4 a5
  obtain ⟨e1_0, e1_1, e1_2, e1_3, e1_4, e1_5, e1_6, e1_7, e1_8, e1_9, e1_10⟩ := agree1 (after Cert.KernelIdeal.Pfx.w0 V) (after Cert.ReferenceIdeal.Pfx.w0 V') e0_0 e0_1 e0_2 e0_3 e0_4 e0_5 e0_6 e0_7 e0_8
  obtain ⟨e2_0, e2_1, e2_2, e2_3, e2_4, e2_5, e2_6⟩ := agree2 (after Cert.KernelIdeal.Pfx.w1 (after Cert.KernelIdeal.Pfx.w0 V)) (after Cert.ReferenceIdeal.Pfx.w1 (after Cert.ReferenceIdeal.Pfx.w0 V')) e1_0 e1_1 e1_2 e1_3 e1_4 e1_5 e1_6 e1_7 e1_8 e1_9 e1_10
  obtain ⟨e3_0, e3_1, e3_2, e3_3, e3_4, e3_5, e3_6, e3_7⟩ := agree3 (after Cert.KernelIdeal.Pfx.w2 (after Cert.KernelIdeal.Pfx.w1 (after Cert.KernelIdeal.Pfx.w0 V))) (after Cert.ReferenceIdeal.Pfx.w2 (after Cert.ReferenceIdeal.Pfx.w1 (after Cert.ReferenceIdeal.Pfx.w0 V'))) e2_0 e2_1 e2_2 e2_3 e2_4 e2_5 e2_6
  obtain ⟨e4_0, e4_1, e4_2, e4_3, e4_4, e4_5, e4_6, e4_7⟩ := agree4 (after Cert.KernelIdeal.Pfx.w3 (after Cert.KernelIdeal.Pfx.w2 (after Cert.KernelIdeal.Pfx.w1 (after Cert.KernelIdeal.Pfx.w0 V)))) (after Cert.ReferenceIdeal.Pfx.w3 (after Cert.ReferenceIdeal.Pfx.w2 (after Cert.ReferenceIdeal.Pfx.w1 (after Cert.ReferenceIdeal.Pfx.w0 V')))) e3_0 e3_1 e3_2 e3_3 e3_4 e3_5 e3_6 e3_7
  obtain ⟨e5_0, e5_1, e5_2, e5_3, e5_4, e5_5⟩ := agree5 (after Cert.KernelIdeal.Pfx.w4 (after Cert.KernelIdeal.Pfx.w3 (after Cert.KernelIdeal.Pfx.w2 (after Cert.KernelIdeal.Pfx.w1 (after Cert.KernelIdeal.Pfx.w0 V))))) (after Cert.ReferenceIdeal.Pfx.w4 (after Cert.ReferenceIdeal.Pfx.w3 (after Cert.ReferenceIdeal.Pfx.w2 (after Cert.ReferenceIdeal.Pfx.w1 (after Cert.ReferenceIdeal.Pfx.w0 V'))))) e4_0 e4_1 e4_2 e4_3 e4_4 e4_5 e4_6 e4_7
  obtain ⟨e6_0, e6_1, e6_2, e6_3, e6_4, e6_5⟩ := agree6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))) (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))) e5_0 e5_1 e5_2 e5_3 e5_4 e5_5
  obtain ⟨e7_0, e7_1, e7_2, e7_3, e7_4, e7_5⟩ := agree7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))) (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))) e6_0 e6_1 e6_2 e6_3 e6_4 e6_5
  obtain ⟨e8_0, e8_1, e8_2, e8_3, e8_4⟩ := agree8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))) (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))) e7_0 e7_1 e7_2 e7_3 e7_4 e7_5
  obtain ⟨e9_0, e9_1, e9_2, e9_3, e9_4⟩ := agree9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))) (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))) e8_0 e8_1 e8_2 e8_3 e8_4
  obtain ⟨e10_0, e10_1, e10_2, e10_3, e10_4⟩ := agree10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))) (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))) e9_0 e9_1 e9_2 e9_3 e9_4
  obtain ⟨e11_0, e11_1, e11_2, e11_3, e11_4, e11_5⟩ := agree11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))) (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))) e10_0 e10_1 e10_2 e10_3 e10_4
  obtain ⟨e12_0, e12_1, e12_2, e12_3, e12_4, e12_5⟩ := agree12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))) (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))) e11_0 e11_1 e11_2 e11_3 e11_4 e11_5
  obtain ⟨e13_0, e13_1, e13_2, e13_3, e13_4, e13_5⟩ := agree13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))) (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))) e12_0 e12_1 e12_2 e12_3 e12_4 e12_5
  obtain ⟨e14_0, e14_1, e14_2, e14_3, e14_4, e14_5⟩ := agree14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))) (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))) e13_0 e13_1 e13_2 e13_3 e13_4 e13_5
  obtain ⟨e15_0, e15_1, e15_2, e15_3, e15_4, e15_5, e15_6⟩ := agree15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))) (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))) e14_0 e14_1 e14_2 e14_3 e14_4 e14_5
  obtain ⟨e16_0, e16_1, e16_2, e16_3, e16_4, e16_5⟩ := agree16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))) (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))) e15_0 e15_1 e15_2 e15_3 e15_4 e15_5 e15_6
  obtain ⟨e17_0, e17_1, e17_2, e17_3, e17_4, e17_5⟩ := agree17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))) (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))) e16_0 e16_1 e16_2 e16_3 e16_4 e16_5
  obtain ⟨e18_0, e18_1, e18_2, e18_3, e18_4, e18_5⟩ := agree18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))) (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))) e17_0 e17_1 e17_2 e17_3 e17_4 e17_5
  obtain ⟨e19_0, e19_1, e19_2, e19_3, e19_4, e19_5, e19_6⟩ := agree19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))) (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))) e18_0 e18_1 e18_2 e18_3 e18_4 e18_5
  obtain ⟨e20_0, e20_1, e20_2, e20_3, e20_4, e20_5⟩ := agree20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))))) (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))))) e19_0 e19_1 e19_2 e19_3 e19_4 e19_5 e19_6
  obtain ⟨e21_0, e21_1, e21_2, e21_3, e21_4, e21_5⟩ := agree21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))))) (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))))) e20_0 e20_1 e20_2 e20_3 e20_4 e20_5
  obtain ⟨e22_0, e22_1, e22_2, e22_3, e22_4, e22_5⟩ := agree22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))))))) (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))))))) e21_0 e21_1 e21_2 e21_3 e21_4 e21_5
  obtain ⟨e23_0, e23_1, e23_2, e23_3, e23_4⟩ := agree23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))))))) (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))))))) e22_0 e22_1 e22_2 e22_3 e22_4 e22_5
  obtain ⟨e24_0, e24_1, e24_2, e24_3, e24_4⟩ := agree24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))))))))) (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))))))))) e23_0 e23_1 e23_2 e23_3 e23_4
  obtain ⟨e25_0, e25_1, e25_2, e25_3, e25_4⟩ := agree25 (after Cert.KernelIdeal.Pfx.w24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))))))))) (after Cert.ReferenceIdeal.Pfx.w24 (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))))))))) e24_0 e24_1 e24_2 e24_3 e24_4
  obtain ⟨e26_0, e26_1, e26_2, e26_3, e26_4, e26_5⟩ := agree26 (after Cert.KernelIdeal.Pfx.w25 (after Cert.KernelIdeal.Pfx.w24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))))))))))) (after Cert.ReferenceIdeal.Pfx.w25 (after Cert.ReferenceIdeal.Pfx.w24 (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))))))))))) e25_0 e25_1 e25_2 e25_3 e25_4
  obtain ⟨e27_0, e27_1, e27_2, e27_3, e27_4, e27_5⟩ := agree27 (after Cert.KernelIdeal.Pfx.w26 (after Cert.KernelIdeal.Pfx.w25 (after Cert.KernelIdeal.Pfx.w24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))))))))))) (after Cert.ReferenceIdeal.Pfx.w26 (after Cert.ReferenceIdeal.Pfx.w25 (after Cert.ReferenceIdeal.Pfx.w24 (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))))))))))) e26_0 e26_1 e26_2 e26_3 e26_4 e26_5
  obtain ⟨e28_0, e28_1, e28_2, e28_3, e28_4⟩ := agree28 (after Cert.KernelIdeal.Pfx.w27 (after Cert.KernelIdeal.Pfx.w26 (after Cert.KernelIdeal.Pfx.w25 (after Cert.KernelIdeal.Pfx.w24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V)))))))))))))))))))))))))))) (after Cert.ReferenceIdeal.Pfx.w27 (after Cert.ReferenceIdeal.Pfx.w26 (after Cert.ReferenceIdeal.Pfx.w25 (after Cert.ReferenceIdeal.Pfx.w24 (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V')))))))))))))))))))))))))))) e27_0 e27_1 e27_2 e27_3 e27_4 e27_5
  obtain ⟨e29_0, e29_1⟩ := agree29 (after Cert.KernelIdeal.Pfx.w28 (after Cert.KernelIdeal.Pfx.w27 (after Cert.KernelIdeal.Pfx.w26 (after Cert.KernelIdeal.Pfx.w25 (after Cert.KernelIdeal.Pfx.w24 (after Cert.KernelIdeal.Pfx.w23 (after Cert.KernelIdeal.Pfx.w22 (after Cert.KernelIdeal.Pfx.w21 (after Cert.KernelIdeal.Pfx.w20 (after Cert.KernelIdeal.Pfx.w19 (after Cert.KernelIdeal.Pfx.w18 (after Cert.KernelIdeal.Pfx.w17 (after Cert.KernelIdeal.Pfx.w16 (after Cert.KernelIdeal.Pfx.w15 (after Cert.KernelIdeal.Pfx.w14 (after Cert.KernelIdeal.Pfx.w13 (after Cert.KernelIdeal.Pfx.w12 (after Cert.KernelIdeal.Pfx.w11 (after Cert.KernelIdeal.Pfx.w10 (after Cert.KernelIdeal.Pfx.w9 (after Cert.KernelIdeal.Pfx.w8 (after Cert.KernelIdeal.Pfx.w7 (after Cert.KernelIdeal.Pfx.w6 (after Cert.KernelIdeal.Pfx.w5 (after Cert.KernelIdeal.Pfx.w4 (after Cert.KernelIdeal.Pfx.w3 (after Cert.KernelIdeal.Pfx.w2 (after Cert.KernelIdeal.Pfx.w1 (after Cert.KernelIdeal.Pfx.w0 V))))))))))))))))))))))))))))) (after Cert.ReferenceIdeal.Pfx.w28 (after Cert.ReferenceIdeal.Pfx.w27 (after Cert.ReferenceIdeal.Pfx.w26 (after Cert.ReferenceIdeal.Pfx.w25 (after Cert.ReferenceIdeal.Pfx.w24 (after Cert.ReferenceIdeal.Pfx.w23 (after Cert.ReferenceIdeal.Pfx.w22 (after Cert.ReferenceIdeal.Pfx.w21 (after Cert.ReferenceIdeal.Pfx.w20 (after Cert.ReferenceIdeal.Pfx.w19 (after Cert.ReferenceIdeal.Pfx.w18 (after Cert.ReferenceIdeal.Pfx.w17 (after Cert.ReferenceIdeal.Pfx.w16 (after Cert.ReferenceIdeal.Pfx.w15 (after Cert.ReferenceIdeal.Pfx.w14 (after Cert.ReferenceIdeal.Pfx.w13 (after Cert.ReferenceIdeal.Pfx.w12 (after Cert.ReferenceIdeal.Pfx.w11 (after Cert.ReferenceIdeal.Pfx.w10 (after Cert.ReferenceIdeal.Pfx.w9 (after Cert.ReferenceIdeal.Pfx.w8 (after Cert.ReferenceIdeal.Pfx.w7 (after Cert.ReferenceIdeal.Pfx.w6 (after Cert.ReferenceIdeal.Pfx.w5 (after Cert.ReferenceIdeal.Pfx.w4 (after Cert.ReferenceIdeal.Pfx.w3 (after Cert.ReferenceIdeal.Pfx.w2 (after Cert.ReferenceIdeal.Pfx.w1 (after Cert.ReferenceIdeal.Pfx.w0 V'))))))))))))))))))))))))))))) e28_0 e28_1 e28_2 e28_3 e28_4
  exact ⟨e29_0, e29_1⟩

end Cert.PfxAgree
end
-- ==== Proof.lean ====
/- Equivalence over the extended reals of a tiled matrix product against one contraction, behind a long shared host prefix.

   Both programs first run the same host operations on the six arguments: the activations are fake-quantised per input channel
   (`xq`, f32[4, 2048, 4096]); the trellis words are decoded through the lookup table into a 4096 × 4096 matrix, which is
   Hadamard-transformed along both axes, multiplied by the two sign vectors and scaled group by group (`w`). The reference then
   contracts `xq[b, s, ·]` with `w[o, ·]`. The kernel's program transposes `w`, flattens `xq` to 8192 rows, narrows both to bf16 (the
   identity over the extended reals) and multiplies them block by block: for each 1024 × 1024 output block four products of
   1024 × 1024 blocks are added in order onto a zero accumulator; the result is reshaped back to [4, 2048, 4096].

   Entry (b, s, o) is on both sides  ∑ₖ xq[b, s, k] · w[o, k]  over the 4096 values of k: the kernel's four partial sums of 1024
   terms added onto zero are that sum because addition of extended reals is commutative and associative (no finiteness is
   needed), its row 2048·b + s of the flattened activations is row (b, s), and its transposed weight read at (k, o) is w[o, k].
   That the two programs compute the same `xq` and `w` from arguments that agree is shown by reading the shared prefix in lock
   step, window by window, never opening what the operations compute. The three frames are the generated frames of the two
   kernel programs and the reference's straight-line run; the ideal pass rewrote nothing, so `preserves` asks nothing. -/
import proofs.«404041_j68642167324808_1_alg».proof.Defs
import proofs.«404041_j68642167324808_1_alg».proof.Proof.Gen.Kernel
import proofs.«404041_j68642167324808_1_alg».proof.Proof.Gen.Kernel.Skeleton
import proofs.«404041_j68642167324808_1_alg».proof.Proof.Gen.Kernel.Launch
import proofs.«404041_j68642167324808_1_alg».proof.Proof.Gen.Kernel.Points
import proofs.«404041_j68642167324808_1_alg».proof.Proof.Gen.Kernel.Frame
import proofs.«404041_j68642167324808_1_alg».proof.Proof.Gen.KernelIdeal
import proofs.«404041_j68642167324808_1_alg».proof.Proof.Gen.KernelIdeal.Skeleton
import proofs.«404041_j68642167324808_1_alg».proof.Proof.Gen.KernelIdeal.Launch
import proofs.«404041_j68642167324808_1_alg».proof.Proof.Gen.KernelIdeal.Points
import proofs.«404041_j68642167324808_1_alg».proof.Proof.Gen.KernelIdeal.Frame
import proofs.«404041_j68642167324808_1_alg».proof.Proof.Gen.ReferenceIdeal
import proofs.«404041_j68642167324808_1_alg».proof.Proof.Gen.Pre_finite_inputs
import proofs.«404041_j68642167324808_1_alg».proof.Proof.KerVal
import proofs.«404041_j68642167324808_1_alg».proof.Proof.KerPre
import proofs.«404041_j68642167324808_1_alg».proof.Proof.Operands
import proofs.«404041_j68642167324808_1_alg».proof.Proof.RefRun
import proofs.«404041_j68642167324808_1_alg».proof.Proof.RefDot
import proofs.«404041_j68642167324808_1_alg».proof.Proof.PfxAgree
import Idealize.ShloMosaic.Adequacy
import Idealize.ShloMosaic.Init

noncomputable section

namespace Cert.Proof

open Idealize.ShloMosaic Idealize.ShloMosaic.TcCoe Idealize.SL.Sem Idealize.ShloMosaic.StableHlo
open Idealize.ShloMosaic.ValueIdx

/-- The reference's contraction of `X` with `W` is the array whose entry (b, s, o) sums, over k, row 2048·b + s of `X` flattened
    and narrowed against column o of `W` transposed and narrowed: both are ∑ₖ X[b, s, k] · W[o, k]. -/
theorem value_eq (X : FVec Ideal Cert.KernelIdeal.S4x2048x4096 .f32) (W : FVec Ideal Cert.KernelIdeal.S4096x4096 .f32)
    (res : FVec Ideal Cert.KernelIdeal.S4x2048x4096 .f32)
    (hres : ∀ (b : Fin 4) (s : Fin 2048) (o : Fin 4096), res (ix3 b s o) = ∑ k : Fin 4096,
      (truncf .bf16 (shapeCast Cert.KernelIdeal.S8192x4096 X Cert.KernelIdeal.Gen.shapeCasts_S4x2048x4096_S8192x4096) Cert.KernelIdeal.Gen.bitsLt_bf16_f32 : FVec Ideal Cert.KernelIdeal.S8192x4096 .bf16)
          (ix2 ⟨2048 * b.val + s.val, by omega⟩ k)
        * (truncf .bf16 (transpose Cert.KernelIdeal.S4096x4096 [1, 0] W Cert.KernelIdeal.Gen.transposes_S4096x4096_S4096x4096_1_0) Cert.KernelIdeal.Gen.bitsLt_bf16_f32 : FVec Ideal Cert.KernelIdeal.S4096x4096 .bf16)
          (ix2 k o)) :
    Host.dotGeneral (F := Ideal) Cert.ReferenceIdeal.dot_S4x2048x4096_S4096x4096_S4x2048x4096_2_1_01_0_n_n none X W = res := by
  funext i
  obtain ⟨b, s, o, rfl⟩ : ∃ (b : Fin 4) (s : Fin 2048) (o : Fin 4096), i = ix3 b s o := ⟨i 0, i 1, i 2, eq_ix3 i⟩
  rw [Cert.ReferenceIdeal.RefDot.dot_apply, hres]
  exact Finset.sum_congr rfl fun k _ => by rw [Cert.KernelIdeal.Operands.lhs_apply, Cert.KernelIdeal.Operands.rhs_apply]

/-- The kernel's left operand is the prefix's activations flattened and narrowed, -/
theorem lhs_eq (m : (ℓ : Loc Cert.KernelIdeal.nD Cert.KernelIdeal.τ Cert.KernelIdeal.sig) → Buf (Elt Ideal) ℓ) (c : Dev Cert.KernelIdeal.nD) :
    Cert.KernelIdeal.KerSum.lhsArr m c
      = truncf .bf16 (shapeCast Cert.KernelIdeal.S8192x4096 (after Cert.KernelIdeal.Pfx.pre (launchContents m c) (Proc.devRef .tc Cert.KernelIdeal.main_v22)) Cert.KernelIdeal.Gen.shapeCasts_S4x2048x4096_S8192x4096) Cert.KernelIdeal.Gen.bitsLt_bf16_f32 :=
  Cert.KernelIdeal.KerPre.V_lhs m c

/-- and its right operand the prefix's weight matrix transposed and narrowed. -/
theorem rhs_eq (m : (ℓ : Loc Cert.KernelIdeal.nD Cert.KernelIdeal.τ Cert.KernelIdeal.sig) → Buf (Elt Ideal) ℓ) (c : Dev Cert.KernelIdeal.nD) :
    Cert.KernelIdeal.KerSum.rhsArr m c
      = truncf .bf16 (transpose Cert.KernelIdeal.S4096x4096 [1, 0] (after Cert.KernelIdeal.Pfx.pre (launchContents m c) (Proc.devRef .tc Cert.KernelIdeal.main_v331)) Cert.KernelIdeal.Gen.transposes_S4096x4096_S4096x4096_1_0) Cert.KernelIdeal.Gen.bitsLt_bf16_f32 :=
  Cert.KernelIdeal.KerPre.V_rhs m c

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments the two prefixes leave the same activations and weight (`pre_agree`); the kernel's
    result is the blockwise product of them laid out as its operands (`result_apply` over `V_lhs`, `V_rhs`), the reference's their
    contraction; one function (`value_eq`). -/
theorem algebraic : Cert.algebraic_KernelIdeal_ReferenceIdeal := by
  intro m ρ m' ρ' _ hagree
  refine ⟨fun c => Cert.KernelIdeal.KerVal.result m c, Cert.KernelIdeal.KerVal.run m ρ, ?_⟩
  refine (θ_run Cert.ReferenceIdeal.defs _ _).mono (fun r h c => ⟨(h c).1.trans ?_, (h c).2⟩)
    (Cert.ReferenceIdeal.RefRun.run (F := Ideal) m' ρ')
  obtain ⟨e22, e331⟩ := Cert.PfxAgree.pre_agree (F := Ideal) (launchContents m c) (launchContents m' c)
    (hagree c).1.symm (hagree c).2.1.symm (hagree c).2.2.1.symm (hagree c).2.2.2.1.symm (hagree c).2.2.2.2.1.symm (hagree c).2.2.2.2.2.symm
  rw [← e22, ← e331]
  refine value_eq _ _ _ fun b s o => ?_
  beta_reduce
  rw [Cert.KernelIdeal.KerVal.result_apply]
  rw [lhs_eq, rhs_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
